-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x1433 : Shape := ⟨2, ![12288, 1433]⟩
abbrev S2x196608 : Shape := ⟨2, ![2, 196608]⟩
abbrev S1433x32 : Shape := ⟨2, ![1433, 32]⟩
abbrev S32 : Shape := ⟨1, ![32]⟩
abbrev S32x16 : Shape := ⟨2, ![32, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S12288x1433 : S_.BroadcastsInDim S12288x1433 (![] : Fin 0 → Fin S12288x1433.rank)
  reducesTo_S12288x1433_S_d0_1 : S12288x1433.ReducesTo [0, 1] S_
  h_S_ : 0 < S_.numel
  bcast_S_S1433x32 : S_.BroadcastsInDim S1433x32 (![] : Fin 0 → Fin S1433x32.rank)
  reducesTo_S1433x32_S_d0_1 : S1433x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_
  bcast_S_S2x196608 : S_.BroadcastsInDim S2x196608 (![] : Fin 0 → Fin S2x196608.rank)
  reducesTo_S2x196608_S_d0_1 : S2x196608.ReducesTo [0, 1] S_

variable [Facts]

def fn_part3 {F : FTy → Type} [FloatOps F] (main_v47 : IVec S_ 1) (main_v49 : IVec S2x196608 1) (main_c_19 : IVec S_ 1) : IVec S_ 1 :=
  let main_v50 : IVec S_ 1 := (fun x v => Host.reduce IntOp.andi x v reducesTo_S2x196608_S_d0_1 h_S_) main_v49 main_c_19
  let main_v51 : IVec S_ 1 := andi main_v47 main_v50
  main_v51

def fn_part2 {F : FTy → Type} [FloatOps F] (main_arg1 : IVec S2x196608 32) (main_arg8 : FVec F S16x7 .f32) (main_arg9 : FVec F S7 .f32) (main_v33 : IVec S_ 1) : IVec S_ 1 :=
  let main_v34 : FVec F S16x7 .f32 := Host.absf main_arg8
  let main_cst_12 : FVec F S_ .f32 := constant S_ .f32 0x7F800000#32
  let main_v35 : FVec F S16x7 .f32 := broadcastInDim S16x7 ![] bcast_S_S16x7 main_cst_12
  let main_v36 : IVec S16x7 1 := cmpf .olt main_v34 main_v35
  let main_c_13 : IVec S_ 1 := constantI S_ 1 1#1
  let main_v37 : IVec S_ 1 := (fun x v => Host.reduce IntOp.andi x v reducesTo_S16x7_S_d0_1 h_S_) main_v36 main_c_13
  let main_v38 : IVec S_ 1 := andi main_v33 main_v37
  let main_v39 : FVec F S7 .f32 := Host.absf main_arg9
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  let main_c_16 : IVec S_ 32 := constantI S_ 32 0#32
  let main_v44 : IVec S2x196608 32 := broadcastInDim S2x196608 ![] bcast_S_S2x196608 main_c_16
  let main_v45 : IVec S2x196608 1 := cmpi .sge main_arg1 main_v44
  let main_c_17 : IVec S_ 1 := constantI S_ 1 1#1
  let main_v46 : IVec S_ 1 := (fun x v => Host.reduce IntOp.andi x v reducesTo_S2x196608_S_d0_1 h_S_) main_v45 main_c_17
  let main_v47 : IVec S_ 1 := andi main_v43 main_v46
  let main_c_18 : IVec S_ 32 := constantI S_ 32 12288#32
  let main_v48 : IVec S2x196608 32 := broadcastInDim S2x196608 ![] bcast_S_S2x196608 main_c_18
  let main_v49 : IVec S2x196608 1 := cmpi .slt main_arg1 main_v48
  let main_c_19 : IVec S_ 1 := constantI S_ 1 1#1
  fn_part3 (F := F) main_v47 main_v49 main_c_19

def fn_part1 {F : FTy → Type} [FloatOps F] (main_arg1 : IVec S2x196608 32) (main_arg5 : FVec F S16 .f32) (main_arg6 : FVec F S32x16 .f32) (main_arg7 : FVec F S16 .f32) (main_arg8 : FVec F S16x7 .f32) (main_arg9 : FVec F S7 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg8 main_arg9 main_v33

def fn {F : FTy → Type} [FloatOps F] (main_arg0 : FVec F S12288x1433 .f32) (main_arg1 : IVec S2x196608 32) (main_arg2 : FVec F S1433x32 .f32) (main_arg3 : FVec F S32 .f32) (main_arg4 : FVec F S32x16 .f32) (main_arg5 : FVec F S16 .f32) (main_arg6 : FVec F S32x16 .f32) (main_arg7 : FVec F S16 .f32) (main_arg8 : FVec F S16x7 .f32) (main_arg9 : FVec F S7 .f32) : IVec S_ 1 :=
  let main_v0 : FVec F S12288x1433 .f32 := Host.absf main_arg0
  let main_cst : FVec F S_ .f32 := constant S_ .f32 0x7F800000#32
  let main_v1 : FVec F S12288x1433 .f32 := broadcastInDim S12288x1433 ![] bcast_S_S12288x1433 main_cst
  let main_v2 : IVec S12288x1433 1 := cmpf .olt main_v0 main_v1
  let main_c : IVec S_ 1 := constantI S_ 1 1#1
  let main_v3 : IVec S_ 1 := (fun x v => Host.reduce IntOp.andi x v reducesTo_S12288x1433_S_d0_1 h_S_) main_v2 main_c
  let main_v4 : FVec F S1433x32 .f32 := Host.absf main_arg2
  let main_cst_0 : FVec F S_ .f32 := constant S_ .f32 0x7F800000#32
  let main_v5 : FVec F S1433x32 .f32 := broadcastInDim S1433x32 ![] bcast_S_S1433x32 main_cst_0
  let main_v6 : IVec S1433x32 1 := cmpf .olt main_v4 main_v5
  let main_c_1 : IVec S_ 1 := constantI S_ 1 1#1
  let main_v7 : IVec S_ 1 := (fun x v => Host.reduce IntOp.andi x v reducesTo_S1433x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg1 main_arg5 main_arg6 main_arg7 main_arg8 main_arg9 main_v13 main_v16
-- ==== Kernel.lean ====
abbrev S12288x1433 : Shape := ⟨2, ![12288, 1433]⟩
abbrev S2x196608 : Shape := ⟨2, ![2, 196608]⟩
abbrev S1433x32 : Shape := ⟨2, ![1433, 32]⟩
abbrev S32 : Shape := ⟨1, ![32]⟩
abbrev S32x16 : Shape := ⟨2, ![32, 16]⟩
abbrev S16 : Shape := ⟨1, ![16]⟩
abbrev S16x7 : Shape := ⟨2, ![16, 7]⟩
abbrev S7 : Shape := ⟨1, ![7]⟩
abbrev S12288 : Shape := ⟨1, ![12288]⟩
abbrev S1x196608 : Shape := ⟨2, ![1, 196608]⟩
abbrev S196608 : Shape := ⟨1, ![196608]⟩
abbrev S208896 : Shape := ⟨1, ![208896]⟩
abbrev S_ : Shape := ⟨0, ![]⟩
abbrev S208896x1 : Shape := ⟨2, ![208896, 1]⟩
abbrev S12288x1 : Shape := ⟨2, ![12288, 1]⟩
abbrev S12288x32 : Shape := ⟨2, ![12288, 32]⟩
abbrev S1024x1433 : Shape := ⟨2, ![1024, 1433]⟩
abbrev S1024x1 : Shape := ⟨2, ![1024, 1]⟩
abbrev S1024x32 : Shape := ⟨2, ![1024, 32]⟩
abbrev S208896x32 : Shape := ⟨2, ![208896, 32]⟩
abbrev S1x32 : Shape := ⟨2, ![1, 32]⟩
abbrev S196608x1 : Shape := ⟨2, ![196608, 1]⟩
abbrev S196608x32 : Shape := ⟨2, ![196608, 32]⟩
abbrev S1x16 : Shape := ⟨2, ![1, 16]⟩
abbrev S1x7 : Shape := ⟨2, ![1, 7]⟩
abbrev S12288x7 : Shape := ⟨2, ![12288, 7]⟩
abbrev S2048x32 : Shape := ⟨2, ![2048, 32]⟩
abbrev S2048x7 : Shape := ⟨2, ![2048, 7]⟩
abbrev S2048x16 : Shape := ⟨2, ![2048, 16]⟩
abbrev S2048 : Shape := ⟨1, ![2048]⟩
abbrev S2048x1 : Shape := ⟨2, ![2048, 1]⟩

abbrev nBuf : Space → Nat
  | .hbm => 106
  | .vmem => 19
  | .smem => 0
  | _ => 0

abbrev bufTy : (tb : Table) → Fin (tcTables nBuf tb) → BufTy
  | .hbm, ⟨0, _⟩ => ⟨S12288x1433, .f32⟩
  | .hbm, ⟨1, _⟩ => ⟨S2x196608, .i32⟩
  | .hbm, ⟨2, _⟩ => ⟨S1433x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S32x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S12288, .i32⟩
  | .hbm, ⟨11, _⟩ => ⟨S1x196608, .i32⟩
  | .hbm, ⟨12, _⟩ => ⟨S196608, .i32⟩
  | .hbm, ⟨13, _⟩ => ⟨S208896, .i32⟩
  | .hbm, ⟨14, _⟩ => ⟨S1x196608, .i32⟩
  | .hbm, ⟨15, _⟩ => ⟨S196608, .i32⟩
  | .hbm, ⟨16, _⟩ => ⟨S208896, .i32⟩
  | .hbm, ⟨17, _⟩ => ⟨S_, .f32⟩
  | .hbm, ⟨18, _⟩ => ⟨S12288, .f32⟩
  | .hbm, ⟨19, _⟩ => ⟨S_, .i32⟩
  | .hbm, ⟨20, _⟩ => ⟨S208896, .i32⟩
  | .hbm, ⟨21, _⟩ => ⟨S208896, .i1⟩
  | .hbm, ⟨22, _⟩ => ⟨S_, .i32⟩
  | .hbm, ⟨23, _⟩ => ⟨S208896, .i32⟩
  | .hbm, ⟨24, _⟩ => ⟨S208896, .i32⟩
  | .hbm, ⟨25, _⟩ => ⟨S208896, .i32⟩
  | .hbm, ⟨26, _⟩ => ⟨S208896x1, .i32⟩
  | .hbm, ⟨27, _⟩ => ⟨S_, .f32⟩
  | .hbm, ⟨28, _⟩ => ⟨S208896, .f32⟩
  | .hbm, ⟨29, _⟩ => ⟨S12288, .f32⟩
  | .hbm, ⟨30, _⟩ => ⟨S_, .f32⟩
  | .hbm, ⟨31, _⟩ => ⟨S12288, .f32⟩
  | .hbm, ⟨32, _⟩ => ⟨S12288, .i1⟩
  | .hbm, ⟨33, _⟩ => ⟨S_, .f32⟩
  | .hbm, ⟨34, _⟩ => ⟨S12288, .f32⟩
  | .hbm, ⟨35, _⟩ => ⟨S12288, .f32⟩
  | .hbm, ⟨36, _⟩ => ⟨S_, .f32⟩
  | .hbm, ⟨37, _⟩ => ⟨S_, .f32⟩
  | .hbm, ⟨38, _⟩ => ⟨S12288, .f32⟩
  | .hbm, ⟨39, _⟩ => ⟨S12288, .f32⟩
  | .hbm, ⟨40, _⟩ => ⟨S12288x1, .f32⟩
  | .hbm, ⟨41, _⟩ => ⟨S1433x32, .bf16⟩
  | .hbm, ⟨42, _⟩ => ⟨S12288x32, .f32⟩
  | .hbm, ⟨43, _⟩ => ⟨S_, .i32⟩
  | .hbm, ⟨44, _⟩ => ⟨S208896, .i32⟩
  | .hbm, ⟨45, _⟩ => ⟨S208896, .i1⟩
  | .hbm, ⟨46, _⟩ => ⟨S_, .i32⟩
  | .hbm, ⟨47, _⟩ => ⟨S208896, .i32⟩
  | .hbm, ⟨48, _⟩ => ⟨S208896, .i32⟩
  | .hbm, ⟨49, _⟩ => ⟨S208896, .i32⟩
  | .hbm, ⟨50, _⟩ => ⟨S208896x1, .i32⟩
  | .hbm, ⟨51, _⟩ => ⟨S208896x32, .f32⟩
  | .hbm, ⟨52, _⟩ => ⟨S_, .f32⟩
  | .hbm, ⟨53, _⟩ => ⟨S12288x32, .f32⟩
  | .hbm, ⟨54, _⟩ => ⟨S208896x1, .i32⟩
  | .hbm, ⟨55, _⟩ => ⟨S12288x32, .f32⟩
  | .hbm, ⟨56, _⟩ => ⟨S12288x32, .f32⟩
  | .hbm, ⟨57, _⟩ => ⟨S12288x32, .f32⟩
  | .hbm, ⟨58, _⟩ => ⟨S1x32, .f32⟩
  | .hbm, ⟨59, _⟩ => ⟨S12288x32, .f32⟩
  | .hbm, ⟨60, _⟩ => ⟨S12288x32, .f32⟩
  | .hbm, ⟨61, _⟩ => ⟨S_, .f32⟩
  | .hbm, ⟨62, _⟩ => ⟨S12288x32, .f32⟩
  | .hbm, ⟨63, _⟩ => ⟨S12288x32, .f32⟩
  | .hbm, ⟨64, _⟩ => ⟨S1x196608, .i32⟩
  | .hbm, ⟨65, _⟩ => ⟨S196608, .i32⟩
  | .hbm, ⟨66, _⟩ => ⟨S1x196608, .i32⟩
  | .hbm, ⟨67, _⟩ => ⟨S196608, .i32⟩
  | .hbm, ⟨68, _⟩ => ⟨S_, .i32⟩
  | .hbm, ⟨69, _⟩ => ⟨S196608, .i32⟩
  | .hbm, ⟨70, _⟩ => ⟨S196608, .i1⟩
  | .hbm, ⟨71, _⟩ => ⟨S_, .i32⟩
  | .hbm, ⟨72, _⟩ => ⟨S196608, .i32⟩
  | .hbm, ⟨73, _⟩ => ⟨S196608, .i32⟩
  | .hbm, ⟨74, _⟩ => ⟨S196608, .i32⟩
  | .hbm, ⟨75, _⟩ => ⟨S196608x1, .i32⟩
  | .hbm, ⟨76, _⟩ => ⟨S196608x32, .f32⟩
  | .hbm, ⟨77, _⟩ => ⟨S_, .f32⟩
  | .hbm, ⟨78, _⟩ => ⟨S12288x32, .f32⟩
  | .hbm, ⟨79, _⟩ => ⟨S196608x1, .i32⟩
  | .hbm, ⟨80, _⟩ => ⟨S12288x32, .f32⟩
  | .hbm, ⟨81, _⟩ => ⟨S_, .f32⟩
  | .hbm, ⟨82, _⟩ => ⟨S196608, .f32⟩
  | .hbm, ⟨83, _⟩ => ⟨S_, .f32⟩
  | .hbm, ⟨84, _⟩ => ⟨S12288, .f32⟩
  | .hbm, ⟨85, _⟩ => ⟨S196608x1, .i32⟩
  | .hbm, ⟨86, _⟩ => ⟨S12288, .f32⟩
  | .hbm, ⟨87, _⟩ => ⟨S12288x1, .f32⟩
  | .hbm, ⟨88, _⟩ => ⟨S_, .f32⟩
  | .hbm, ⟨89, _⟩ => ⟨S12288x1, .f32⟩
  | .hbm, ⟨90, _⟩ => ⟨S12288x1, .i1⟩
  | .hbm, ⟨91, _⟩ => ⟨S_, .f32⟩
  | .hbm, ⟨92, _⟩ => ⟨S12288, .f32⟩
  | .hbm, ⟨93, _⟩ => ⟨S12288, .f32⟩
  | .hbm, ⟨94, _⟩ => ⟨S12288x1, .f32⟩
  | .hbm, ⟨95, _⟩ => ⟨S12288x32, .f32⟩
  | .hbm, ⟨96, _⟩ => ⟨S12288x32, .f32⟩
  | .hbm, ⟨97, _⟩ => ⟨S_, .f32⟩
  | .hbm, ⟨98, _⟩ => ⟨S_, .f32⟩
  | .hbm, ⟨99, _⟩ => ⟨S12288x32, .i1⟩
  | .hbm, ⟨100, _⟩ => ⟨S12288x32, .f32⟩
  | .hbm, ⟨101, _⟩ => ⟨S12288x32, .f32⟩
  | .hbm, ⟨102, _⟩ => ⟨S1x16, .f32⟩
  | .hbm, ⟨103, _⟩ => ⟨S1x16, .f32⟩
  | .hbm, ⟨104, _⟩ => ⟨S1x7, .f32⟩
  | .hbm, ⟨105, _⟩ => ⟨S12288x7, .f32⟩
  | .local _ .vmem, ⟨0, _⟩ => ⟨S1024x1433, .f32⟩
  | .local _ .vmem, ⟨1, _⟩ => ⟨S1024x1433, .f32⟩
  | .local _ .vmem, ⟨2, _⟩ => ⟨S1024x1, .f32⟩
  | .local _ .vmem, ⟨3, _⟩ => ⟨S1024x1, .f32⟩
  | .local _ .vmem, ⟨4, _⟩ => ⟨S1433x32, .bf16⟩
  | .local _ .vmem, ⟨5, _⟩ => ⟨S1024x32, .f32⟩
  | .local _ .vmem, ⟨6, _⟩ => ⟨S1024x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | .local _ .vmem, ⟨10, _⟩ => ⟨S2048x32, .f32⟩
  | .local _ .vmem, ⟨11, _⟩ => ⟨S32x16, .f32⟩
  | .local _ .vmem, ⟨12, _⟩ => ⟨S1x16, .f32⟩
  | .local _ .vmem, ⟨13, _⟩ => ⟨S32x16, .f32⟩
  | .local _ .vmem, ⟨14, _⟩ => ⟨S1x16, .f32⟩
  | .local _ .vmem, ⟨15, _⟩ => ⟨S16x7, .f32⟩
  | .local _ .vmem, ⟨16, _⟩ => ⟨S1x7, .f32⟩
  | .local _ .vmem, ⟨17, _⟩ => ⟨S2048x7, .f32⟩
  | .local _ .vmem, ⟨18, _⟩ => ⟨S2048x7, .f32⟩
  | _, _ => ⟨S12288x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1433x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x7 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x7 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x7 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x196608_S1x196608_0_0 : S2x196608.Slices ![0, 0] S1x196608
  shapeCasts_S1x196608_S196608 : S1x196608.ShapeCasts S196608
  concatenates_S196608_S12288_S208896_d0 : Shape.Concatenates [S196608, S12288] S208896 0
  slices_S2x196608_S1x196608_1_0 : S2x196608.Slices ![1, 0] S1x196608
  bcast_S_S12288 : S_.BroadcastsInDim S12288 (![] : Fin 0 → Fin S12288.rank)
  bcast_S_S208896 : S_.BroadcastsInDim S208896 (![] : Fin 0 → Fin S208896.rank)
  bcast_S208896_S208896x1_0 : S208896.BroadcastsInDim S208896x1 (![0] : Fin 1 → Fin S208896x1.rank)
  shapeCasts_S12288_S12288x1 : S12288.ShapeCasts S12288x1
  bitsLt_bf16_f32 : FTy.bits .bf16 < FTy.bits .f32
  inb_S1024x1433_S1024x1433_0_0 : ∀ a, (![0, 0] : Fin 2 → Nat) a + S1024x1433.size a ≤ S1024x1433.size a
  h_S1024x1433 : 0 < S1024x1433.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1433 : S1024x1.Broadcasts S1024x1433
  inb_S1433x32_S1433x32_0_0 : ∀ a, (![0, 0] : Fin 2 → Nat) a + S1433x32.size a ≤ S1433x32.size a
  h_S1433x32 : 0 < S1433x32.numel
  shapeCasts_S1433x32_S1433x32 : S1433x32.ShapeCasts S1433x32
  inb_S1024x32_S1024x32_0_0 : ∀ a, (![0, 0] : Fin 2 → Nat) a + S1024x32.size a ≤ S1024x32.size a
  h_S1024x32 : 0 < S1024x32.numel
  bcast_S_S12288x32 : S_.BroadcastsInDim S12288x32 (![] : Fin 0 → Fin S12288x32.rank)
  bcast_S12288x1_S12288x32_0_1 : S12288x1.BroadcastsInDim S12288x32 (![0, 1] : Fin 2 → Fin S12288x32.rank)
  bcast_S32_S1x32_1 : S32.BroadcastsInDim S1x32 (![1] : Fin 1 → Fin S1x32.rank)
  bcast_S1x32_S12288x32_0_1 : S1x32.BroadcastsInDim S12288x32 (![0, 1] : Fin 2 → Fin S12288x32.rank)
  bcast_S_S196608 : S_.BroadcastsInDim S196608 (![] : Fin 0 → Fin S196608.rank)
  bcast_S196608_S196608x1_0 : S196608.BroadcastsInDim S196608x1 (![0] : Fin 1 → Fin S196608x1.rank)
  bcast_S12288_S12288x1_0 : S12288.BroadcastsInDim S12288x1 (![0] : Fin 1 → Fin S12288x1.rank)
  bcast_S_S12288x1 : S_.BroadcastsInDim S12288x1 (![] : Fin 0 → Fin S12288x1.rank)
  shapeCasts_S16_S1x16 : S16.ShapeCasts S1x16
  shapeCasts_S7_S1x7 : S7.ShapeCasts S1x7
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reduces_S2048x16_S2048 : S2048x16.Reduces [1] S2048
  shapeCasts_S2048_S2048x1 : S2048.ShapeCasts S2048x1
  broadcasts_S2048x1_S2048x16 : S2048x1.Broadcasts S2048x16
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2048x7 : S1x7.Broadcasts S2048x7
  reduces_S2048x7_S2048 : S2048x7.Reduces [1] S2048
  broadcasts_S2048x1_S2048x7 : S2048x1.Broadcasts S2048x7
  inb_S2048x7_S2048x7_0_0 : ∀ a, (![0, 0] : Fin 2 → Nat) a + S2048x7.size a ≤ S2048x7.size a
  h_S2048x7 : 0 < S2048x7.numel
  scatter_S12288_S208896x1_S208896_n_0_0_1_wf : ScatterDims.WF S12288 S208896x1 S208896 [] [0] [0] 1
  dot_S1024x1433_S1433x32_S1024x32_1_0_0_1_n_n_wf : DotDims.WF S1024x1433 S1433x32 S1024x32 [1] [0] [0] [1] [] []
  gather_S12288x32_S208896x1_S208896x32_1_0_n_n_0_1_132_wf : GatherDims.WF S12288x32 S208896x1 S208896x32 [1] [0] [] [0] [] 1 ![1, 32]
  scatter_S12288x32_S208896x1_S208896x32_1_0_0_1_wf : ScatterDims.WF S12288x32 S208896x1 S208896x32 [1] [0] [0] 1
  gather_S12288x32_S196608x1_S196608x32_1_0_n_n_0_1_132_wf : GatherDims.WF S12288x32 S196608x1 S196608x32 [1] [0] [] [0] [] 1 ![1, 32]
  scatter_S12288x32_S196608x1_S196608x32_1_0_0_1_wf : ScatterDims.WF S12288x32 S196608x1 S196608x32 [1] [0] [0] 1
  scatter_S12288_S196608x1_S196608_n_0_0_1_wf : ScatterDims.WF S12288 S196608x1 S196608 [] [0] [0] 1
  dot_S2048x32_S32x16_S2048x16_1_0_0_1_n_n_wf : DotDims.WF S2048x32 S32x16 S2048x16 [1] [0] [0] [1] [] []
  dot_S2048x16_S16x7_S2048x7_1_0_0_1_n_n_wf : DotDims.WF S2048x16 S16x7 S2048x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1433.size a ≤ S12288x1433.size a
  hwx0_0 : ∀ i : grid0.Coords, EltTy.bits .f32 = 32 ∨ (Rect.block (s := S12288x1433) S1024x1433.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S12288x1.size a
  hwx0_1 : ∀ i : grid0.Coords, EltTy.bits .f32 = 32 ∨ (Rect.block (s := S12288x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1433x32.size a ≤ S1433x32.size a
  hwx0_2 : ∀ i : grid0.Coords, EltTy.bits .bf16 = 32 ∨ (Rect.block (s := S1433x32) S1433x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S12288x32.size a
  hwx0_3 : ∀ i : grid0.Coords, EltTy.bits .f32 = 32 ∨ (Rect.block (s := S12288x32) S1024x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S12288x32.size a
  hwx1_0 : ∀ i : grid1.Coords, EltTy.bits .f32 = 32 ∨ (Rect.block (s := S12288x32) S2048x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S12288x32.size a
  hwx1_1 : ∀ i : grid1.Coords, EltTy.bits .f32 = 32 ∨ (Rect.block (s := S12288x32) S2048x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x7.size a ≤ S16x7.size a
  hwx1_6 : ∀ i : grid1.Coords, EltTy.bits .f32 = 32 ∨ (Rect.block (s := S16x7) S16x7.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x7.size a ≤ S1x7.size a
  hwx1_7 : ∀ i : grid1.Coords, EltTy.bits .f32 = 32 ∨ (Rect.block (s := S1x7) S1x7.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x7.size a ≤ S12288x7.size a
  hwx1_8 : ∀ i : grid1.Coords, EltTy.bits .f32 = 32 ∨ (Rect.block (s := S12288x7) S2048x7.size (cc1_transform_8 i) (hinb1_8 i)).WholeWords (EltTy.packing .f32)

variable [Facts₀]

def scatter_S12288_S208896x1_S208896_n_0_0_1 : ScatterDims S12288 S208896x1 S208896 where
  updateWindowDims := []
  insertedWindowDims := [0]
  scatterDimsToOperandDims := [0]
  indexVectorDim := 1
  wf := scatter_S12288_S208896x1_S208896_n_0_0_1_wf
def dot_S1024x1433_S1433x32_S1024x32_1_0_0_1_n_n : DotDims S1024x1433 S1433x32 S1024x32 where
  lhsContracting := [1]
  rhsContracting := [0]
  lhsNonContracting := [0]
  rhsNonContracting := [1]
  lhsBatch := []
  rhsBatch := []
  wf := dot_S1024x1433_S1433x32_S1024x32_1_0_0_1_n_n_wf
def gather_S12288x32_S208896x1_S208896x32_1_0_n_n_0_1_132 : GatherDims S12288x32 S208896x1 S208896x32 where
  offsetDims := [1]
  collapsedSliceDims := [0]
  operandBatchingDims := []
  startIndicesBatchingDims := []
  startIndexMap := [0]
  indexVectorDim := 1
  sliceSizes := ![1, 32]
  wf := gather_S12288x32_S208896x1_S208896x32_1_0_n_n_0_1_132_wf
def scatter_S12288x32_S208896x1_S208896x32_1_0_0_1 : ScatterDims S12288x32 S208896x1 S208896x32 where
  updateWindowDims := [1]
  insertedWindowDims := [0]
  scatterDimsToOperandDims := [0]
  indexVectorDim := 1
  wf := scatter_S12288x32_S208896x1_S208896x32_1_0_0_1_wf
def gather_S12288x32_S196608x1_S196608x32_1_0_n_n_0_1_132 : GatherDims S12288x32 S196608x1 S196608x32 where
  offsetDims := [1]
  collapsedSliceDims := [0]
  operandBatchingDims := []
  startIndicesBatchingDims := []
  startIndexMap := [0]
  indexVectorDim := 1
  sliceSizes := ![1, 32]
  wf := gather_S12288x32_S196608x1_S196608x32_1_0_n_n_0_1_132_wf
def scatter_S12288x32_S196608x1_S196608x32_1_0_0_1 : ScatterDims S12288x32 S196608x1 S196608x32 where
  updateWindowDims := [1]
  insertedWindowDims := [0]
  scatterDimsToOperandDims := [0]
  indexVectorDim := 1
  wf := scatter_S12288x32_S196608x1_S196608x32_1_0_0_1_wf
def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x7_S2048x7_1_0_0_1_n_n : DotDims S2048x16 S16x7 S2048x7 where
  lhsContracting := [1]
  rhsContracting := [0]
  lhsNonContracting := [0]
  rhsNonContracting := [1]
  lhsBatch := []
  rhsBatch := []
  wf := dot_S2048x16_S16x7_S2048x7_1_0_0_1_n_n_wf

abbrev win0_0 : Pipeline.Window sig grid0 :=
  Pipeline.Window.ofSpec (Memref.whole main_arg0) S1024x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1433x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S16x7.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v69) S1x7.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S2048x7.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S12288x1433 : Shape := ⟨2, ![12288, 1433]⟩
abbrev S2x196608 : Shape := ⟨2, ![2, 196608]⟩
abbrev S1433x32 : Shape := ⟨2, ![1433, 32]⟩
abbrev S32 : Shape := ⟨1, ![32]⟩
abbrev S32x16 : Shape := ⟨2, ![32, 16]⟩
abbrev S16 : Shape := ⟨1, ![16]⟩
abbrev S16x7 : Shape := ⟨2, ![16, 7]⟩
abbrev S7 : Shape := ⟨1, ![7]⟩
abbrev S12288 : Shape := ⟨1, ![12288]⟩
abbrev S1x196608 : Shape := ⟨2, ![1, 196608]⟩
abbrev S196608 : Shape := ⟨1, ![196608]⟩
abbrev S208896 : Shape := ⟨1, ![208896]⟩
abbrev S_ : Shape := ⟨0, ![]⟩
abbrev S208896x1 : Shape := ⟨2, ![208896, 1]⟩
abbrev S12288x12288 : Shape := ⟨2, ![12288, 12288]⟩
abbrev S208896x2 : Shape := ⟨2, ![208896, 2]⟩
abbrev S12288x1 : Shape := ⟨2, ![12288, 1]⟩
abbrev S1x12288 : Shape := ⟨2, ![1, 12288]⟩
abbrev S12288x32 : Shape := ⟨2, ![12288, 32]⟩
abbrev S1x32 : Shape := ⟨2, ![1, 32]⟩
abbrev S196608x1 : Shape := ⟨2, ![196608, 1]⟩
abbrev S196608x32 : Shape := ⟨2, ![196608, 32]⟩
abbrev S12288x16 : Shape := ⟨2, ![12288, 16]⟩
abbrev S1x16 : Shape := ⟨2, ![1, 16]⟩
abbrev S12288x7 : Shape := ⟨2, ![12288, 7]⟩
abbrev S1x7 : Shape := ⟨2, ![1, 7]⟩

abbrev nBuf : Space → Nat
  | .hbm => 154
  | .vmem => 0
  | .smem => 0
  | _ => 0

abbrev hbmTy0_0 (i : Nat) : BufTy := match i % 128 with
  | 0 => ⟨S12288x1433, .f32⟩
  | 1 => ⟨S2x196608, .i32⟩
  | 2 => ⟨S1433x32, .f32⟩
  | 3 => ⟨S32, .f32⟩
  | 4 => ⟨S32x16, .f32⟩
  | 5 => ⟨S16, .f32⟩
  | 6 => ⟨S32x16, .f32⟩
  | 7 => ⟨S16, .f32⟩
  | 8 => ⟨S16x7, .f32⟩
  | 9 => ⟨S7, .f32⟩
  | 10 => ⟨S12288, .i32⟩
  | 11 => ⟨S1x196608, .i32⟩
  | 12 => ⟨S196608, .i32⟩
  | 13 => ⟨S208896, .i32⟩
  | 14 => ⟨S1x196608, .i32⟩
  | 15 => ⟨S196608, .i32⟩
  | 16 => ⟨S208896, .i32⟩
  | 17 => ⟨S_, .f32⟩
  | 18 => ⟨S12288, .f32⟩
  | 19 => ⟨S_, .i32⟩
  | 20 => ⟨S208896, .i32⟩
  | 21 => ⟨S208896, .i1⟩
  | 22 => ⟨S_, .i32⟩
  | 23 => ⟨S208896, .i32⟩
  | 24 => ⟨S208896, .i32⟩
  | 25 => ⟨S208896, .i32⟩
  | 26 => ⟨S208896x1, .i32⟩
  | 27 => ⟨S_, .f32⟩
  | 28 => ⟨S208896, .f32⟩
  | 29 => ⟨S12288, .f32⟩
  | 30 => ⟨S_, .f32⟩
  | 31 => ⟨S12288, .f32⟩
  | 32 => ⟨S12288, .i1⟩
  | 33 => ⟨S_, .f32⟩
  | 34 => ⟨S12288, .f32⟩
  | 35 => ⟨S12288, .f32⟩
  | 36 => ⟨S_, .f32⟩
  | 37 => ⟨S_, .f32⟩
  | 38 => ⟨S12288, .f32⟩
  | 39 => ⟨S12288, .f32⟩
  | 40 => ⟨S_, .f32⟩
  | 41 => ⟨S12288x12288, .f32⟩
  | 42 => ⟨S_, .i32⟩
  | 43 => ⟨S208896, .i32⟩
  | 44 => ⟨S208896, .i1⟩
  | 45 => ⟨S_, .i32⟩
  | 46 => ⟨S208896, .i32⟩
  | 47 => ⟨S208896, .i32⟩
  | 48 => ⟨S208896, .i32⟩
  | 49 => ⟨S_, .i32⟩
  | 50 => ⟨S208896, .i32⟩
  | 51 => ⟨S208896, .i1⟩
  | 52 => ⟨S_, .i32⟩
  | 53 => ⟨S208896, .i32⟩
  | 54 => ⟨S208896, .i32⟩
  | 55 => ⟨S208896, .i32⟩
  | 56 => ⟨S208896x1, .i32⟩
  | 57 => ⟨S208896x1, .i32⟩
  | 58 => ⟨S208896x2, .i32⟩
  | 59 => ⟨S_, .f32⟩
  | 60 => ⟨S208896, .f32⟩
  | 61 => ⟨S12288x12288, .f32⟩
  | 62 => ⟨S12288x1, .f32⟩
  | 63 => ⟨S12288x12288, .f32⟩
  | 64 => ⟨S12288x12288, .f32⟩
  | 65 => ⟨S1x12288, .f32⟩
  | 66 => ⟨S12288x12288, .f32⟩
  | 67 => ⟨S12288x12288, .f32⟩
  | 68 => ⟨S12288x1433, .f32⟩
  | 69 => ⟨S12288x32, .f32⟩
  | 70 => ⟨S1x32, .f32⟩
  | 71 => ⟨S12288x32, .f32⟩
  | 72 => ⟨S12288x32, .f32⟩
  | 73 => ⟨S_, .f32⟩
  | 74 => ⟨S12288x32, .f32⟩
  | 75 => ⟨S12288x32, .f32⟩
  | 76 => ⟨S1x196608, .i32⟩
  | 77 => ⟨S196608, .i32⟩
  | 78 => ⟨S1x196608, .i32⟩
  | 79 => ⟨S196608, .i32⟩
  | 80 => ⟨S_, .i32⟩
  | 81 => ⟨S196608, .i32⟩
  | 82 => ⟨S196608, .i1⟩
  | 83 => ⟨S_, .i32⟩
  | 84 => ⟨S196608, .i32⟩
  | 85 => ⟨S196608, .i32⟩
  | 86 => ⟨S196608, .i32⟩
  | 87 => ⟨S196608x1, .i32⟩
  | 88 => ⟨S196608x32, .f32⟩
  | 89 => ⟨S_, .f32⟩
  | 90 => ⟨S12288x32, .f32⟩
  | 91 => ⟨S196608x1, .i32⟩
  | 92 => ⟨S12288x32, .f32⟩
  | 93 => ⟨S_, .f32⟩
  | 94 => ⟨S196608, .f32⟩
  | 95 => ⟨S_, .f32⟩
  | 96 => ⟨S12288, .f32⟩
  | 97 => ⟨S196608x1, .i32⟩
  | 98 => ⟨S12288, .f32⟩
  | 99 => ⟨S12288x1, .f32⟩
  | 100 => ⟨S_, .f32⟩
  | 101 => ⟨S12288x1, .f32⟩
  | 102 => ⟨S12288x1, .i1⟩
  | 103 => ⟨S_, .f32⟩
  | 104 => ⟨S12288, .f32⟩
  | 105 => ⟨S12288, .f32⟩
  | 106 => ⟨S12288x1, .f32⟩
  | 107 => ⟨S12288x32, .f32⟩
  | 108 => ⟨S12288x32, .f32⟩
  | 109 => ⟨S_, .f32⟩
  | 110 => ⟨S_, .f32⟩
  | 111 => ⟨S12288x32, .i1⟩
  | 112 => ⟨S12288x32, .f32⟩
  | 113 => ⟨S12288x32, .f32⟩
  | 114 => ⟨S12288x16, .f32⟩
  | 115 => ⟨S1x16, .f32⟩
  | 116 => ⟨S12288x16, .f32⟩
  | 117 => ⟨S12288x16, .f32⟩
  | 118 => ⟨S12288x16, .f32⟩
  | 119 => ⟨S12288x16, .f32⟩
  | 120 => ⟨S1x16, .f32⟩
  | 121 => ⟨S12288x16, .f32⟩
  | 122 => ⟨S12288x16, .f32⟩
  | 123 => ⟨S_, .f32⟩
  | 124 => ⟨S12288x16, .f32⟩
  | 125 => ⟨S12288x16, .f32⟩
  | 126 => ⟨S12288x16, .f32⟩
  | 127 => ⟨S_, .f32⟩
  | _ => ⟨S12288x1433, .f32⟩

abbrev hbmTy0_1 (i : Nat) : BufTy := match i % 128 with
  | 0 => ⟨S12288, .f32⟩
  | 1 => ⟨S12288x1, .f32⟩
  | 2 => ⟨S12288x1, .f32⟩
  | 3 => ⟨S_, .f32⟩
  | 4 => ⟨S12288x1, .f32⟩
  | 5 => ⟨S12288x1, .f32⟩
  | 6 => ⟨S12288x16, .f32⟩
  | 7 => ⟨S12288x16, .f32⟩
  | 8 => ⟨S12288x7, .f32⟩
  | 9 => ⟨S1x7, .f32⟩
  | 10 => ⟨S12288x7, .f32⟩
  | 11 => ⟨S12288x7, .f32⟩
  | 12 => ⟨S_, .f32⟩
  | 13 => ⟨S12288, .f32⟩
  | 14 => ⟨S_, .f32⟩
  | 15 => ⟨S12288, .f32⟩
  | 16 => ⟨S12288, .f32⟩
  | 17 => ⟨S12288x1, .f32⟩
  | 18 => ⟨S12288x7, .f32⟩
  | 19 => ⟨S12288x7, .f32⟩
  | 20 => ⟨S12288x7, .f32⟩
  | 21 => ⟨S_, .f32⟩
  | 22 => ⟨S12288, .f32⟩
  | 23 => ⟨S12288x1, .f32⟩
  | 24 => ⟨S12288x7, .f32⟩
  | 25 => ⟨S12288x7, .f32⟩
  | _ => ⟨S12288x1433, .f32⟩

abbrev hbmTy (i : Nat) : BufTy := match i / 128 with
  | 0 => hbmTy0_0 i
  | 1 => hbmTy0_1 i
  | _ => ⟨S12288x1433, .f32⟩

abbrev bufTy : (tb : Table) → Fin (tcTables nBuf tb) → BufTy
  | .hbm, ⟨i, _⟩ => hbmTy i
  | _, _ => ⟨S12288x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_8 : Ref sig .tc := ⟨.hbm, 49, rfl⟩
abbrev main_v27 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_18 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call3_cst : Ref sig .tc := ⟨.hbm, 123, rfl⟩
abbrev main_call3_v0 : Ref sig .tc := ⟨.hbm, 124, rfl⟩
abbrev main_v85 : Ref sig .tc := ⟨.hbm, 125, rfl⟩
abbrev main_call4_v0 : Ref sig .tc := ⟨.hbm, 126, rfl⟩
abbrev main_call4_cst : Ref sig .tc := ⟨.hbm, 127, rfl⟩
abbrev main_call4_v1 : Ref sig .tc := ⟨.hbm, 128, rfl⟩
abbrev main_call4_v2 : Ref sig .tc := ⟨.hbm, 129, rfl⟩
abbrev main_v86 : Ref sig .tc := ⟨.hbm, 130, rfl⟩
abbrev main_cst_19 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_20 : Ref sig .tc := ⟨.hbm, 140, rfl⟩
abbrev main_v95 : Ref sig .tc := ⟨.hbm, 141, rfl⟩
abbrev main_cst_21 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_22 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩

abbrev nD : Nat := 1
abbrev τ : Topo := Topo.v7x

variable {F : FTy → Type} [FloatOps F]

class Facts₀ : Prop where
  slices_S2x196608_S1x196608_0_0 : S2x196608.Slices ![0, 0] S1x196608
  shapeCasts_S1x196608_S196608 : S1x196608.ShapeCasts S196608
  concatenates_S196608_S12288_S208896_d0 : Shape.Concatenates [S196608, S12288] S208896 0
  slices_S2x196608_S1x196608_1_0 : S2x196608.Slices ![1, 0] S1x196608
  bcast_S_S12288 : S_.BroadcastsInDim S12288 (![] : Fin 0 → Fin S12288.rank)
  bcast_S_S208896 : S_.BroadcastsInDim S208896 (![] : Fin 0 → Fin S208896.rank)
  bcast_S208896_S208896x1_0 : S208896.BroadcastsInDim S208896x1 (![0] : Fin 1 → Fin S208896x1.rank)
  bcast_S_S12288x12288 : S_.BroadcastsInDim S12288x12288 (![] : Fin 0 → Fin S12288x12288.rank)
  concatenates_S208896x1_S208896x1_S208896x2_d1 : Shape.Concatenates [S208896x1, S208896x1] S208896x2 1
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S32_S1x32_1 : S32.BroadcastsInDim S1x32 (![1] : Fin 1 → Fin S1x32.rank)
  bcast_S1x32_S12288x32_0_1 : S1x32.BroadcastsInDim S12288x32 (![0, 1] : Fin 2 → Fin S12288x32.rank)
  bcast_S_S12288x32 : S_.BroadcastsInDim S12288x32 (![] : Fin 0 → Fin S12288x32.rank)
  bcast_S_S196608 : S_.BroadcastsInDim S196608 (![] : Fin 0 → Fin S196608.rank)
  bcast_S196608_S196608x1_0 : S196608.BroadcastsInDim S196608x1 (![0] : Fin 1 → Fin S196608x1.rank)
  bcast_S_S12288x1 : S_.BroadcastsInDim S12288x1 (![] : Fin 0 → Fin S12288x1.rank)
  bcast_S12288x1_S12288x32_0_1 : S12288x1.BroadcastsInDim S12288x32 (![0, 1] : Fin 2 → Fin S12288x32.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  bcast_S_S12288x16 : S_.BroadcastsInDim S12288x16 (![] : Fin 0 → Fin S12288x16.rank)
  reducesTo_S12288x16_S12288_d1 : S12288x16.ReducesTo [1] S12288
  h_S_ : 0 < S_.numel
  bcast_S12288x1_S12288x16_0_1 : S12288x1.BroadcastsInDim S12288x16 (![0, 1] : Fin 2 → Fin S12288x16.rank)
  bcast_S7_S1x7_1 : S7.BroadcastsInDim S1x7 (![1] : Fin 1 → Fin S1x7.rank)
  bcast_S1x7_S12288x7_0_1 : S1x7.BroadcastsInDim S12288x7 (![0, 1] : Fin 2 → Fin S12288x7.rank)
  reducesTo_S12288x7_S12288_d1 : S12288x7.ReducesTo [1] S12288
  bcast_S12288x1_S12288x7_0_1 : S12288x1.BroadcastsInDim S12288x7 (![0, 1] : Fin 2 → Fin S12288x7.rank)
  scatter_S12288_S208896x1_S208896_n_0_0_1_wf : ScatterDims.WF S12288 S208896x1 S208896 [] [0] [0] 1
  scatter_S12288x12288_S208896x2_S208896_n_01_01_1_wf : ScatterDims.WF S12288x12288 S208896x2 S208896 [] [0, 1] [0, 1] 1
  dot_S12288x12288_S12288x1433_S12288x1433_1_0_0_1_n_n_wf : DotDims.WF S12288x12288 S12288x1433 S12288x1433 [1] [0] [0] [1] [] []
  dot_S12288x1433_S1433x32_S12288x32_1_0_0_1_n_n_wf : DotDims.WF S12288x1433 S1433x32 S12288x32 [1] [0] [0] [1] [] []
  gather_S12288x32_S196608x1_S196608x32_1_0_n_n_0_1_132_wf : GatherDims.WF S12288x32 S196608x1 S196608x32 [1] [0] [] [0] [] 1 ![1, 32]
  scatter_S12288x32_S196608x1_S196608x32_1_0_0_1_wf : ScatterDims.WF S12288x32 S196608x1 S196608x32 [1] [0] [0] 1
  scatter_S12288_S196608x1_S196608_n_0_0_1_wf : ScatterDims.WF S12288 S196608x1 S196608 [] [0] [0] 1
  dot_S12288x32_S32x16_S12288x16_1_0_0_1_n_n_wf : DotDims.WF S12288x32 S32x16 S12288x16 [1] [0] [0] [1] [] []
  dot_S12288x16_S16x7_S12288x7_1_0_0_1_n_n_wf : DotDims.WF S12288x16 S16x7 S12288x7 [1] [0] [0] [1] [] []

variable [Facts₀]

def scatter_S12288_S208896x1_S208896_n_0_0_1 : ScatterDims S12288 S208896x1 S208896 where
  updateWindowDims := []
  insertedWindowDims := [0]
  scatterDimsToOperandDims := [0]
  indexVectorDim := 1
  wf := scatter_S12288_S208896x1_S208896_n_0_0_1_wf
def scatter_S12288x12288_S208896x2_S208896_n_01_01_1 : ScatterDims S12288x12288 S208896x2 S208896 where
  updateWindowDims := []
  insertedWindowDims := [0, 1]
  scatterDimsToOperandDims := [0, 1]
  indexVectorDim := 1
  wf := scatter_S12288x12288_S208896x2_S208896_n_01_01_1_wf
def dot_S12288x12288_S12288x1433_S12288x1433_1_0_0_1_n_n : DotDims S12288x12288 S12288x1433 S12288x1433 where
  lhsContracting := [1]
  rhsContracting := [0]
  lhsNonContracting := [0]
  rhsNonContracting := [1]
  lhsBatch := []
  rhsBatch := []
  wf := dot_S12288x12288_S12288x1433_S12288x1433_1_0_0_1_n_n_wf
def dot_S12288x1433_S1433x32_S12288x32_1_0_0_1_n_n : DotDims S12288x1433 S1433x32 S12288x32 where
  lhsContracting := [1]
  rhsContracting := [0]
  lhsNonContracting := [0]
  rhsNonContracting := [1]
  lhsBatch := []
  rhsBatch := []
  wf := dot_S12288x1433_S1433x32_S12288x32_1_0_0_1_n_n_wf
def gather_S12288x32_S196608x1_S196608x32_1_0_n_n_0_1_132 : GatherDims S12288x32 S196608x1 S196608x32 where
  offsetDims := [1]
  collapsedSliceDims := [0]
  operandBatchingDims := []
  startIndicesBatchingDims := []
  startIndexMap := [0]
  indexVectorDim := 1
  sliceSizes := ![1, 32]
  wf := gather_S12288x32_S196608x1_S196608x32_1_0_n_n_0_1_132_wf
def scatter_S12288x32_S196608x1_S196608x32_1_0_0_1 : ScatterDims S12288x32 S196608x1 S196608x32 where
  updateWindowDims := [1]
  insertedWindowDims := [0]
  scatterDimsToOperandDims := [0]
  indexVectorDim := 1
  wf := scatter_S12288x32_S196608x1_S196608x32_1_0_0_1_wf
def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def dot_S12288x32_S32x16_S12288x16_1_0_0_1_n_n : DotDims S12288x32 S32x16 S12288x16 where
  lhsContracting := [1]
  rhsContracting := [0]
  lhsNonContracting := [0]
  rhsNonContracting := [1]
  lhsBatch := []
  rhsBatch := []
  wf := dot_S12288x32_S32x16_S12288x16_1_0_0_1_n_n_wf
def dot_S12288x16_S16x7_S12288x7_1_0_0_1_n_n : DotDims S12288x16 S16x7 S12288x7 where
  lhsContracting := [1]
  rhsContracting := [0]
  lhsNonContracting := [0]
  rhsNonContracting := [1]
  lhsBatch := []
  rhsBatch := []
  wf := dot_S12288x16_S16x7_S12288x7_1_0_0_1_n_n_wf

class Facts : Prop extends Facts₀ where

variable [Facts]
-- ==== Proof.KHost1.lean ====
/-
  What the first kernel region is entered with, and what of it the later host operations still read: the feature
  matrix and the weights as launched; the node weights d as a column, d being the reference's own stage (the same
  host operations on the same edge list); the two columns of end points of the extended edge list, again the
  reference's stages. Each host stretch is read off one buffer at a time.
-/
import proofs.«423551_j3075196584646_2_alg».proof.Proof.Gen.KernelIdeal.Frame
import proofs.«423551_j3075196584646_2_alg».proof.Proof.RefRead

set_option maxRecDepth 16384

noncomputable section

namespace Cert.KernelIdeal.KHost1

open Cert.KernelIdeal Cert.KernelIdeal.Gen Idealize.ShloMosaic Idealize.ShloMosaic.TcCoe Idealize.SL.Sem Idealize.ShloMosaic.StableHlo

variable {F : FTy → Type} [FloatOps F]

/-! ## One stretch, one buffer, from any contents -/

/-- A buffer no operation of a stretch writes keeps its contents. -/
local macro "not_written" : tactic =>
  `(tactic| (refine StableHlo.after_of_forall_not_mem _ _ (List.forall_iff_forall_mem.mp ?_)
             simp only [hostOps0, hostOps0_1, hostOps0_2, hostOps1, hostOps1_1, hostOps1_2, hostOps1_3, hostOps1_4,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

section Stretches
variable (W : Valuation τ sig (Elt F))

set_option maxHeartbeats 4000000 in
theorem s0_v3 : StableHlo.after hostOps0 W (Proc.devRef .tc main_v3)
    = Cert.ReferenceIdeal.Read.val_main_v3 (F := F) (W (Proc.devRef .tc main_arg1)) := by
  after_results; rfl

set_option maxHeartbeats 4000000 in
theorem s0_v6 : StableHlo.after hostOps0 W (Proc.devRef .tc main_v6)
    = Cert.ReferenceIdeal.Read.val_main_v6 (F := F) (W (Proc.devRef .tc main_arg1)) := by
  after_results; rfl

set_option maxHeartbeats 8000000 in
theorem s0_v17 : StableHlo.after hostOps0 W (Proc.devRef .tc main_v17)
    = Cert.ReferenceIdeal.Read.val_main_v17 (F := F) (W (Proc.devRef .tc main_arg1)) := by
  after_results; rfl

set_option maxHeartbeats 8000000 in
theorem s0_v19 : StableHlo.after hostOps0 W (Proc.devRef .tc main_v19)
    = Cert.ReferenceIdeal.Read.val_main_v19 (F := F) (W (Proc.devRef .tc main_arg1)) := by
  after_results; rfl

set_option maxHeartbeats 4000000 in
theorem s0_cst4 : StableHlo.after hostOps0 W (Proc.devRef .tc main_cst_4)
    = Cert.ReferenceIdeal.Read.val_main_cst_4 (F := F) := by
  after_results; rfl

theorem s01_v20 : StableHlo.after hostOps0_1 W (Proc.devRef .tc main_v20)
    = select (W (Proc.devRef .tc main_v17)) (W (Proc.devRef .tc main_v19))
        (broadcastInDim S12288 ![] bcast_S_S12288 (id (W (Proc.devRef .tc main_cst_4)))) := by
  after_results_simp <;> rfl

theorem s02_v21 : StableHlo.after hostOps0_2 W (Proc.devRef .tc main_v21)
    = shapeCast S12288x1 (W (Proc.devRef .tc main_v20)) shapeCasts_S12288_S12288x1 := by
  after_results_simp <;> rfl

theorem s02_v22 : StableHlo.after hostOps0_2 W (Proc.devRef .tc main_v22)
    = truncf .bf16 (W (Proc.devRef .tc main_arg2)) bitsLt_bf16_f32 := by
  after_results_simp <;> rfl

end Stretches

/-! ## The first region's entry -/

variable (m : (ℓ : Loc nD τ sig) → Buf (Elt F) ℓ) (ρ : Dev nD → PrngReg)

/-- An argument array is as launched at the first region's entry (no host operation writes one). -/
theorem entry0_arg (c : Dev nD) (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = W0 m ρ c (Proc.devRef .tc b) :=
  h2.trans (h1.trans h0)

/-- The feature matrix at the first region's entry. -/
theorem entry0_x (c : Dev nD) : W3 m ρ c (Proc.devRef .tc main_arg0) = m ((c : Thread nD τ).loc main_arg0) :=
  (entry0_arg m ρ c main_arg0 (by not_written) (by not_written) (by not_written)).trans rfl

/-- The edge list at the first region's entry. -/
theorem entry0_ei (c : Dev nD) : W3 m ρ c (Proc.devRef .tc main_arg1) = m ((c : Thread nD τ).loc main_arg1) :=
  (entry0_arg m ρ c main_arg1 (by not_written) (by not_written) (by not_written)).trans rfl

/-- The node weights as a column, at the first region's entry: the reference's stage of the same edge list. -/
theorem entry0_d (c : Dev nD) :
    W3 m ρ c (Proc.devRef .tc main_v21)
      = shapeCast S12288x1 (Cert.ReferenceIdeal.Read.val_main_v20 (F := F) (m ((c : Thread nD τ).loc main_arg1))) shapeCasts_S12288_S12288x1 := by
  show StableHlo.after hostOps0_2 (W2 m ρ c) (Proc.devRef .tc main_v21) = _
  rw [s02_v21]
  show shapeCast S12288x1 (StableHlo.after hostOps0_1 (W1 m ρ c) (Proc.devRef .tc main_v20)) _ = _
  rw [s01_v20]
  show shapeCast S12288x1 (select (StableHlo.after hostOps0 (W0 m ρ c) (Proc.devRef .tc main_v17))
      (StableHlo.after hostOps0 (W0 m ρ c) (Proc.devRef .tc main_v19))
      (broadcastInDim S12288 ![] bcast_S_S12288 (id (StableHlo.after hostOps0 (W0 m ρ c) (Proc.devRef .tc main_cst_4))))) _ = _
  rw [s0_v17, s0_v19, s0_cst4]
  rfl

/-- The first weight matrix (its format narrowed) at the first region's entry. -/
theorem entry0_w (c : Dev nD) :
    W3 m ρ c (Proc.devRef .tc main_v22) = truncf .bf16 (m ((c : Thread nD τ).loc main_arg2)) bitsLt_bf16_f32 := by
  show StableHlo.after hostOps0_2 (W2 m ρ c) (Proc.devRef .tc main_v22) = _
  rw [s02_v22]
  have h1 : StableHlo.after hostOps0_1 (W1 m ρ c) (Proc.devRef .tc main_arg2) = W1 m ρ c (Proc.devRef .tc main_arg2) := by not_written
  have h0 : StableHlo.after hostOps0 (W0 m ρ c) (Proc.devRef .tc main_arg2) = W0 m ρ c (Proc.devRef .tc main_arg2) := by not_written
  show truncf .bf16 (StableHlo.after hostOps0_1 (W1 m ρ c) (Proc.devRef .tc main_arg2)) _ = _
  rw [h1]
  show truncf .bf16 (StableHlo.after hostOps0 (W0 m ρ c) (Proc.devRef .tc main_arg2)) _ = _
  rw [h0]

/-- The row end points at the first region's entry: the reference's stage. -/
theorem entry0_rows (c : Dev nD) :
    W3 m ρ c (Proc.devRef .tc main_v3) = Cert.ReferenceIdeal.Read.val_main_v3 (F := F) (m ((c : Thread nD τ).loc main_arg1)) := by
  have h2 : StableHlo.after hostOps0_2 (W2 m ρ c) (Proc.devRef .tc main_v3) = W2 m ρ c (Proc.devRef .tc main_v3) := by not_written
  have h1 : StableHlo.after hostOps0_1 (W1 m ρ c) (Proc.devRef .tc main_v3) = W1 m ρ c (Proc.devRef .tc main_v3) := by not_written
  exact h2.trans (h1.trans ((s0_v3 (W0 m ρ c)).trans rfl))

/-- The column end points at the first region's entry: the reference's stage. -/
theorem entry0_cols (c : Dev nD) :
    W3 m ρ c (Proc.devRef .tc main_v6) = Cert.ReferenceIdeal.Read.val_main_v6 (F := F) (m ((c : Thread nD τ).loc main_arg1)) := by
  have h2 : StableHlo.after hostOps0_2 (W2 m ρ c) (Proc.devRef .tc main_v6) = W2 m ρ c (Proc.devRef .tc main_v6) := by not_written
  have h1 : StableHlo.after hostOps0_1 (W1 m ρ c) (Proc.devRef .tc main_v6) = W1 m ρ c (Proc.devRef .tc main_v6) := by not_written
  exact h2.trans (h1.trans ((s0_v6 (W0 m ρ c)).trans rfl))

/-! ## After the first region: what the second host stretch reads -/

/-- A buffer the first region does not touch, and no host operation before it writes, is as launched. -/
theorem w4_launched (c : Dev nD) (b : Ref sig .tc) (hb : ∀ w, Pipeline.arrRef spec0 w ≠ b)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W4 m ρ c (Proc.devRef .tc b) = W0 m ρ c (Proc.devRef .tc b) :=
  (W4_of_ne m ρ c b hb).trans (entry0_arg m ρ c b h0 h1 h2)

theorem w4_arg1 (c : Dev nD) : W4 m ρ c (Proc.devRef .tc main_arg1) = m ((c : Thread nD τ).loc main_arg1) :=
  (w4_launched m ρ c main_arg1 (by decide) (by not_written) (by not_written) (by not_written)).trans rfl
theorem w4_arg3 (c : Dev nD) : W4 m ρ c (Proc.devRef .tc main_arg3) = m ((c : Thread nD τ).loc main_arg3) :=
  (w4_launched m ρ c main_arg3 (by decide) (by not_written) (by not_written) (by not_written)).trans rfl
theorem w4_arg4 (c : Dev nD) : W4 m ρ c (Proc.devRef .tc main_arg4) = m ((c : Thread nD τ).loc main_arg4) :=
  (w4_launched m ρ c main_arg4 (by decide) (by not_written) (by not_written) (by not_written)).trans rfl
theorem w4_arg5 (c : Dev nD) : W4 m ρ c (Proc.devRef .tc main_arg5) = m ((c : Thread nD τ).loc main_arg5) :=
  (w4_launched m ρ c main_arg5 (by decide) (by not_written) (by not_written) (by not_written)).trans rfl
theorem w4_arg6 (c : Dev nD) : W4 m ρ c (Proc.devRef .tc main_arg6) = m ((c : Thread nD τ).loc main_arg6) :=
  (w4_launched m ρ c main_arg6 (by decide) (by not_written) (by not_written) (by not_written)).trans rfl
theorem w4_arg7 (c : Dev nD) : W4 m ρ c (Proc.devRef .tc main_arg7) = m ((c : Thread nD τ).loc main_arg7) :=
  (w4_launched m ρ c main_arg7 (by decide) (by not_written) (by not_written) (by not_written)).trans rfl
theorem w4_arg8 (c : Dev nD) : W4 m ρ c (Proc.devRef .tc main_arg8) = m ((c : Thread nD τ).loc main_arg8) :=
  (w4_launched m ρ c main_arg8 (by decide) (by not_written) (by not_written) (by not_written)).trans rfl
theorem w4_arg9 (c : Dev nD) : W4 m ρ c (Proc.devRef .tc main_arg9) = m ((c : Thread nD τ).loc main_arg9) :=
  (w4_launched m ρ c main_arg9 (by decide) (by not_written) (by not_written) (by not_written)).trans rfl

/-- The end-point columns survive the first region. -/
theorem w4_rows (c : Dev nD) :
    W4 m ρ c (Proc.devRef .tc main_v3) = Cert.ReferenceIdeal.Read.val_main_v3 (F := F) (m ((c : Thread nD τ).loc main_arg1)) :=
  (W4_of_ne m ρ c main_v3 (by decide)).trans (entry0_rows m ρ c)
theorem w4_cols (c : Dev nD) :
    W4 m ρ c (Proc.devRef .tc main_v6) = Cert.ReferenceIdeal.Read.val_main_v6 (F := F) (m ((c : Thread nD τ).loc main_arg1)) :=
  (W4_of_ne m ρ c main_v6 (by decide)).trans (entry0_cols m ρ c)

/-- The column of node weights is an input window of the first region: it leaves as it entered. -/
theorem w4_d (c : Dev nD) :
    W4 m ρ c (Proc.devRef .tc main_v21)
      = shapeCast S12288x1 (Cert.ReferenceIdeal.Read.val_main_v20 (F := F) (m ((c : Thread nD τ).loc main_arg1))) shapeCasts_S12288_S12288x1 :=
  ((W4_arr m ρ c 1).trans (((dat0 (V3 m ρ) c).arrAt_in 1 rfl _).trans (A_eq0 (V3 m ρ) c 1))).trans (entry0_d m ρ c)

end Cert.KernelIdeal.KHost1

end
-- ==== Proof.Spec.lean ====
/-
  The mathematics both programs compute, written once over plain coordinates (no program is imported here).

  A graph on 12288 nodes is given by a list of directed edges; to the 196608 listed edges one loop per node is
  appended (208896 in all). Write r(e), c(e) for the end points of edge e and d(j) for the node weight
  (in-degree to the power -1/2, or 0). The first layer is
      h(i, k) = max( d(i) · Σ_{e : r(e) = i} p(c(e), k) + b1(k), 0 ),   p(j, k) = Σ_f (x(j, f) · d(j)) · W1(f, k),
  which the reference spells through the dense matrix A(i, j) = #{e : r(e) = i, c(e) = j}:
      h(i, k) = max( Σ_f (Σ_j ((d(i) · A(i, j)) · d(j)) · x(j, f)) · W1(f, k) + b1(k), 0 ).
  The second layer averages h over each node's listed out-neighbours (the same operations in both programs), and
  the head below is applied row by row: a 32→16 affine map of the node's row and of its neighbourhood mean, a
  clamp at zero, a division by the Euclidean norm plus a small constant, a 16→7 affine map and a softmax.
-/
import Idealize.ShloMosaic.PureOps.Ideal
import Idealize.ShloMosaic.Lib.ValueIdx

noncomputable section

open scoped BigOperators

namespace Cert.Spec

open Idealize.ShloMosaic

/-- The word +0.0 (kept as a word: both programs spell it). -/
abbrev zeroW : EReal := Ideal.ofBits .f32 0x00000000#32
/-- The word 1.0. -/
abbrev oneW : EReal := Ideal.ofBits .f32 0x3F800000#32
/-- The word 9.99999997e-7, the constant added to the norm. -/
abbrev epsW : EReal := Ideal.ofBits .f32 0x358637BD#32
/-- The word -∞, where a running maximum starts. -/
abbrev ninfW : EReal := Ideal.ofBits .f32 0xFF800000#32

/-- The hidden row: the two affine maps added, clamped at zero. The sums are grouped as both programs group them:
    ((h·Wl + bl) + agg·Wr) + br. -/
def hid (h agg : Fin 32 → EReal) (Wl Wr : Fin 32 → Fin 16 → EReal) (bl br : Fin 16 → EReal) (q : Fin 16) : EReal :=
  max ((((∑ k : Fin 32, h k * Wl k q) + bl q) + (∑ k : Fin 32, agg k * Wr k q)) + br q) zeroW

/-- A row divided by its Euclidean norm plus the small constant. -/
def nrm (u : Fin 16 → EReal) (q : Fin 16) : EReal :=
  Ideal.div (u q) (Ideal.sqrt (∑ q' : Fin 16, u q' * u q') + epsW)

/-- The last affine map. -/
def logit (v : Fin 16 → EReal) (W3 : Fin 16 → Fin 7 → EReal) (b3 : Fin 7 → EReal) (c : Fin 7) : EReal :=
  (∑ q : Fin 16, v q * W3 q c) + b3 c

/-- The row's maximum, as a fold of max from -∞. -/
def rowMax (l : Fin 7 → EReal) : EReal := (Finset.univ : Finset (Fin 7)).fold max ninfW l

/-- The softmax of a row, shifted by its maximum. -/
def smax (l : Fin 7 → EReal) (c : Fin 7) : EReal :=
  Ideal.div (Ideal.exp (l c - rowMax l)) (∑ c' : Fin 7, Ideal.exp (l c' - rowMax l))

/-- One output row of the head from one row of h, one row of the neighbourhood mean and the weights. -/
def headRow (h agg : Fin 32 → EReal) (Wl : Fin 32 → Fin 16 → EReal) (bl : Fin 16 → EReal)
    (Wr : Fin 32 → Fin 16 → EReal) (br : Fin 16 → EReal) (W3 : Fin 16 → Fin 7 → EReal) (b3 : Fin 7 → EReal) :
    Fin 7 → EReal :=
  smax (logit (nrm (hid h agg Wl Wr bl br)) W3 b3)

/-- The node a 32-bit word names: its value reduced modulo the number of nodes (a total function; on a word in
    range it is the word's value). -/
def nodeOf (w : BitVec 32) : Fin 12288 := ⟨w.toNat % 12288, Nat.mod_lt _ (by decide)⟩

/-- The projected features p(j, k) = Σ_f (x(j, f) · d(j)) · W1(f, k). -/
def proj (x : Fin 12288 → Fin 1433 → EReal) (d : Fin 12288 → EReal) (W1 : Fin 1433 → Fin 32 → EReal)
    (j : Fin 12288) (k : Fin 32) : EReal :=
  ∑ f : Fin 1433, (x j f * d j) * W1 f k

end Cert.Spec

end
-- ==== Proof.KAgg.lean ====
/-
  The kernel's neighbourhood sum of the projected features: for every extended edge e the row p(c(e), ·) is gathered
  and added into row r(e). With every end point a node number, row i of the result is the word 0 plus the sum of
  p(c(e), ·) over the edges e with r(e) = i: a gathered row is read where its (in-range, so unclamped) start index
  says, and an update lands on row i exactly when its own row index is i and its column is kept.
-/
import proofs.«423551_j3075196584646_2_alg».proof.Proof.Gen.KernelIdeal
import proofs.«423551_j3075196584646_2_alg».proof.Proof.Spec
import Idealize.ShloMosaic.Lib.ValueIdx
import Idealize.ShloMosaic.Lib.ValueLayout
import Idealize.ShloMosaic.PureOps.Ideal.Laws

noncomputable section

namespace Cert.KernelIdeal.KAgg

open Cert.KernelIdeal Cert.KernelIdeal.Gen Idealize.ShloMosaic Idealize.ShloMosaic.ValueIdx

variable {F : FTy → Type} [FloatOps F]

/-- The gather of rows of `p` at the column end points followed by the scatter-add into the row end points, as the
    kernel's host code spells it (from zeros; both index vectors as [208896, 1] columns). -/
def aggK (p : FVec F S12288x32 .f32) (rowv colv : IVec S208896 32) : FVec F S12288x32 .f32 :=
  Host.scatterAdd scatter_S12288x32_S208896x1_S208896x32_1_0_0_1
    (broadcastInDim S12288x32 ![] bcast_S_S12288x32 (constant (F := F) S_ .f32 0x00000000#32))
    (broadcastInDim S208896x1 ![0] bcast_S208896_S208896x1_0 rowv)
    (Host.gather gather_S12288x32_S208896x1_S208896x32_1_0_n_n_0_1_132 p
      (broadcastInDim S208896x1 ![0] bcast_S208896_S208896x1_0 colv))

/-- A [208896] vector read as a [208896, 1] column. -/
theorem col_apply (v : IVec S208896 32) (j : S208896x1.Idx) :
    broadcastInDim S208896x1 ![0] bcast_S208896_S208896x1_0 v j = v (ix1 (n := 208896) ⟨(j 0).val, idx2_lt0 j⟩) := by
  unfold broadcastInDim
  refine congrArg v (funext fun a => ?_)
  match a with
  | ⟨0, _⟩ => rfl

/-- The gather's and the scatter's dimension numbers, by short names. -/
abbrev gd := gather_S12288x32_S208896x1_S208896x32_1_0_n_n_0_1_132
abbrev sd := scatter_S12288x32_S208896x1_S208896x32_1_0_0_1

/-- A gathered element (e, k') is the operand at row `clamp(start index of e)` and column k': the row axis is collapsed
    and led by the start index, the column axis is the one offset axis. -/
theorem gather_row (p : FVec Ideal S12288x32 .f32) (idx : IVec S208896x1 32) (j : S208896x32.Idx) :
    Host.gather gd p idx j
      = p (ix2 (n0 := 12288) (n1 := 32)
            ⟨min (idx (ix2 (n0 := 208896) (n1 := 1) ⟨(j 0).val, idx2_lt0 j⟩ ⟨0, Nat.one_pos⟩)).toInt.toNat (12288 - 1), by omega⟩
            ⟨(j 1).val, idx2_lt1 j⟩) := by
  unfold Host.gather
  congr 1
  funext a
  refine Fin.ext ?_
  match a with
  | ⟨0, _⟩ =>
    show gd.start j idx 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx j ⟨List.idxOf (0 : Fin 2) gd.startIndexMap,
        List.idxOf_lt_length_iff.2 (List.mem_singleton.mpr rfl)⟩
          = ix2 (n0 := 208896) (n1 := 1) ⟨(j 0).val, idx2_lt0 j⟩ ⟨0, Nat.one_pos⟩ := by
      funext b; refine Fin.ext ?_
      match b with
      | ⟨0, _⟩ => rfl
      | ⟨1, _⟩ => rfl
    rw [hsi]
    rfl
  | ⟨1, _⟩ =>
    show gd.start j idx 1 + gd.batchCoord j 1 + gd.offCoord j 1 = _
    rw [GatherDims.batchCoord_eq_zero _ _ _ List.not_mem_nil]
    have hs : gd.start j idx 1 = 0 := by
      unfold GatherDims.start
      rw [dif_neg (by decide)]
    rw [hs]
    simp only [Nat.add_zero, Nat.zero_add]
    rfl

/-- The scatter's start on the row axis is the update's own index word, read signed; -/
theorem sc_start0 (idx : IVec S208896x1 32) (j : S208896x32.Idx) :
    sd.start j idx 0 = (idx (ix2 (n0 := 208896) (n1 := 1) ⟨(j 0).val, idx2_lt0 j⟩ ⟨0, Nat.one_pos⟩)).toInt := by
  unfold ScatterDims.start
  rw [dif_pos (show (0 : Fin 2) ∈ sd.scatterDimsToOperandDims from List.mem_singleton.mpr rfl)]
  have hsi : sd.siIdx j ⟨List.idxOf (0 : Fin 2) sd.scatterDimsToOperandDims,
      List.idxOf_lt_length_iff.2 (List.mem_singleton.mpr rfl)⟩
        = ix2 (n0 := 208896) (n1 := 1) ⟨(j 0).val, idx2_lt0 j⟩ ⟨0, Nat.one_pos⟩ := by
    funext b; refine Fin.ext ?_
    match b with
    | ⟨0, _⟩ => rfl
    | ⟨1, _⟩ => rfl
  rw [hsi]

/-- on the column axis it is 0 (the index map does not name that axis). -/
theorem sc_start1 (idx : IVec S208896x1 32) (j : S208896x32.Idx) : sd.start j idx 1 = 0 := by
  unfold ScatterDims.start
  rw [dif_neg (by decide)]

/-- The window coordinate is 0 on the row axis (an inserted axis) -/
theorem sc_window0 (j : S208896x32.Idx) : sd.window j 0 = 0 := by
  unfold ScatterDims.window
  rw [dif_neg (by decide)]

/-- and the update's column on the column axis. -/
theorem sc_window1 (j : S208896x32.Idx) : sd.window j 1 = (j 1).val := by
  unfold ScatterDims.window
  rw [dif_pos (by decide)]
  rfl

/-- An update whose row index is a node number lands on that row, in its own column. -/
theorem scatter_hit (idx : IVec S208896x1 32) (j : S208896x32.Idx)
    (h0 : 0 ≤ (idx (ix2 (n0 := 208896) (n1 := 1) ⟨(j 0).val, idx2_lt0 j⟩ ⟨0, Nat.one_pos⟩)).toInt)
    (h1 : (idx (ix2 (n0 := 208896) (n1 := 1) ⟨(j 0).val, idx2_lt0 j⟩ ⟨0, Nat.one_pos⟩)).toInt < 12288) :
    sd.resultIdx? j idx
      = some (ix2 (n0 := 12288) (n1 := 32)
          ⟨(idx (ix2 (n0 := 208896) (n1 := 1) ⟨(j 0).val, idx2_lt0 j⟩ ⟨0, Nat.one_pos⟩)).toInt.toNat, by omega⟩
          ⟨(j 1).val, idx2_lt1 j⟩) := by
  have hj1 : (j 1).val < 32 := idx2_lt1 j
  unfold ScatterDims.resultIdx?
  rw [dif_pos (by
    intro a
    match a with
    | ⟨0, _⟩ =>
      show 0 ≤ sd.start j idx 0 + (sd.window j 0 : Int) ∧ sd.start j idx 0 + (sd.window j 0 : Int) < 12288
      rw [sc_start0, sc_window0]; omega
    | ⟨1, _⟩ =>
      show 0 ≤ sd.start j idx 1 + (sd.window j 1 : Int) ∧ sd.start j idx 1 + (sd.window j 1 : Int) < 32
      rw [sc_start1, sc_window1]; omega)]
  congr 1
  funext a
  refine Fin.ext ?_
  match a with
  | ⟨0, _⟩ =>
    show (sd.start j idx 0 + (sd.window j 0 : Int)).toNat = _
    rw [sc_start0, sc_window0]; simp
  | ⟨1, _⟩ =>
    show (sd.start j idx 1 + (sd.window j 1 : Int)).toNat = _
    rw [sc_start1, sc_window1]; simp

/-- A word whose signed value is a node number: that value is the word's unsigned value reduced modulo 12288. -/
theorem toInt_toNat_of_node (w : BitVec 32) (h0 : 0 ≤ w.toInt) (h1 : w.toInt < 12288) :
    w.toInt.toNat = w.toNat % 12288 := by
  have hlt := w.isLt
  have hc := BitVec.toInt_eq_toNat_cond w
  split at hc <;> omega

/-- Two rank-2 indices are equal exactly when their coordinates are. -/
theorem ix2_eq_iff {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- An update (e, k') lands on (i, k) exactly when e's row end point is i and k' = k. -/
theorem hit_iff (rowv : IVec S208896 32)
    (hr : ∀ e : Fin 208896, 0 ≤ (rowv (ix1 e)).toInt ∧ (rowv (ix1 e)).toInt < 12288)
    (j : S208896x32.Idx) (i : Fin 12288) (k : Fin 32) :
    sd.resultIdx? j (broadcastInDim S208896x1 ![0] bcast_S208896_S208896x1_0 rowv) = some (ix2 i k)
      ↔ Cert.Spec.nodeOf (rowv (ix1 (n := 208896) ⟨(j 0).val, idx2_lt0 j⟩)) = i ∧ (j 1).val = k.val := by
  have hcol : (broadcastInDim S208896x1 ![0] bcast_S208896_S208896x1_0 rowv)
        (ix2 (n0 := 208896) (n1 := 1) ⟨(j 0).val, idx2_lt0 j⟩ ⟨0, Nat.one_pos⟩)
      = rowv (ix1 (n := 208896) ⟨(j 0).val, idx2_lt0 j⟩) := col_apply _ _
  have h := hr ⟨(j 0).val, idx2_lt0 j⟩
  rw [scatter_hit _ j (by rw [hcol]; exact h.1) (by rw [hcol]; exact h.2), Option.some.injEq, ix2_eq_iff]
  have hw := toInt_toNat_of_node _ h.1 h.2
  constructor
  · rintro ⟨e0, e1⟩
    refine ⟨Fin.ext ?_, ?_⟩
    · have := congrArg Fin.val e0
      simp only [hcol] at this
      show (rowv (ix1 (n := 208896) ⟨(j 0).val, idx2_lt0 j⟩)).toNat % 12288 = i.val
      omega
    · exact congrArg Fin.val e1
  · rintro ⟨e0, e1⟩
    refine ⟨Fin.ext ?_, Fin.ext e1⟩
    have := congrArg Fin.val e0
    simp only [hcol]
    change (rowv (ix1 (n := 208896) ⟨(j 0).val, idx2_lt0 j⟩)).toNat % 12288 = i.val at this
    show (rowv (ix1 (n := 208896) ⟨(j 0).val, idx2_lt0 j⟩)).toInt.toNat = i.val
    omega

/-- Row i, column k of the neighbourhood sum, when every end point is a node number. -/
theorem aggK_apply (p : FVec Ideal S12288x32 .f32) (rowv colv : IVec S208896 32)
    (hr : ∀ e : Fin 208896, 0 ≤ (rowv (ix1 e)).toInt ∧ (rowv (ix1 e)).toInt < 12288)
    (hc : ∀ e : Fin 208896, 0 ≤ (colv (ix1 e)).toInt ∧ (colv (ix1 e)).toInt < 12288)
    (i : Fin 12288) (k : Fin 32) :
    aggK (F := Ideal) p rowv colv (ix2 i k)
      = Cert.Spec.zeroW + ∑ e ∈ Finset.univ.filter (fun e : Fin 208896 => Cert.Spec.nodeOf (rowv (ix1 e)) = i),
          p (ix2 (Cert.Spec.nodeOf (colv (ix1 e))) k) := by
  unfold aggK
  show Ideal.hostScatterAdd sd _ _ _ (ix2 i k) = _
  unfold Ideal.hostScatterAdd
  beta_reduce
  refine congrArg₂ (fun a b : EReal => a + b) rfl ?_
  refine Finset.sum_nbij' (fun j => (⟨(j 0).val, idx2_lt0 j⟩ : Fin 208896)) (fun e => ix2 e k) ?_ ?_ ?_ ?_ ?_
  · intro j hj
    rw [Finset.mem_filter] at hj ⊢
    exact ⟨Finset.mem_univ _, ((hit_iff rowv hr j i k).1 hj.2).1⟩
  · intro e he
    rw [Finset.mem_filter] at he ⊢
    exact ⟨Finset.mem_univ _, (hit_iff rowv hr (ix2 e k) i k).2 ⟨he.2, rfl⟩⟩
  · intro j hj
    rw [Finset.mem_filter] at hj
    have h1 := ((hit_iff rowv hr j i k).1 hj.2).2
    funext a
    match a with
    | ⟨0, _⟩ => rfl
    | ⟨1, _⟩ => exact (Fin.ext h1).symm
  · intro e he
    rfl
  · intro j hj
    rw [Finset.mem_filter] at hj
    have h1 := ((hit_iff rowv hr j i k).1 hj.2).2
    have hcol : (broadcastInDim S208896x1 ![0] bcast_S208896_S208896x1_0 colv)
          (ix2 (n0 := 208896) (n1 := 1) ⟨(j 0).val, idx2_lt0 j⟩ ⟨0, Nat.one_pos⟩)
        = colv (ix1 (n := 208896) ⟨(j 0).val, idx2_lt0 j⟩) := col_apply _ _
    rw [gather_row]
    have h := hc ⟨(j 0).val, idx2_lt0 j⟩
    have hw := toInt_toNat_of_node _ h.1 h.2
    refine congrArg p ?_
    rw [ix2_eq_iff]
    refine ⟨Fin.ext ?_, Fin.ext h1⟩
    show min ((broadcastInDim S208896x1 ![0] bcast_S208896_S208896x1_0 colv)
          (ix2 (n0 := 208896) (n1 := 1) ⟨(j 0).val, idx2_lt0 j⟩ ⟨0, Nat.one_pos⟩)).toInt.toNat (12288 - 1)
      = (colv (ix1 (n := 208896) ⟨(j 0).val, idx2_lt0 j⟩)).toNat % 12288
    rw [hcol]
    omega

end Cert.KernelIdeal.KAgg

end
-- ==== Proof.KLayer.lean ====
/-
  The kernel's first layer as ONE function of the projected features p, the two columns of end points, the column of
  node weights and the bias: h = max(d · agg(p) + b1, 0), where agg gathers the rows p(c(e), ·) and adds them into the
  rows r(e); a negative column index would first have 12288 added to it, as the host code spells it.
-/
import proofs.«423551_j3075196584646_2_alg».proof.Proof.KAgg

noncomputable section

namespace Cert.KernelIdeal.KLayer

open Cert.KernelIdeal Cert.KernelIdeal.Gen Cert.KernelIdeal.KAgg Idealize.ShloMosaic

variable {F : FTy → Type} [FloatOps F]

/-- The column end points with 12288 added to the negative ones. -/
def wrapCol (colv : IVec S208896 32) : IVec S208896 32 :=
  select (cmpi .slt colv (broadcastInDim S208896 ![] bcast_S_S208896 (constantI S_ 32 0#32)))
    (addi colv (broadcastInDim S208896 ![] bcast_S_S208896 (constantI S_ 32 12288#32))) colv

/-- The first layer's output from the projected features. -/
def hK (p : FVec F S12288x32 .f32) (rowv colv : IVec S208896 32) (dcol : FVec F S12288x1 .f32) (b1 : FVec F S32 .f32) :
    FVec F S12288x32 .f32 :=
  maximumf
    (addf
      (mulf (broadcastInDim S12288x32 ![0, 1] bcast_S12288x1_S12288x32_0_1 dcol) (aggK p rowv (wrapCol colv)))
      (broadcastInDim S12288x32 ![0, 1] bcast_S1x32_S12288x32_0_1 (broadcastInDim S1x32 ![1] bcast_S32_S1x32_1 b1)))
    (broadcastInDim S12288x32 ![] bcast_S_S12288x32 (constant (F := F) S_ .f32 0x00000000#32))

end Cert.KernelIdeal.KLayer

end
-- ==== Proof.Sage.lean ====
/-
  The second layer's neighbourhood mean as ONE function of the first layer's output h and the edge list: row i is the
  sum of the rows h(dst e) over the listed edges e leaving i, divided by the larger of their number and 1, and 0 when
  there is none. Both programs apply exactly these host operations to their own h, so the function is carried whole
  and never opened.
-/
import proofs.«423551_j3075196584646_2_alg».proof.Proof.RefRead

noncomputable section

namespace Cert.Sage

open Cert.ReferenceIdeal Cert.ReferenceIdeal.Gen Cert.ReferenceIdeal.Read Idealize.ShloMosaic

variable {F : FTy → Type} [FloatOps F]

/-- The neighbourhood mean of `h` along the listed edges `x1` (the parts that do not read `h` — the index columns,
    the out-degree, the mask — are the reference's own stages). -/
def sage (h : FVec F S12288x32 .f32) (x1 : IVec S2x196608 32) : FVec F S12288x32 .f32 :=
  select (val_main_call2_v1 (F := F) x1)
    (Host.divf
      (Host.scatterAdd scatter_S12288x32_S196608x1_S196608x32_1_0_0_1 (val_main_v60 (F := F)) (val_main_v61 (F := F) x1)
        (Host.gather gather_S12288x32_S196608x1_S196608x32_1_0_n_n_0_1_132 h (val_main_v58 (F := F) x1)))
      (val_main_v73 (F := F) x1))
    (val_main_call2_v2 (F := F))

/-- The reference's neighbourhood mean is this function of its own first-layer output. -/
theorem ref_sage (x0 : FVec F S12288x1433 .f32) (x1 : IVec S2x196608 32) (x2 : FVec F S1433x32 .f32) (x3 : FVec F S32 .f32) :
    val_main_v75 (F := F) x0 x1 x2 x3 = sage (val_main_v48 (F := F) x0 x1 x2 x3) x1 := rfl

end Cert.Sage

end
-- ==== Proof.KHost2.lean ====
/-
  What the second kernel region is entered with, as functions of what the first region left: the first layer's output
  h (from the projected features, the end-point columns, the node weights and the bias), the neighbourhood mean of h
  along the listed edges, and the head's weights, the three bias vectors viewed as 1×n rows.

  Between the two regions the program runs five stretches of host operations. Each operation writes one buffer as a
  function of the buffers it reads, so what a buffer holds after a stretch is either the composite of the operations
  that lead to it or, if no operation of the stretch writes it, what it held before. The first stretch and the inlined
  relu compute h; the third and the inlined select compute the mean of the rows h(dst e) over the listed edges e
  leaving each node, which is the shared function of h and the edge list; the last stretch views the biases as rows.
-/
import proofs.«423551_j3075196584646_2_alg».proof.Proof.Gen.KernelIdeal.Frame
import proofs.«423551_j3075196584646_2_alg».proof.Proof.KLayer
import proofs.«423551_j3075196584646_2_alg».proof.Proof.Sage

set_option maxRecDepth 16384

noncomputable section

namespace Cert.KernelIdeal.KHost2

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What each stretch of host operations writes

Every operation writes exactly one buffer; listing them per stretch, any buffer outside the list holds after the
stretch what it held before. -/

abbrev wr0 : List (Ref sig .tc) :=
  [main_c_5, main_v24, main_v25, main_c_6, main_v26, main_v27, main_v28, main_v29, main_v30, main_cst_7, main_v31,
   main_v32, main_v33, main_v34, main_v35, main_v36, main_v37, main_v38]
abbrev wr1 : List (Ref sig .tc) := [main_call1_cst, main_call1_v0, main_v39]
abbrev wr2 : List (Ref sig .tc) :=
  [main_v40, main_v41, main_v42, main_v43, main_c_8, main_v44, main_v45, main_c_9, main_v46, main_v47, main_v48,
   main_v49, main_v50, main_cst_10, main_v51, main_v52, main_v53, main_cst_11, main_v54, main_cst_12, main_v55,
   main_v56, main_v57, main_v58, main_cst_13, main_v59, main_v60, main_cst_14, main_v61, main_v62, main_v63,
   main_v64, main_v65, main_cst_15]
abbrev wr3 : List (Ref sig .tc) := [main_call2_v0, main_call2_v1, main_call2_v2, main_v66]
abbrev wr4 : List (Ref sig .tc) := [main_v67, main_v68, main_v69]

/-- Each operation of a literal list writes a buffer of the given list. -/
local macro "writes_in " ops:ident : tactic =>
  `(tactic| (simp only [$ops:ident, List.Forall, StableHlo.nullary_writes, StableHlo.unary_writes, StableHlo.binary_writes,
      StableHlo.ternary_writes, StableHlo.reshape_writes, Finset.singleton_subset_iff, List.mem_toFinset]
             repeat' apply And.intro
             all_goals exact List.mem_map_of_mem (by decide)))

theorem wr0_sub : (hostOps1 : List (HloOp τ sig (Elt F))).Forall fun op => op.writes ⊆ (wr0.map (Proc.devRef (τ := τ) .tc)).toFinset := by
  writes_in hostOps1
theorem wr1_sub : (hostOps1_1 : List (HloOp τ sig (Elt F))).Forall fun op => op.writes ⊆ (wr1.map (Proc.devRef (τ := τ) .tc)).toFinset := by
  writes_in hostOps1_1
theorem wr2_sub : (hostOps1_2 : List (HloOp τ sig (Elt F))).Forall fun op => op.writes ⊆ (wr2.map (Proc.devRef (τ := τ) .tc)).toFinset := by
  writes_in hostOps1_2
theorem wr3_sub : (hostOps1_3 : List (HloOp τ sig (Elt F))).Forall fun op => op.writes ⊆ (wr3.map (Proc.devRef (τ := τ) .tc)).toFinset := by
  writes_in hostOps1_3
theorem wr4_sub : (hostOps1_4 : List (HloOp τ sig (Elt F))).Forall fun op => op.writes ⊆ (wr4.map (Proc.devRef (τ := τ) .tc)).toFinset := by
  writes_in hostOps1_4

section Keep
variable (c : Dev nD) (r : Ref sig .tc)

theorem W5_keep (h : r ∉ wr0) : W5 m ρ c (Proc.devRef .tc r) = W4 m ρ c (Proc.devRef .tc r) :=
  StableHlo.after_of_writes_sub hostOps1 _ wr0_sub h
theorem W6_keep (h : r ∉ wr1) : W6 m ρ c (Proc.devRef .tc r) = W5 m ρ c (Proc.devRef .tc r) :=
  StableHlo.after_of_writes_sub hostOps1_1 _ wr1_sub h
theorem W7_keep (h : r ∉ wr2) : W7 m ρ c (Proc.devRef .tc r) = W6 m ρ c (Proc.devRef .tc r) :=
  StableHlo.after_of_writes_sub hostOps1_2 _ wr2_sub h
theorem W8_keep (h : r ∉ wr3) : W8 m ρ c (Proc.devRef .tc r) = W7 m ρ c (Proc.devRef .tc r) :=
  StableHlo.after_of_writes_sub hostOps1_3 _ wr3_sub h
theorem W9_keep (h : r ∉ wr4) : W9 m ρ c (Proc.devRef .tc r) = W8 m ρ c (Proc.devRef .tc r) :=
  StableHlo.after_of_writes_sub hostOps1_4 _ wr4_sub h

/-- A buffer none of the five stretches writes holds at the second region's entry what the first region left. -/
theorem W9_keep_all (h0 : r ∉ wr0) (h1 : r ∉ wr1) (h2 : r ∉ wr2) (h3 : r ∉ wr3) (h4 : r ∉ wr4) :
    W9 m ρ c (Proc.devRef .tc r) = W4 m ρ c (Proc.devRef .tc r) :=
  (W9_keep m ρ c r h4).trans ((W8_keep m ρ c r h3).trans ((W7_keep m ρ c r h2).trans ((W6_keep m ρ c r h1).trans
    (W5_keep m ρ c r h0))))
/-- A buffer the first four stretches leave alone holds before the last what the first region left. -/
theorem W8_keep_all (h0 : r ∉ wr0) (h1 : r ∉ wr1) (h2 : r ∉ wr2) (h3 : r ∉ wr3) :
    W8 m ρ c (Proc.devRef .tc r) = W4 m ρ c (Proc.devRef .tc r) :=
  (W8_keep m ρ c r h3).trans ((W7_keep m ρ c r h2).trans ((W6_keep m ρ c r h1).trans (W5_keep m ρ c r h0)))
end Keep

/-! ## What each stretch computes, over any contents `W` at its start -/

section Stretch
variable (W : Valuation τ sig (Elt F))

/-- The listed edges' source column and target column, and the target column with 12288 added to its negative entries. -/
def srcCol (x1 : IVec S2x196608 32) : IVec S196608 32 :=
  shapeCast S196608 (extractStridedSlice S1x196608 ![0, 0] x1 slices_S2x196608_S1x196608_0_0) shapeCasts_S1x196608_S196608
def dstCol (x1 : IVec S2x196608 32) : IVec S196608 32 :=
  shapeCast S196608 (extractStridedSlice S1x196608 ![1, 0] x1 slices_S2x196608_S1x196608_1_0) shapeCasts_S1x196608_S196608
def wrapDst (x1 : IVec S2x196608 32) : IVec S196608 32 :=
  select (cmpi .slt (dstCol x1) (broadcastInDim S196608 ![] bcast_S_S196608 (constantI S_ 32 0#32)))
    (addi (dstCol x1) (broadcastInDim S196608 ![] bcast_S_S196608 (constantI S_ 32 12288#32))) (dstCol x1)
/-- The number of listed edges leaving each node: 1 added at the source of every edge, from zeros. -/
def outDeg (x1 : IVec S2x196608 32) : FVec F S12288 .f32 :=
  Host.scatterAdd scatter_S12288_S196608x1_S196608_n_0_0_1
    (broadcastInDim S12288 ![] bcast_S_S12288 (constant (F := F) S_ .f32 0x00000000#32))
    (broadcastInDim S196608x1 ![0] bcast_S196608_S196608x1_0 (srcCol x1))
    (broadcastInDim S196608 ![] bcast_S_S196608 (constant (F := F) S_ .f32 0x3F800000#32))
/-- The rows h(dst e) added into the rows src e, each row divided by the larger of its node's out-degree and 1. -/
def meanK (h : FVec F S12288x32 .f32) (x1 : IVec S2x196608 32) : FVec F S12288x32 .f32 :=
  Host.divf
    (Host.scatterAdd scatter_S12288x32_S196608x1_S196608x32_1_0_0_1
      (broadcastInDim S12288x32 ![] bcast_S_S12288x32 (constant (F := F) S_ .f32 0x00000000#32))
      (broadcastInDim S196608x1 ![0] bcast_S196608_S196608x1_0 (srcCol x1))
      (Host.gather gather_S12288x32_S196608x1_S196608x32_1_0_n_n_0_1_132 h
        (broadcastInDim S196608x1 ![0] bcast_S196608_S196608x1_0 (wrapDst x1))))
    (broadcastInDim S12288x32 ![0, 1] bcast_S12288x1_S12288x32_0_1
      (broadcastInDim S12288x1 ![0] bcast_S12288_S12288x1_0
        (maximumf (outDeg (F := F) x1)
          (broadcastInDim S12288 ![] bcast_S_S12288 (constant (F := F) S_ .f32 0x3F800000#32)))))
/-- Which nodes have an edge leaving them. -/
def maskK (x1 : IVec S2x196608 32) : IVec S12288x1 1 :=
  cmpf .ogt (broadcastInDim S12288x1 ![0] bcast_S12288_S12288x1_0 (outDeg (F := F) x1))
    (broadcastInDim S12288x1 ![] bcast_S_S12288x1 (constant (F := F) S_ .f32 0x00000000#32))

set_option maxHeartbeats 4000000 in
theorem s1_v38 : StableHlo.after hostOps1 W (Proc.devRef .tc main_v38)
    = addf
        (mulf (broadcastInDim S12288x32 ![0, 1] bcast_S12288x1_S12288x32_0_1 (W (Proc.devRef .tc main_v21)))
          (Cert.KernelIdeal.KAgg.aggK (W (Proc.devRef .tc main_v23)) (W (Proc.devRef .tc main_v3))
            (Cert.KernelIdeal.KLayer.wrapCol (W (Proc.devRef .tc main_v6)))))
        (broadcastInDim S12288x32 ![0, 1] bcast_S1x32_S12288x32_0_1
          (broadcastInDim S1x32 ![1] bcast_S32_S1x32_1 (W (Proc.devRef .tc main_arg3)))) := by
  after_results_simp
  rfl

theorem s11_v39 : StableHlo.after hostOps1_1 W (Proc.devRef .tc main_v39)
    = maximumf (W (Proc.devRef .tc main_v38))
        (broadcastInDim S12288x32 ![] bcast_S_S12288x32 (constant (F := F) S_ .f32 0x00000000#32)) := by
  after_results; rfl

set_option maxHeartbeats 4000000 in
theorem s12_v65 : StableHlo.after hostOps1_2 W (Proc.devRef .tc main_v65)
    = meanK (W (Proc.devRef .tc main_v39)) (W (Proc.devRef .tc main_arg1)) := by
  after_results_simp
  rfl
set_option maxHeartbeats 4000000 in
theorem s12_v60 : StableHlo.after hostOps1_2 W (Proc.devRef .tc main_v60) = maskK (F := F) (W (Proc.devRef .tc main_arg1)) := by
  after_results_simp
  rfl
set_option maxHeartbeats 4000000 in
theorem s12_cst15 : StableHlo.after hostOps1_2 W (Proc.devRef .tc main_cst_15) = constant (F := F) S_ .f32 0x00000000#32 := by
  after_results_simp

theorem s13_v66 : StableHlo.after hostOps1_3 W (Proc.devRef .tc main_v66)
    = select (broadcastInDim S12288x32 ![0, 1] bcast_S12288x1_S12288x32_0_1 (W (Proc.devRef .tc main_v60)))
        (W (Proc.devRef .tc main_v65))
        (broadcastInDim S12288x32 ![] bcast_S_S12288x32 (id (W (Proc.devRef .tc main_cst_15)))) := by
  after_results; rfl

theorem s14_v67 : StableHlo.after hostOps1_4 W (Proc.devRef .tc main_v67)
    = shapeCast S1x16 (W (Proc.devRef .tc main_arg5)) shapeCasts_S16_S1x16 := by
  after_results; rfl
theorem s14_v68 : StableHlo.after hostOps1_4 W (Proc.devRef .tc main_v68)
    = shapeCast S1x16 (W (Proc.devRef .tc main_arg7)) shapeCasts_S16_S1x16 := by
  after_results; rfl
theorem s14_v69 : StableHlo.after hostOps1_4 W (Proc.devRef .tc main_v69)
    = shapeCast S1x7 (W (Proc.devRef .tc main_arg9)) shapeCasts_S7_S1x7 := by
  after_results; rfl

/-- The selected mean is the shared function: the two programs spell the same operations, each with its own copy of the
    shape records, which agree field by field. -/
theorem agg_eq_sage (h : FVec F S12288x32 .f32) (x1 : IVec S2x196608 32) :
    select (broadcastInDim S12288x32 ![0, 1] bcast_S12288x1_S12288x32_0_1 (maskK (F := F) x1)) (meanK h x1)
        (broadcastInDim S12288x32 ![] bcast_S_S12288x32 (id (constant (F := F) S_ .f32 0x00000000#32)))
      = Cert.Sage.sage h x1 := rfl

end Stretch

/-! ## The second region's entry -/

/-- The first layer's output is written by the inlined relu and not touched afterwards. -/
theorem W9_v39_eq_W6 (c : Dev nD) : W9 m ρ c (Proc.devRef .tc main_v39) = W6 m ρ c (Proc.devRef .tc main_v39) :=
  (W9_keep m ρ c main_v39 (by decide)).trans ((W8_keep m ρ c main_v39 (by decide)).trans (W7_keep m ρ c main_v39 (by decide)))

/-- The edge list is an argument: the first two stretches leave it alone. -/
theorem W6_arg1 (c : Dev nD) : W6 m ρ c (Proc.devRef .tc main_arg1) = W4 m ρ c (Proc.devRef .tc main_arg1) :=
  (W6_keep m ρ c main_arg1 (by decide)).trans (W5_keep m ρ c main_arg1 (by decide))

/-- The first layer's output at the second region's entry. -/
theorem entry1_h (c : Dev nD) :
    W9 m ρ c (Proc.devRef .tc main_v39)
      = Cert.KernelIdeal.KLayer.hK (W4 m ρ c (Proc.devRef .tc main_v23)) (W4 m ρ c (Proc.devRef .tc main_v3))
          (W4 m ρ c (Proc.devRef .tc main_v6)) (W4 m ρ c (Proc.devRef .tc main_v21)) (W4 m ρ c (Proc.devRef .tc main_arg3)) := by
  rw [W9_v39_eq_W6]
  show StableHlo.after hostOps1_1 (W5 m ρ c) (Proc.devRef .tc main_v39) = _
  rw [s11_v39]
  show maximumf (StableHlo.after hostOps1 (W4 m ρ c) (Proc.devRef .tc main_v38)) _ = _
  rw [s1_v38]
  rfl

/-- The neighbourhood mean at the second region's entry is the shared function of that output. -/
theorem entry1_agg (c : Dev nD) :
    W9 m ρ c (Proc.devRef .tc main_v66)
      = Cert.Sage.sage (W9 m ρ c (Proc.devRef .tc main_v39)) (W4 m ρ c (Proc.devRef .tc main_arg1)) := by
  rw [W9_keep m ρ c main_v66 (by decide)]
  show StableHlo.after hostOps1_3 (W7 m ρ c) (Proc.devRef .tc main_v66) = _
  rw [s13_v66]
  show select (broadcastInDim S12288x32 ![0, 1] bcast_S12288x1_S12288x32_0_1 (StableHlo.after hostOps1_2 (W6 m ρ c) (Proc.devRef .tc main_v60)))
      (StableHlo.after hostOps1_2 (W6 m ρ c) (Proc.devRef .tc main_v65))
      (broadcastInDim S12288x32 ![] bcast_S_S12288x32 (id (StableHlo.after hostOps1_2 (W6 m ρ c) (Proc.devRef .tc main_cst_15)))) = _
  rw [s12_v60, s12_v65, s12_cst15, W6_arg1, W9_v39_eq_W6]
  exact agg_eq_sage _ _

/-- The weight matrices are untouched by the host operations between the regions. -/
theorem entry1_arg4 (c : Dev nD) : W9 m ρ c (Proc.devRef .tc main_arg4) = W4 m ρ c (Proc.devRef .tc main_arg4) :=
  W9_keep_all m ρ c main_arg4 (by decide) (by decide) (by decide) (by decide) (by decide)
theorem entry1_arg6 (c : Dev nD) : W9 m ρ c (Proc.devRef .tc main_arg6) = W4 m ρ c (Proc.devRef .tc main_arg6) :=
  W9_keep_all m ρ c main_arg6 (by decide) (by decide) (by decide) (by decide) (by decide)
theorem entry1_arg8 (c : Dev nD) : W9 m ρ c (Proc.devRef .tc main_arg8) = W4 m ρ c (Proc.devRef .tc main_arg8) :=
  W9_keep_all m ρ c main_arg8 (by decide) (by decide) (by decide) (by decide) (by decide)

/-- The bias vectors as 1×n rows. -/
theorem entry1_v67 (c : Dev nD) :
    W9 m ρ c (Proc.devRef .tc main_v67) = shapeCast S1x16 (W4 m ρ c (Proc.devRef .tc main_arg5)) shapeCasts_S16_S1x16 :=
  (s14_v67 (W8 m ρ c)).trans (by rw [W8_keep_all m ρ c main_arg5 (by decide) (by decide) (by decide) (by decide)])
theorem entry1_v68 (c : Dev nD) :
    W9 m ρ c (Proc.devRef .tc main_v68) = shapeCast S1x16 (W4 m ρ c (Proc.devRef .tc main_arg7)) shapeCasts_S16_S1x16 :=
  (s14_v68 (W8 m ρ c)).trans (by rw [W8_keep_all m ρ c main_arg7 (by decide) (by decide) (by decide) (by decide)])
theorem entry1_v69 (c : Dev nD) :
    W9 m ρ c (Proc.devRef .tc main_v69) = shapeCast S1x7 (W4 m ρ c (Proc.devRef .tc main_arg9)) shapeCasts_S7_S1x7 :=
  (s14_v69 (W8 m ρ c)).trans (by rw [W8_keep_all m ρ c main_arg9 (by decide) (by decide) (by decide) (by decide)])

end Cert.KernelIdeal.KHost2

end
-- ==== Proof.KProj.lean ====
/-
  What the first kernel region leaves in its output array: the row blocks of 1024 nodes tile the 12288 rows, and
  block t holds, at row a and column k, the matrix product of the scaled feature rows with the weights,
      p(j, k) = Σ_f (x(j, f) · d(j)) · W1(f, k),   j = 1024·t + a,
  (a change of float format is the identity on extended reals, so the two narrowing steps vanish). Stated at
  any contents `V` the region may be entered from.
-/
import proofs.«423551_j3075196584646_2_alg».proof.Proof.Gen.KernelIdeal.Frame
import proofs.«423551_j3075196584646_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KProj

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The product of one block, entry by entry -/

/-- The left operand of the contraction is read, on its row axis, at the output's row, -/
theorem lhs_row (i : S1024x32.Idx) (q : dot_S1024x1433_S1433x32_S1024x32_1_0_0_1_n_n.contr.Idx) :
    (dot_S1024x1433_S1433x32_S1024x32_1_0_0_1_n_n.lhsIdx i q 0).val = (i 0).val := by
  unfold DotDims.lhsIdx
  rw [dif_neg (show ¬(0 : Fin S1024x1433.rank) ∈ dot_S1024x1433_S1433x32_S1024x32_1_0_0_1_n_n.lhsBatch by decide), dif_pos (show (0 : Fin S1024x1433.rank) ∈ dot_S1024x1433_S1433x32_S1024x32_1_0_0_1_n_n.lhsNonContracting by decide)]
  rfl
/-- and on its column axis at the summation index; -/
theorem lhs_col (i : S1024x32.Idx) (q : dot_S1024x1433_S1433x32_S1024x32_1_0_0_1_n_n.contr.Idx) :
    (dot_S1024x1433_S1433x32_S1024x32_1_0_0_1_n_n.lhsIdx i q 1).val = (q ⟨0, by decide⟩).val :=
  dot_S1024x1433_S1433x32_S1024x32_1_0_0_1_n_n.lhsIdx_val_of_single rfl i q
/-- the right operand on its row axis at the summation index, -/
theorem rhs_row (i : S1024x32.Idx) (q : dot_S1024x1433_S1433x32_S1024x32_1_0_0_1_n_n.contr.Idx) :
    (dot_S1024x1433_S1433x32_S1024x32_1_0_0_1_n_n.rhsIdx i q 0).val = (q ⟨0, by decide⟩).val :=
  dot_S1024x1433_S1433x32_S1024x32_1_0_0_1_n_n.rhsIdx_val_of_single rfl i q
/-- and on its column axis at the output's column. -/
theorem rhs_col (i : S1024x32.Idx) (q : dot_S1024x1433_S1433x32_S1024x32_1_0_0_1_n_n.contr.Idx) :
    (dot_S1024x1433_S1433x32_S1024x32_1_0_0_1_n_n.rhsIdx i q 1).val = (i 1).val := by
  unfold DotDims.rhsIdx
  rw [dif_neg (show ¬(1 : Fin S1433x32.rank) ∈ dot_S1024x1433_S1433x32_S1024x32_1_0_0_1_n_n.rhsBatch by decide), dif_pos (show (1 : Fin S1433x32.rank) ∈ dot_S1024x1433_S1433x32_S1024x32_1_0_0_1_n_n.rhsNonContracting by decide)]
  rfl

/-- One block's product at row a and column k: the sum over the 1433 features of (feature · node weight) · weight.
    The narrowing of the scaled features and the zero the sum starts from leave no trace on the extended reals. -/
theorem block_product (x0 : Vec Ideal S1024x1433 .f32) (x1 : Vec Ideal S1024x1 .f32) (x2 : Vec Ideal S1433x32 .bf16)
    (a : Fin 1024) (k : Fin 32) :
    (k0_pay1 x0 x1 x2 : S1024x32.Idx → EReal) (ix2 a k)
      = ∑ f : Fin 1433, ((x0 : S1024x1433.Idx → EReal) (ix2 a f) * (x1 : S1024x1.Idx → EReal) (ix2 a (0 : Fin 1)))
          * (x2 : S1433x32.Idx → EReal) (ix2 f k) := by
  unfold k0_pay1
  simp only [shapeCast_self, matmul]
  rw [Ideal.matmul_constant_zero_apply, ← Equiv.sum_comp (ValueIdx.contrEquiv1 dot_S1024x1433_S1433x32_S1024x32_1_0_0_1_n_n 1433 rfl rfl).symm]
  refine Finset.sum_congr rfl fun f _ => ?_
  have hk := ValueIdx.contrEquiv1_symm_val dot_S1024x1433_S1433x32_S1024x32_1_0_0_1_n_n 1433 rfl rfl f
  have el : dot_S1024x1433_S1433x32_S1024x32_1_0_0_1_n_n.lhsIdx (ix2 a k) ((ValueIdx.contrEquiv1 dot_S1024x1433_S1433x32_S1024x32_1_0_0_1_n_n 1433 rfl rfl).symm f) = ix2 a f := funext fun ax => Fin.ext (by
    match ax with
    | ⟨0, _⟩ => exact lhs_row _ _
    | ⟨1, _⟩ => exact (lhs_col _ _).trans hk)
  have er : dot_S1024x1433_S1433x32_S1024x32_1_0_0_1_n_n.rhsIdx (ix2 a k) ((ValueIdx.contrEquiv1 dot_S1024x1433_S1433x32_S1024x32_1_0_0_1_n_n 1433 rfl rfl).symm f) = ix2 f k := funext fun ax => Fin.ext (by
    match ax with
    | ⟨0, _⟩ => exact (rhs_row _ _).trans hk
    | ⟨1, _⟩ => exact rhs_col _ _)
  rw [el, er, truncf_apply, mulf_apply]
  refine congrArg (fun z => (x0 (ix2 a f) * z) * x2 (ix2 f k)) ?_
  refine broadcastTo_apply x1 broadcasts_S1024x1_S1024x1433 (ix2 a f) (ix2 a (0 : Fin 1)) fun ax => ?_
  match ax with
  | ⟨0, _⟩ => show a.val = if (1024 : Nat) = 1 then 0 else a.val; rw [if_neg (by decide)]
  | ⟨1, _⟩ => show 0 = if (1 : Nat) = 1 then 0 else f.val; rw [if_pos rfl]

/-! ## From the twelve blocks to the array -/

/-- The projected features as ONE array over the 12288 × 32 index set, from the three arrays the region reads. -/
def projArr (xs : S12288x1433.Idx → EReal) (ds : S12288x1.Idx → EReal) (ws : S1433x32.Idx → EReal)
    (idx : S12288x32.Idx) : EReal :=
  Cert.Spec.proj (fun j f => xs (ix2 j f)) (fun j => ds (ix2 j (0 : Fin 1))) (fun f k => ws (ix2 f k))
    ⟨(idx 0).val, idx2_lt0 idx⟩ ⟨(idx 1).val, idx2_lt1 idx⟩

theorem zero_offsets : (![0, 0] : Fin 2 → Nat) = fun _ => 0 := funext fun a => by fin_cases a <;> rfl

/-- The block indices over the grid: at point t the feature rows, the node weights and the output rows are at row
    block t (column block 0); the weight matrix is always read whole. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows 1024·t … 1024·t + 1023 of the feature matrix. -/
theorem feature_block (c : Dev nD) (t : Fin cfg0.N) (x : S1024x1433.Idx) (i : S12288x1433.Idx)
    (h0 : (i 0).val = 1024 * t.val + (x 0).val) (h1 : (i 1).val = (x 1).val) :
    (iblk0 (F := Ideal) V c 0 t : Vec Ideal S1024x1433 .f32) x = (V c (Pipeline.arrRef spec0 0) : S12288x1433.Idx → EReal) i := by
  obtain ⟨e0, e1, -⟩ := block_index t
  unfold iblk0
  rw [View.read_apply]
  show (V c (Pipeline.arrRef spec0 0) : S12288x1433.Idx → EReal) _ = (V c (Pipeline.arrRef spec0 0) : S12288x1433.Idx → EReal) _
  congr 1
  funext a
  apply Fin.ext
  match a with
  | ⟨0, _⟩ => show win0_0.index t (0 : Fin 2) * 1024 + 1 * (x 0).val = (i 0).val; rw [e0, h0]; omega
  | ⟨1, _⟩ => show win0_0.index t (1 : Fin 2) * 1433 + 1 * (x 1).val = (i 1).val; rw [e1, h1]; omega

/-- The node-weight block at point t is rows 1024·t … 1024·t + 1023 of the column of node weights. -/
theorem weight_block (c : Dev nD) (t : Fin cfg0.N) (x : S1024x1.Idx) (i : S12288x1.Idx)
    (h0 : (i 0).val = 1024 * t.val + (x 0).val) (h1 : (i 1).val = (x 1).val) :
    (iblk0 (F := Ideal) V c 1 t : Vec Ideal S1024x1 .f32) x = (V c (Pipeline.arrRef spec0 1) : S12288x1.Idx → EReal) i := by
  obtain ⟨-, -, e0, e1, -⟩ := block_index t
  unfold iblk0
  rw [View.read_apply]
  show (V c (Pipeline.arrRef spec0 1) : S12288x1.Idx → EReal) _ = (V c (Pipeline.arrRef spec0 1) : S12288x1.Idx → EReal) _
  congr 1
  funext a
  apply Fin.ext
  match a with
  | ⟨0, _⟩ => show win0_1.index t (0 : Fin 2) * 1024 + 1 * (x 0).val = (i 0).val; rw [e0, h0]; omega
  | ⟨1, _⟩ => show win0_1.index t (1 : Fin 2) * 1 + 1 * (x 1).val = (i 1).val; rw [e1, h1]; omega

/-- The matrix block at every point is the whole weight matrix. -/
theorem matrix_block (c : Dev nD) (t : Fin cfg0.N) (x : S1433x32.Idx) :
    (iblk0 (F := Ideal) V c 2 t : Vec Ideal S1433x32 .bf16) x = (V c (Pipeline.arrRef spec0 2) : S1433x32.Idx → EReal) x := by
  obtain ⟨-, -, -, -, e0, e1, -⟩ := block_index t
  unfold iblk0
  rw [View.read_apply]
  show (V c (Pipeline.arrRef spec0 2) : S1433x32.Idx → EReal) _ = (V c (Pipeline.arrRef spec0 2) : S1433x32.Idx → EReal) _
  congr 1
  funext a
  apply Fin.ext
  match a with
  | ⟨0, _⟩ => show win0_2.index t (0 : Fin 2) * 1433 + 1 * (x 0).val = (x 0).val; rw [e0]; omega
  | ⟨1, _⟩ => show win0_2.index t (1 : Fin 2) * 32 + 1 * (x 1).val = (x 1).val; rw [e1]; omega

/-- One block's product is the block of the projected features, whenever the three operands are the blocks of the
    arrays at row block t. -/
theorem product_is_proj (xs : S12288x1433.Idx → EReal) (ds : S12288x1.Idx → EReal) (ws : S1433x32.Idx → EReal)
    (x0 : Vec Ideal S1024x1433 .f32) (x1 : Vec Ideal S1024x1 .f32) (x2 : Vec Ideal S1433x32 .bf16)
    (t : Nat) (a : Fin 1024) (k : Fin 32) (hj : 1024 * t + a.val < 12288)
    (h0 : ∀ f : Fin 1433, (x0 : S1024x1433.Idx → EReal) (ix2 a f) = xs (ix2 (⟨1024 * t + a.val, hj⟩ : Fin 12288) f))
    (h1 : (x1 : S1024x1.Idx → EReal) (ix2 a (0 : Fin 1)) = ds (ix2 (⟨1024 * t + a.val, hj⟩ : Fin 12288) (0 : Fin 1)))
    (h2 : ∀ f : Fin 1433, (x2 : S1433x32.Idx → EReal) (ix2 f k) = ws (ix2 f k)) :
    (k0_pay1 x0 x1 x2 : S1024x32.Idx → EReal) (ix2 a k) = projArr xs ds ws (ix2 (⟨1024 * t + a.val, hj⟩ : Fin 12288) k) := by
  rw [block_product]
  show _ = ∑ f : Fin 1433, (xs (ix2 (⟨1024 * t + a.val, hj⟩ : Fin 12288) f) * ds (ix2 (⟨1024 * t + a.val, hj⟩ : Fin 12288) (0 : Fin 1))) * ws (ix2 f k)
  refine Finset.sum_congr rfl fun f _ => ?_
  rw [h0 f, h1, h2 f]

/-- The product of the three blocks at point t, at an entry y of the block, is the projected features at the entry
    of the array that sits 1024·t rows further down. -/
theorem written_entry (c : Dev nD) (t : Fin cfg0.N) (y : S1024x32.Idx) (i : S12288x32.Idx)
    (h0 : (i 0).val = 1024 * t.val + (y 0).val) (h1 : (i 1).val = (y 1).val) :
    (k0_pay1 (iblk0 (F := Ideal) V c 0 t) (iblk0 (F := Ideal) V c 1 t) (iblk0 (F := Ideal) V c 2 t) : S1024x32.Idx → EReal) y
      = projArr (V c (Pipeline.arrRef spec0 0)) (V c (Pipeline.arrRef spec0 1)) (V c (Pipeline.arrRef spec0 2)) i := by
  obtain ⟨a, k, rfl⟩ : ∃ (a : Fin 1024) (k : Fin 32), y = ix2 a k := ⟨y 0, y 1, eq_ix2 y⟩
  obtain ⟨j, k', rfl⟩ : ∃ (j : Fin 12288) (k' : Fin 32), i = ix2 j k' := ⟨i 0, i 1, eq_ix2 i⟩
  have hN : t.val < 12 := lt_of_lt_of_eq t.isLt N_0
  have ha : a.val < 1024 := a.isLt
  have hj : 1024 * t.val + a.val < 12288 := by omega
  obtain rfl : j = ⟨1024 * t.val + a.val, hj⟩ := Fin.ext h0
  obtain rfl : k = k' := (Fin.ext h1).symm
  refine product_is_proj _ _ _ _ _ _ t.val a _ hj (fun f => ?_) ?_ (fun f => ?_)
  · exact feature_block V c t _ _ rfl rfl
  · exact weight_block V c t _ _ rfl rfl
  · exact matrix_block V c t _

/-- WHAT POINT t WRITES BACK is block t of the projected features of the arrays as the region finds them. -/
theorem written_block (c : Dev nD) (t : Fin cfg0.N) :
    (dat0 (F := Ideal) V c).flushed 3 t
      = ((cfg0.win 3).blk t).view.read (Elt Ideal)
          (projArr (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zero_offsets]
  simp only [View.ld_unit_zero (S := S1024x1433) zero_offsets, View.ld_unit_zero (S := S1024x1) zero_offsets,
    View.ld_unit_zero (S := S1433x32) zero_offsets]
  obtain ⟨-, -, -, -, -, -, e0, e1⟩ := block_index t
  funext y
  rw [View.read_apply]
  show (k0_pay1 (iblk0 (F := Ideal) V c 0 t) (iblk0 (F := Ideal) V c 1 t) (iblk0 (F := Ideal) V c 2 t) : S1024x32.Idx → EReal) ((cfg0.win 3).xinj (grid0.coords t) y)
      = projArr (V c (Pipeline.arrRef spec0 0)) (V c (Pipeline.arrRef spec0 1)) (V c (Pipeline.arrRef spec0 2)) (((cfg0.win 3).blk t).view.emb y)
  refine written_entry V c t _ _ ?_ ?_
  · show win0_3.index t (0 : Fin 2) * 1024 + 1 * (y 0).val = 1024 * t.val + (y 0).val; rw [e0]; omega
  · show win0_3.index t (1 : Fin 2) * 32 + 1 * (y 1).val = (y 1).val; rw [e1]; omega

/-- An entry of the output array is in point t's block iff each coordinate is in the block's range on its axis. -/
theorem mem_block (t : Fin cfg0.N) (i : S12288x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v23).slice (win0_3.rect t)).set ↔ _
  rw [View.set_slice_whole, Rect.mem_set_unit]
  exact Iff.rfl

/-- The twelve row blocks cover the array: row r lies in block r / 1024. -/
theorem covered (i : S12288x32.Idx) :
    ∃ t : Fin cfg0.N, (cfg0.win 3).flush t = true ∧ i ∈ ((cfg0.win 3).blk t).view.set := by
  have hi0 : (i 0).val < 12288 := (i 0).isLt
  have hi1 : (i 1).val < 32 := (i 1).isLt
  obtain ⟨t, ht⟩ : ∃ t : Fin cfg0.N, t.val = (i 0).val / 1024 :=
    ⟨⟨(i 0).val / 1024, lt_of_lt_of_eq (by omega : (i 0).val / 1024 < 12) N_0.symm⟩, rfl⟩
  obtain ⟨-, -, -, -, -, -, e0, e1⟩ := block_index t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [e0]; omega
  | ⟨1, _⟩ => show win0_3.index t (1 : Fin 2) * 32 ≤ (i 1).val ∧ (i 1).val < win0_3.index t (1 : Fin 2) * 32 + 32; rw [e1]; omega

/-- The region's output array after all twelve grid points, read at node j and column k. Window 0 is the feature
    matrix, window 1 the column of node weights, window 2 the (narrowed) weight matrix, window 3 the output. -/
theorem proj_value (c : Dev nD) (j : Fin 12288) (k : Fin 32) :
    ((dat0 (F := Ideal) V c).arrAt 3 cfg0.N : S12288x32.Idx → EReal) (ix2 j k)
      = Cert.Spec.proj
          (fun j f => (V c (Pipeline.arrRef spec0 0) : S12288x1433.Idx → EReal) (ix2 j f))
          (fun j => (V c (Pipeline.arrRef spec0 1) : S12288x1.Idx → EReal) (ix2 j (0 : Fin 1)))
          (fun f k => (V c (Pipeline.arrRef spec0 2) : S1433x32.Idx → EReal) (ix2 f k)) j k := by
  have h := (dat0 (F := Ideal) V c).arrAt_eq_of_cover 3
    (projArr (V c (Pipeline.arrRef spec0 0)) (V c (Pipeline.arrRef spec0 1)) (V c (Pipeline.arrRef spec0 2)))
    (fun t _ => written_block V c t) covered
  exact congrFun h (ix2 j k)

end Cert.KernelIdeal.KProj

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KHeadPay.lean ====
/-
  The head's arithmetic at one row of one block. Each of the three values the block's body computes — the logits, the
  row maximum spread over the row, and the exponentials divided by their row sum — is read at a row a and a class cc
  as the specification's function of row a of the two 2048×32 operands and of the six weight arrays: the three
  contractions as sums over their one contracted axis, the two lane reductions as a sum and as a fold of max over the
  row, the bias rows and the keepdims columns as plain reads.
-/
import proofs.«423551_j3075196584646_2_alg».proof.Proof.Gen.KernelIdeal.Skeleton
import proofs.«423551_j3075196584646_2_alg».proof.Proof.Spec
import proofs.«423551_j3075196584646_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KHead

open Cert.KernelIdeal Cert.KernelIdeal.Gen Idealize.ShloMosaic Idealize.SL.Sem
open Idealize.ShloMosaic.ValueIdx Idealize.ShloMosaic.Keepdims
open scoped BigOperators

/-! ## The two contraction patterns read at an index -/

theorem lhsA_0 (i : S2048x16.Idx) (q : dot_S2048x32_S32x16_S2048x16_1_0_0_1_n_n.contr.Idx) :
    (dot_S2048x32_S32x16_S2048x16_1_0_0_1_n_n.lhsIdx i q 0).val = (i 0).val := by
  unfold DotDims.lhsIdx
  rw [dif_neg (show ¬(0 : Fin S2048x32.rank) ∈ dot_S2048x32_S32x16_S2048x16_1_0_0_1_n_n.lhsBatch by decide), dif_pos (show (0 : Fin S2048x32.rank) ∈ dot_S2048x32_S32x16_S2048x16_1_0_0_1_n_n.lhsNonContracting by decide)]
  rfl
theorem lhsA_1 (i : S2048x16.Idx) (q : dot_S2048x32_S32x16_S2048x16_1_0_0_1_n_n.contr.Idx) :
    (dot_S2048x32_S32x16_S2048x16_1_0_0_1_n_n.lhsIdx i q 1).val = (q ⟨0, by decide⟩).val :=
  dot_S2048x32_S32x16_S2048x16_1_0_0_1_n_n.lhsIdx_val_of_single rfl i q
theorem rhsA_0 (i : S2048x16.Idx) (q : dot_S2048x32_S32x16_S2048x16_1_0_0_1_n_n.contr.Idx) :
    (dot_S2048x32_S32x16_S2048x16_1_0_0_1_n_n.rhsIdx i q 0).val = (q ⟨0, by decide⟩).val :=
  dot_S2048x32_S32x16_S2048x16_1_0_0_1_n_n.rhsIdx_val_of_single rfl i q
theorem rhsA_1 (i : S2048x16.Idx) (q : dot_S2048x32_S32x16_S2048x16_1_0_0_1_n_n.contr.Idx) :
    (dot_S2048x32_S32x16_S2048x16_1_0_0_1_n_n.rhsIdx i q 1).val = (i 1).val := by
  unfold DotDims.rhsIdx
  rw [dif_neg (show ¬(1 : Fin S32x16.rank) ∈ dot_S2048x32_S32x16_S2048x16_1_0_0_1_n_n.rhsBatch by decide), dif_pos (show (1 : Fin S32x16.rank) ∈ dot_S2048x32_S32x16_S2048x16_1_0_0_1_n_n.rhsNonContracting by decide)]
  rfl

/-- A 2048×32 by 32×16 product into the zero splat, at row a and column q: the sum over the 32 contracted coordinates. -/
theorem matmulA_apply (x : FVec Ideal S2048x32 .f32) (w : FVec Ideal S32x16 .f32) (a : Fin 2048) (q : Fin 16) :
    matmul dot_S2048x32_S32x16_S2048x16_1_0_0_1_n_n none x w (constant (F := Ideal) S2048x16 .f32 0x00000000#32) (ix2 a q)
      = ∑ k : Fin 32, x (ix2 a k) * w (ix2 k q) := by
  show FloatOps.matmul dot_S2048x32_S32x16_S2048x16_1_0_0_1_n_n none x w (constant (F := Ideal) S2048x16 .f32 0x00000000#32) (ix2 a q) = _
  rw [Ideal.matmul_constant_zero_apply, ← Equiv.sum_comp (ValueIdx.contrEquiv1 dot_S2048x32_S32x16_S2048x16_1_0_0_1_n_n 32 rfl rfl).symm]
  refine Finset.sum_congr rfl fun k _ => ?_
  have hk := ValueIdx.contrEquiv1_symm_val dot_S2048x32_S32x16_S2048x16_1_0_0_1_n_n 32 rfl rfl k
  have el : dot_S2048x32_S32x16_S2048x16_1_0_0_1_n_n.lhsIdx (ix2 a q) ((ValueIdx.contrEquiv1 dot_S2048x32_S32x16_S2048x16_1_0_0_1_n_n 32 rfl rfl).symm k) = ix2 a k := funext fun ax => Fin.ext (by
    match ax with
    | ⟨0, _⟩ => exact lhsA_0 _ _
    | ⟨1, _⟩ => exact (lhsA_1 _ _).trans hk)
  have er : dot_S2048x32_S32x16_S2048x16_1_0_0_1_n_n.rhsIdx (ix2 a q) ((ValueIdx.contrEquiv1 dot_S2048x32_S32x16_S2048x16_1_0_0_1_n_n 32 rfl rfl).symm k) = ix2 k q := funext fun ax => Fin.ext (by
    match ax with
    | ⟨0, _⟩ => exact (rhsA_0 _ _).trans hk
    | ⟨1, _⟩ => exact rhsA_1 _ _)
  rw [el, er]

theorem lhsB_0 (i : S2048x7.Idx) (q : dot_S2048x16_S16x7_S2048x7_1_0_0_1_n_n.contr.Idx) :
    (dot_S2048x16_S16x7_S2048x7_1_0_0_1_n_n.lhsIdx i q 0).val = (i 0).val := by
  unfold DotDims.lhsIdx
  rw [dif_neg (show ¬(0 : Fin S2048x16.rank) ∈ dot_S2048x16_S16x7_S2048x7_1_0_0_1_n_n.lhsBatch by decide), dif_pos (show (0 : Fin S2048x16.rank) ∈ dot_S2048x16_S16x7_S2048x7_1_0_0_1_n_n.lhsNonContracting by decide)]
  rfl
theorem lhsB_1 (i : S2048x7.Idx) (q : dot_S2048x16_S16x7_S2048x7_1_0_0_1_n_n.contr.Idx) :
    (dot_S2048x16_S16x7_S2048x7_1_0_0_1_n_n.lhsIdx i q 1).val = (q ⟨0, by decide⟩).val :=
  dot_S2048x16_S16x7_S2048x7_1_0_0_1_n_n.lhsIdx_val_of_single rfl i q
theorem rhsB_0 (i : S2048x7.Idx) (q : dot_S2048x16_S16x7_S2048x7_1_0_0_1_n_n.contr.Idx) :
    (dot_S2048x16_S16x7_S2048x7_1_0_0_1_n_n.rhsIdx i q 0).val = (q ⟨0, by decide⟩).val :=
  dot_S2048x16_S16x7_S2048x7_1_0_0_1_n_n.rhsIdx_val_of_single rfl i q
theorem rhsB_1 (i : S2048x7.Idx) (q : dot_S2048x16_S16x7_S2048x7_1_0_0_1_n_n.contr.Idx) :
    (dot_S2048x16_S16x7_S2048x7_1_0_0_1_n_n.rhsIdx i q 1).val = (i 1).val := by
  unfold DotDims.rhsIdx
  rw [dif_neg (show ¬(1 : Fin S16x7.rank) ∈ dot_S2048x16_S16x7_S2048x7_1_0_0_1_n_n.rhsBatch by decide), dif_pos (show (1 : Fin S16x7.rank) ∈ dot_S2048x16_S16x7_S2048x7_1_0_0_1_n_n.rhsNonContracting by decide)]
  rfl

/-- A 2048×16 by 16×7 product into the zero splat, at row a and class cc: the sum over the 16 contracted coordinates. -/
theorem matmulB_apply (x : FVec Ideal S2048x16 .f32) (w : FVec Ideal S16x7 .f32) (a : Fin 2048) (q : Fin 7) :
    matmul dot_S2048x16_S16x7_S2048x7_1_0_0_1_n_n none x w (constant (F := Ideal) S2048x7 .f32 0x00000000#32) (ix2 a q)
      = ∑ k : Fin 16, x (ix2 a k) * w (ix2 k q) := by
  show FloatOps.matmul dot_S2048x16_S16x7_S2048x7_1_0_0_1_n_n none x w (constant (F := Ideal) S2048x7 .f32 0x00000000#32) (ix2 a q) = _
  rw [Ideal.matmul_constant_zero_apply, ← Equiv.sum_comp (ValueIdx.contrEquiv1 dot_S2048x16_S16x7_S2048x7_1_0_0_1_n_n 16 rfl rfl).symm]
  refine Finset.sum_congr rfl fun k _ => ?_
  have hk := ValueIdx.contrEquiv1_symm_val dot_S2048x16_S16x7_S2048x7_1_0_0_1_n_n 16 rfl rfl k
  have el : dot_S2048x16_S16x7_S2048x7_1_0_0_1_n_n.lhsIdx (ix2 a q) ((ValueIdx.contrEquiv1 dot_S2048x16_S16x7_S2048x7_1_0_0_1_n_n 16 rfl rfl).symm k) = ix2 a k := funext fun ax => Fin.ext (by
    match ax with
    | ⟨0, _⟩ => exact lhsB_0 _ _
    | ⟨1, _⟩ => exact (lhsB_1 _ _).trans hk)
  have er : dot_S2048x16_S16x7_S2048x7_1_0_0_1_n_n.rhsIdx (ix2 a q) ((ValueIdx.contrEquiv1 dot_S2048x16_S16x7_S2048x7_1_0_0_1_n_n 16 rfl rfl).symm k) = ix2 k q := funext fun ax => Fin.ext (by
    match ax with
    | ⟨0, _⟩ => exact (rhsB_0 _ _).trans hk
    | ⟨1, _⟩ => exact rhsB_1 _ _)
  rw [el, er]

/-- The row maximum of a 2048×7 array from -∞, at row a: the fold of max over the row's seven entries. -/
theorem rowMax_apply (src : FVec Ideal S2048x7 .f32) (h : S2048x7.Reduces [1] S2048) (hφ : FKind.Formats .f32)
    (hacc : (0xFF800000#32 : BitVec 32) = FKind.maximumf.neutral .f32 hφ) (a : Fin 2048) :
    multiReduction .maximumf [1] S2048 src 0xFF800000#32 h hφ hacc (ix1 a) = Cert.Spec.rowMax (fun cc' => src (ix2 a cc')) := by
  refine (Ideal.multiReduction_maximumf_single src _ h hφ hacc (ix1 a)).trans ?_
  unfold Cert.Spec.rowMax
  show (Finset.univ : Finset (Fin 7)).fold max (Ideal.ofBits .f32 0xFF800000#32) (src ∘ h.lift (ix1 a)) = _
  refine congrArg (Finset.fold max (Ideal.ofBits .f32 0xFF800000#32) · (Finset.univ : Finset (Fin 7))) ?_
  funext k
  refine congrArg src (funext fun ax => Fin.ext ?_)
  rw [Shape.Reduces.lift_val]
  match ax with
  | ⟨0, _⟩ => rfl
  | ⟨1, _⟩ => rfl

/-! ## The three stages of the logits, as the body spells them -/

/-- The hidden block: the two products with their bias rows added in the body's order, clamped at zero. -/
def hidV (v0 v8 : FVec Ideal S2048x32 .f32) (v2 v10 : FVec Ideal S32x16 .f32) (v4 v13 : FVec Ideal S1x16 .f32) : FVec Ideal S2048x16 .f32 :=
  maximumf
    (addf
      (addf
        (addf (matmul dot_S2048x32_S32x16_S2048x16_1_0_0_1_n_n none (shapeCast S2048x32 v0 Gen.shapeCasts_S2048x32_S2048x32) v2 (constant S2048x16 .f32 0x00000000#32))
          (broadcastTo S2048x16 (shapeCast S1x16 v4 Gen.shapeCasts_S1x16_S1x16) Gen.broadcasts_S1x16_S2048x16))
        (matmul dot_S2048x32_S32x16_S2048x16_1_0_0_1_n_n none (shapeCast S2048x32 v8 Gen.shapeCasts_S2048x32_S2048x32) v10 (constant S2048x16 .f32 0x00000000#32)))
      (broadcastTo S2048x16 (shapeCast S1x16 v13 Gen.shapeCasts_S1x16_S1x16) Gen.broadcasts_S1x16_S2048x16))
    (broadcast S2048x16 (Scalar.ofBits .f32 0x00000000#32))

/-- A block divided, row by row, by the square root of the row's sum of squares plus the small constant. -/
def nrmV (u : FVec Ideal S2048x16 .f32) : FVec Ideal S2048x16 .f32 :=
  divf u
    (broadcastTo S2048x16
      (addf
        (sqrt (shapeCast S2048x1 (multiReduction .add [1] S2048 (mulf u u) 0x00000000#32 Gen.reduces_S2048x16_S2048 (.inl rfl) rfl)
          Gen.shapeCasts_S2048_S2048x1))
        (broadcast S2048x1 (Scalar.ofBits .f32 0x358637BD#32)))
      Gen.broadcasts_S2048x1_S2048x16)

/-- The last product with its bias row. -/
def logitV (v : FVec Ideal S2048x16 .f32) (v27 : FVec Ideal S16x7 .f32) (v29 : FVec Ideal S1x7 .f32) : FVec Ideal S2048x7 .f32 :=
  addf (matmul dot_S2048x16_S16x7_S2048x7_1_0_0_1_n_n none v v27 (constant S2048x7 .f32 0x00000000#32))
    (broadcastTo S2048x7 (shapeCast S1x7 v29 Gen.shapeCasts_S1x7_S1x7) Gen.broadcasts_S1x7_S2048x7)

/-- The body's logits are the three stages composed. -/
theorem pay2_eq (v0 : Vec Ideal S2048x32 .f32) (v2 : Vec Ideal S32x16 .f32) (v4 : Vec Ideal S1x16 .f32) (v8 : Vec Ideal S2048x32 .f32)
    (v10 : Vec Ideal S32x16 .f32) (v13 : Vec Ideal S1x16 .f32) (v27 : Vec Ideal S16x7 .f32) (v29 : Vec Ideal S1x7 .f32) :
    k1_pay2 v0 v2 v4 v8 v10 v13 v27 v29 = logitV (nrmV (hidV v0 v8 v2 v10 v4 v13)) v27 v29 := rfl

/-- The hidden block at row a and column q. -/
theorem hidV_apply (v0 v8 : FVec Ideal S2048x32 .f32) (v2 v10 : FVec Ideal S32x16 .f32) (v4 v13 : FVec Ideal S1x16 .f32)
    (a : Fin 2048) (q : Fin 16) :
    hidV v0 v8 v2 v10 v4 v13 (ix2 a q)
      = Cert.Spec.hid (fun k => v0 (ix2 a k)) (fun k => v8 (ix2 a k)) (fun k q => v2 (ix2 k q)) (fun k q => v10 (ix2 k q))
          (fun q => v4 (ix2 (0 : Fin 1) q)) (fun q => v13 (ix2 (0 : Fin 1) q)) q := by
  unfold hidV Cert.Spec.hid
  rw [shapeCast_self v0, shapeCast_self v8, shapeCast_self v4, shapeCast_self v13]
  rw [maximumf_apply, addf_apply, addf_apply, addf_apply, matmulA_apply, matmulA_apply, broadcastTo_1b_ab_apply,
    broadcastTo_1b_ab_apply]
  rfl

/-- The normalised block at row a and column q. -/
theorem nrmV_apply (u : FVec Ideal S2048x16 .f32) (a : Fin 2048) (q : Fin 16) :
    nrmV u (ix2 a q) = Cert.Spec.nrm (fun q' => u (ix2 a q')) q := by
  unfold nrmV Cert.Spec.nrm
  rw [divf_apply]
  refine congrArg (Ideal.div (u (ix2 a q))) ?_
  refine (broadcastTo_a1_ab_apply _ _ a q).trans ?_
  rw [addf_apply]
  refine congrArg (· + Cert.Spec.epsW) ?_
  show Ideal.sqrt (shapeCast S2048x1 _ _ (ix2 a (0 : Fin 1))) = _
  refine congrArg Ideal.sqrt ?_
  refine (shapeCast_a_a1_apply _ _ a 0).trans ?_
  exact laneSum_apply _ _ _ _ _ a

/-- The logits of a block at row a and class cc. -/
theorem logitV_apply (v : FVec Ideal S2048x16 .f32) (v27 : FVec Ideal S16x7 .f32) (v29 : FVec Ideal S1x7 .f32) (a : Fin 2048) (cc : Fin 7) :
    logitV v v27 v29 (ix2 a cc)
      = Cert.Spec.logit (fun q => v (ix2 a q)) (fun q cc => v27 (ix2 q cc)) (fun cc => v29 (ix2 (0 : Fin 1) cc)) cc := by
  unfold logitV Cert.Spec.logit
  rw [shapeCast_self v29, addf_apply, matmulB_apply, broadcastTo_1b_ab_apply]

/-! ## The three payloads at an index -/

/-- The logits at row a and class cc are the specification's, of row a of the two operands and the weights. -/
theorem pay2_apply (v0 : Vec Ideal S2048x32 .f32) (v2 : Vec Ideal S32x16 .f32) (v4 : Vec Ideal S1x16 .f32) (v8 : Vec Ideal S2048x32 .f32)
    (v10 : Vec Ideal S32x16 .f32) (v13 : Vec Ideal S1x16 .f32) (v27 : Vec Ideal S16x7 .f32) (v29 : Vec Ideal S1x7 .f32)
    (a : Fin 2048) (cc : Fin 7) :
    k1_pay2 v0 v2 v4 v8 v10 v13 v27 v29 (ix2 a cc)
      = Cert.Spec.logit
          (Cert.Spec.nrm (Cert.Spec.hid (fun k => v0 (ix2 a k)) (fun k => v8 (ix2 a k)) (fun k q => v2 (ix2 k q))
            (fun k q => v10 (ix2 k q)) (fun q => v4 (ix2 (0 : Fin 1) q)) (fun q => v13 (ix2 (0 : Fin 1) q))))
          (fun q cc => v27 (ix2 q cc)) (fun cc => v29 (ix2 (0 : Fin 1) cc)) cc := by
  rw [pay2_eq, logitV_apply]
  refine congrArg (fun f => Cert.Spec.logit f _ _ cc) (funext fun q => ?_)
  rw [nrmV_apply]
  refine congrArg (fun f => Cert.Spec.nrm f q) (funext fun q' => ?_)
  exact hidV_apply v0 v8 v2 v10 v4 v13 a q'

/-- The spread row maximum at row a, any class: the fold of max over row a of the logits. -/
theorem pay3_apply (v0 : Vec Ideal S2048x32 .f32) (v2 : Vec Ideal S32x16 .f32) (v4 : Vec Ideal S1x16 .f32) (v8 : Vec Ideal S2048x32 .f32)
    (v10 : Vec Ideal S32x16 .f32) (v13 : Vec Ideal S1x16 .f32) (v27 : Vec Ideal S16x7 .f32) (v29 : Vec Ideal S1x7 .f32)
    (a : Fin 2048) (cc : Fin 7) :
    k1_pay3 v0 v2 v4 v8 v10 v13 v27 v29 (ix2 a cc)
      = Cert.Spec.rowMax (fun cc' => k1_pay2 v0 v2 v4 v8 v10 v13 v27 v29 (ix2 a cc')) := by
  unfold k1_pay3
  show broadcastTo S2048x7 (shapeCast S2048x1 (multiReduction .maximumf [1] S2048 (k1_pay2 v0 v2 v4 v8 v10 v13 v27 v29)
    0xFF800000#32 _ _ _) _) _ (ix2 a cc) = _
  refine (broadcastTo_a1_ab_apply _ _ a cc).trans ?_
  refine (shapeCast_a_a1_apply _ _ a 0).trans ?_
  exact rowMax_apply _ _ _ _ a

/-- The exponentials of the shifted logits over their row sum, at row a and class cc. -/
theorem pay1_apply (v32 v35 : FVec Ideal S2048x7 .f32) (a : Fin 2048) (cc : Fin 7) :
    k1_pay1 v32 v35 (ix2 a cc)
      = Ideal.div (Ideal.exp (v32 (ix2 a cc) - v35 (ix2 a cc)))
          (∑ cc' : Fin 7, Ideal.exp (v32 (ix2 a cc') - v35 (ix2 a cc'))) := by
  unfold k1_pay1
  show Ideal.div (Ideal.exp (v32 (ix2 a cc) - v35 (ix2 a cc)))
    (broadcastTo S2048x7 (shapeCast S2048x1 (multiReduction .add [1] S2048 (exp (subf v32 v35)) 0x00000000#32 _ _ _) _) _ (ix2 a cc)) = _
  refine congrArg (Ideal.div _) ?_
  refine (broadcastTo_a1_ab_apply _ _ a cc).trans ?_
  refine (shapeCast_a_a1_apply _ _ a 0).trans ?_
  exact laneSum_apply _ _ _ _ _ a

/-- What one block's body stores, at row a and class cc: the head of the specification applied to row a of the two
    2048×32 blocks and the weights. -/
theorem block_apply (x0 x1 : Vec Ideal S2048x32 .f32) (x2 : Vec Ideal S32x16 .f32) (x3 : Vec Ideal S1x16 .f32) (x4 : Vec Ideal S32x16 .f32)
    (x5 : Vec Ideal S1x16 .f32) (x6 : Vec Ideal S16x7 .f32) (x7 : Vec Ideal S1x7 .f32) (a : Fin 2048) (cc : Fin 7) :
    k1_pay1 (k1_pay2 x0 x2 x3 x1 x4 x5 x6 x7) (k1_pay3 x0 x2 x3 x1 x4 x5 x6 x7) (ix2 a cc)
      = Cert.Spec.headRow (fun k => x0 (ix2 a k)) (fun k => x1 (ix2 a k)) (fun k q => x2 (ix2 k q)) (fun q => x3 (ix2 (0 : Fin 1) q))
          (fun k q => x4 (ix2 k q)) (fun q => x5 (ix2 (0 : Fin 1) q)) (fun q cc => x6 (ix2 q cc)) (fun cc => x7 (ix2 (0 : Fin 1) cc)) cc := by
  rw [pay1_apply]
  unfold Cert.Spec.headRow Cert.Spec.smax
  have hl : ∀ cc' : Fin 7, k1_pay2 x0 x2 x3 x1 x4 x5 x6 x7 (ix2 a cc') = _ := fun cc' => pay2_apply x0 x2 x3 x1 x4 x5 x6 x7 a cc'
  have hm : ∀ cc' : Fin 7, k1_pay3 x0 x2 x3 x1 x4 x5 x6 x7 (ix2 a cc') = Cert.Spec.rowMax _ := fun cc' =>
    (pay3_apply x0 x2 x3 x1 x4 x5 x6 x7 a cc').trans (congrArg Cert.Spec.rowMax (funext hl))
  simp only [hl, hm]

end Cert.KernelIdeal.KHead

end
-- ==== Proof.KHead.lean ====
/-
  What the second kernel region leaves in its output array: the row blocks of 2048 nodes tile the 12288 rows, and
  each output row is the head of the specification applied to that node's row of h (window 0), its row of the
  neighbourhood mean (window 1) and the weights (windows 2 to 7, the three bias rows as 1×n arrays): two 32→16
  affine maps added and clamped at zero, the division by the Euclidean norm plus a small constant, the 16→7 affine
  map, and the softmax shifted by the row maximum. Stated at any contents `V` the region may be entered from.
-/
import proofs.«423551_j3075196584646_2_alg».proof.Proof.Gen.KernelIdeal.Frame
import proofs.«423551_j3075196584646_2_alg».proof.Proof.Spec
import proofs.«423551_j3075196584646_2_alg».proof.Proof.KHeadPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KHead

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The whole-array function -/

/-- The head applied to every node: at node i and class cc, the specification's row function of row i of the two
    12288×32 arrays and of the six weight arrays. -/
def headArr (A0 A1 : S12288x32.Idx → EReal) (A2 : S32x16.Idx → EReal) (A3 : S1x16.Idx → EReal) (A4 : S32x16.Idx → EReal)
    (A5 : S1x16.Idx → EReal) (A6 : S16x7.Idx → EReal) (A7 : S1x7.Idx → EReal) (idx : S12288x7.Idx) : EReal :=
  Cert.Spec.headRow
    (fun k => A0 (ix2 (⟨(idx 0).val, idx2_lt0 idx⟩ : Fin 12288) k))
    (fun k => A1 (ix2 (⟨(idx 0).val, idx2_lt0 idx⟩ : Fin 12288) k))
    (fun k q => A2 (ix2 k q)) (fun q => A3 (ix2 (0 : Fin 1) q))
    (fun k q => A4 (ix2 k q)) (fun q => A5 (ix2 (0 : Fin 1) q))
    (fun q cc => A6 (ix2 q cc)) (fun cc => A7 (ix2 (0 : Fin 1) cc))
    (⟨(idx 1).val, idx2_lt1 idx⟩ : Fin 7)

/-- Equal arguments give equal rows (the eight operands and the class, one equation each). -/
theorem headRow_congr {h h' agg agg' : Fin 32 → EReal} {Wl Wl' Wr Wr' : Fin 32 → Fin 16 → EReal} {bl bl' br br' : Fin 16 → EReal}
    {W3 W3' : Fin 16 → Fin 7 → EReal} {b3 b3' : Fin 7 → EReal} {cc cc' : Fin 7}
    (e0 : h = h') (e1 : agg = agg') (e2 : Wl = Wl') (e3 : bl = bl') (e4 : Wr = Wr') (e5 : br = br') (e6 : W3 = W3') (e7 : b3 = b3')
    (ec : cc = cc') :
    Cert.Spec.headRow h agg Wl bl Wr br W3 b3 cc = Cert.Spec.headRow h' agg' Wl' bl' Wr' br' W3' b3' cc' := by
  subst e0 e1 e2 e3 e4 e5 e6 e7 ec; rfl

/-! ## The index maps, decided once over the six grid points -/

theorem hz : (![0, 0] : Fin 2 → Nat) = fun _ => 0 := funext fun a => by fin_cases a <;> rfl

/-- The two row-blocked inputs and the output sit at block (t, 0); the six weight windows at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-! ## Each input block read where it sits in its array -/

/-- Window 0's block at point t holds rows 2048·t … of its array. -/
theorem iblk0_apply (c : Dev nD) (t : Fin cfg1.N) (y : S2048x32.Idx) (k : S12288x32.Idx)
    (hk0 : (k 0).val = t.val * 2048 + (y 0).val) (hk1 : (k 1).val = (y 1).val) :
    (iblk1 (F := Ideal) V c 0 t : Vec Ideal S2048x32 .f32) y = (V c (Pipeline.arrRef spec1 0) : S12288x32.Idx → EReal) k := by
  obtain ⟨⟨e0, e1⟩, -⟩ := idx_facts t
  unfold iblk1
  rw [View.read_apply]
  show (V c (Pipeline.arrRef spec1 0) : S12288x32.Idx → EReal) _ = (V c (Pipeline.arrRef spec1 0) : S12288x32.Idx → EReal) _
  congr 1
  funext a
  apply Fin.ext
  match a with
  | ⟨0, _⟩ => show win1_0.index t (0 : Fin 2) * 2048 + 1 * (y 0).val = (k 0).val; rw [e0, hk0]; omega
  | ⟨1, _⟩ => show win1_0.index t (1 : Fin 2) * 32 + 1 * (y 1).val = (k 1).val; rw [e1, hk1]; omega

/-- Window 1's block at point t holds rows 2048·t … of its array. -/
theorem iblk1_apply (c : Dev nD) (t : Fin cfg1.N) (y : S2048x32.Idx) (k : S12288x32.Idx)
    (hk0 : (k 0).val = t.val * 2048 + (y 0).val) (hk1 : (k 1).val = (y 1).val) :
    (iblk1 (F := Ideal) V c 1 t : Vec Ideal S2048x32 .f32) y = (V c (Pipeline.arrRef spec1 1) : S12288x32.Idx → EReal) k := by
  obtain ⟨-, ⟨e0, e1⟩, -⟩ := idx_facts t
  unfold iblk1
  rw [View.read_apply]
  show (V c (Pipeline.arrRef spec1 1) : S12288x32.Idx → EReal) _ = (V c (Pipeline.arrRef spec1 1) : S12288x32.Idx → EReal) _
  congr 1
  funext a
  apply Fin.ext
  match a with
  | ⟨0, _⟩ => show win1_1.index t (0 : Fin 2) * 2048 + 1 * (y 0).val = (k 0).val; rw [e0, hk0]; omega
  | ⟨1, _⟩ => show win1_1.index t (1 : Fin 2) * 32 + 1 * (y 1).val = (k 1).val; rw [e1, hk1]; omega

/-- Window 2's block is its whole 32×16 array. -/
theorem iblk2_apply (c : Dev nD) (t : Fin cfg1.N) (y : S32x16.Idx) :
    (iblk1 (F := Ideal) V c 2 t : Vec Ideal S32x16 .f32) y = (V c (Pipeline.arrRef spec1 2) : S32x16.Idx → EReal) y := by
  obtain ⟨-, -, ⟨e0, e1⟩, -⟩ := idx_facts t
  unfold iblk1
  rw [View.read_apply]
  show (V c (Pipeline.arrRef spec1 2) : S32x16.Idx → EReal) _ = (V c (Pipeline.arrRef spec1 2) : S32x16.Idx → EReal) _
  congr 1
  funext a
  apply Fin.ext
  match a with
  | ⟨0, _⟩ => show win1_2.index t (0 : Fin 2) * 32 + 1 * (y 0).val = (y 0).val; rw [e0]; omega
  | ⟨1, _⟩ => show win1_2.index t (1 : Fin 2) * 16 + 1 * (y 1).val = (y 1).val; rw [e1]; omega

/-- Window 3's block is its whole 1×16 array. -/
theorem iblk3_apply (c : Dev nD) (t : Fin cfg1.N) (y : S1x16.Idx) :
    (iblk1 (F := Ideal) V c 3 t : Vec Ideal S1x16 .f32) y = (V c (Pipeline.arrRef spec1 3) : S1x16.Idx → EReal) y := by
  obtain ⟨-, -, -, ⟨e0, e1⟩, -⟩ := idx_facts t
  unfold iblk1
  rw [View.read_apply]
  show (V c (Pipeline.arrRef spec1 3) : S1x16.Idx → EReal) _ = (V c (Pipeline.arrRef spec1 3) : S1x16.Idx → EReal) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 16 + 1 * (y 1).val = (y 1).val; rw [e1]; omega

/-- Window 4's block is its whole 32×16 array. -/
theorem iblk4_apply (c : Dev nD) (t : Fin cfg1.N) (y : S32x16.Idx) :
    (iblk1 (F := Ideal) V c 4 t : Vec Ideal S32x16 .f32) y = (V c (Pipeline.arrRef spec1 4) : S32x16.Idx → EReal) y := by
  obtain ⟨-, -, -, -, ⟨e0, e1⟩, -⟩ := idx_facts t
  unfold iblk1
  rw [View.read_apply]
  show (V c (Pipeline.arrRef spec1 4) : S32x16.Idx → EReal) _ = (V c (Pipeline.arrRef spec1 4) : S32x16.Idx → EReal) _
  congr 1
  funext a
  apply Fin.ext
  match a with
  | ⟨0, _⟩ => show win1_4.index t (0 : Fin 2) * 32 + 1 * (y 0).val = (y 0).val; rw [e0]; omega
  | ⟨1, _⟩ => show win1_4.index t (1 : Fin 2) * 16 + 1 * (y 1).val = (y 1).val; rw [e1]; omega

/-- Window 5's block is its whole 1×16 array. -/
theorem iblk5_apply (c : Dev nD) (t : Fin cfg1.N) (y : S1x16.Idx) :
    (iblk1 (F := Ideal) V c 5 t : Vec Ideal S1x16 .f32) y = (V c (Pipeline.arrRef spec1 5) : S1x16.Idx → EReal) y := by
  obtain ⟨-, -, -, -, -, ⟨e0, e1⟩, -⟩ := idx_facts t
  unfold iblk1
  rw [View.read_apply]
  show (V c (Pipeline.arrRef spec1 5) : S1x16.Idx → EReal) _ = (V c (Pipeline.arrRef spec1 5) : S1x16.Idx → EReal) _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 16 + 1 * (y 1).val = (y 1).val; rw [e1]; omega

/-- Window 6's block is its whole 16×7 array. -/
theorem iblk6_apply (c : Dev nD) (t : Fin cfg1.N) (y : S16x7.Idx) :
    (iblk1 (F := Ideal) V c 6 t : Vec Ideal S16x7 .f32) y = (V c (Pipeline.arrRef spec1 6) : S16x7.Idx → EReal) y := by
  obtain ⟨-, -, -, -, -, -, ⟨e0, e1⟩, -⟩ := idx_facts t
  unfold iblk1
  rw [View.read_apply]
  show (V c (Pipeline.arrRef spec1 6) : S16x7.Idx → EReal) _ = (V c (Pipeline.arrRef spec1 6) : S16x7.Idx → EReal) _
  congr 1
  funext a
  apply Fin.ext
  match a with
  | ⟨0, _⟩ => show win1_6.index t (0 : Fin 2) * 16 + 1 * (y 0).val = (y 0).val; rw [e0]; omega
  | ⟨1, _⟩ => show win1_6.index t (1 : Fin 2) * 7 + 1 * (y 1).val = (y 1).val; rw [e1]; omega

/-- Window 7's block is its whole 1×7 array. -/
theorem iblk7_apply (c : Dev nD) (t : Fin cfg1.N) (y : S1x7.Idx) :
    (iblk1 (F := Ideal) V c 7 t : Vec Ideal S1x7 .f32) y = (V c (Pipeline.arrRef spec1 7) : S1x7.Idx → EReal) y := by
  obtain ⟨-, -, -, -, -, -, -, ⟨e0, e1⟩, -⟩ := idx_facts t
  unfold iblk1
  rw [View.read_apply]
  show (V c (Pipeline.arrRef spec1 7) : S1x7.Idx → EReal) _ = (V c (Pipeline.arrRef spec1 7) : S1x7.Idx → EReal) _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 7 + 1 * (y 1).val = (y 1).val; rw [e1]; omega

/-! ## What a point writes back -/

/-- At point t the stored block, at row a and class cc, is the whole-array function at the place the output's block
    puts (a, cc): row 2048·t + a of the two row-blocked arrays, the weight arrays whole. -/
theorem point_eq (c : Dev nD) (t : Fin cfg1.N) (a : Fin 2048) (cc : Fin 7) :
    k1_pay1
        (k1_pay2 (iblk1 (F := Ideal) V c 0 t) (iblk1 (F := Ideal) V c 2 t) (iblk1 (F := Ideal) V c 3 t) (iblk1 (F := Ideal) V c 1 t)
          (iblk1 (F := Ideal) V c 4 t) (iblk1 (F := Ideal) V c 5 t) (iblk1 (F := Ideal) V c 6 t) (iblk1 (F := Ideal) V c 7 t))
        (k1_pay3 (iblk1 (F := Ideal) V c 0 t) (iblk1 (F := Ideal) V c 2 t) (iblk1 (F := Ideal) V c 3 t) (iblk1 (F := Ideal) V c 1 t)
          (iblk1 (F := Ideal) V c 4 t) (iblk1 (F := Ideal) V c 5 t) (iblk1 (F := Ideal) V c 6 t) (iblk1 (F := Ideal) V c 7 t))
        (ix2 a cc)
      = headArr (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7))
          (((cfg1.win 8).blk t).view.emb (ix2 a cc)) := by
  obtain ⟨-, -, -, -, -, -, -, -, ⟨e80, e81⟩⟩ := idx_facts t
  rw [block_apply]
  unfold headArr
  refine headRow_congr (funext fun k => ?_) (funext fun k => ?_) (funext fun k => funext fun q => ?_) (funext fun q => ?_)
    (funext fun k => funext fun q => ?_) (funext fun q => ?_) (funext fun q => funext fun cc' => ?_) (funext fun cc' => ?_) (Fin.ext ?_)
  · exact iblk0_apply V c t _ _
      (by show win1_8.index t (0 : Fin 2) * 2048 + 1 * a.val = t.val * 2048 + a.val; rw [e80]; omega) rfl
  · exact iblk1_apply V c t _ _
      (by show win1_8.index t (0 : Fin 2) * 2048 + 1 * a.val = t.val * 2048 + a.val; rw [e80]; omega) rfl
  · exact iblk2_apply V c t _
  · exact iblk3_apply V c t _
  · exact iblk4_apply V c t _
  · exact iblk5_apply V c t _
  · exact iblk6_apply V c t _
  · exact iblk7_apply V c t _
  · show cc.val = win1_8.index t (1 : Fin 2) * 7 + 1 * cc.val
    rw [e81]; omega

/-- Point t writes back block t of the whole-array function of the arrays as the region finds them. -/
theorem flushed_eq (c : Dev nD) (t : Fin cfg1.N) :
    (dat1 (F := Ideal) V c).flushed 8 t
      = ((cfg1.win 8).blk t).view.read (Elt Ideal)
          (headArr (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5))
            (V c (Pipeline.arrRef spec1 6)) (V c (Pipeline.arrRef spec1 7))) := by
  show (cfg1.win 8).cut (grid1.coords t) ((dat1 (F := Ideal) V c).after 8 t) = _
  rw [after1_8]
  unfold out1_8
  rw [View.canon_unit_zero hz]
  simp only [View.ld_unit_zero (S := S2048x32) hz, View.ld_unit_zero (S := S32x16) hz, View.ld_unit_zero (S := S1x16) hz,
    View.ld_unit_zero (S := S16x7) hz, View.ld_unit_zero (S := S1x7) hz]
  funext j
  obtain ⟨a, cc, rfl⟩ : ∃ (a : Fin 2048) (cc : Fin 7), j = ix2 a cc := ⟨j 0, j 1, eq_ix2 (n0 := 2048) (n1 := 7) j⟩
  exact point_eq V c t a cc

/-! ## The six blocks cover the array -/

/-- A node-class pair is in point t's block iff each coordinate is in the block's range on its axis. -/
theorem mem_blk (t : Fin cfg1.N) (i : S12288x7.Idx) :
    i ∈ ((cfg1.win 8).blk t).view.set
      ↔ ∀ a : Fin 2, win1_8.index t a * S2048x7.size a ≤ (i a).val ∧ (i a).val < win1_8.index t a * S2048x7.size a + S2048x7.size a := by
  show i ∈ ((View.whole main_v70).slice (win1_8.rect t)).set ↔ _
  rw [View.set_slice_whole, Rect.mem_set_unit]
  exact Iff.rfl

/-- Node i is covered by point i / 2048. -/
theorem covered (i : S12288x7.Idx) : ∃ t : Fin cfg1.N, (cfg1.win 8).flush t = true ∧ i ∈ ((cfg1.win 8).blk t).view.set := by
  have hi0 : (i 0).val < 12288 := idx2_lt0 i
  have hi1 : (i 1).val < 7 := idx2_lt1 i
  have hN : cfg1.N = 6 := N_1
  have ht : (i 0).val / 2048 < cfg1.N := by rw [hN]; omega
  obtain ⟨-, -, -, -, -, -, -, -, ⟨e80, e81⟩⟩ := idx_facts ⟨(i 0).val / 2048, ht⟩
  refine ⟨⟨(i 0).val / 2048, ht⟩, flush1_8 _, ?_⟩
  rw [mem_blk]
  intro a
  match a with
  | ⟨0, _⟩ =>
    show win1_8.index ⟨(i 0).val / 2048, ht⟩ (0 : Fin 2) * 2048 ≤ (i 0).val
      ∧ (i 0).val < win1_8.index ⟨(i 0).val / 2048, ht⟩ (0 : Fin 2) * 2048 + 2048
    rw [e80]
    show (i 0).val / 2048 * 2048 ≤ (i 0).val ∧ (i 0).val < (i 0).val / 2048 * 2048 + 2048
    omega
  | ⟨1, _⟩ =>
    show win1_8.index ⟨(i 0).val / 2048, ht⟩ (1 : Fin 2) * 7 ≤ (i 1).val
      ∧ (i 1).val < win1_8.index ⟨(i 0).val / 2048, ht⟩ (1 : Fin 2) * 7 + 7
    rw [e81]
    omega

/-! ## The array after the six write-backs -/

/-- The output array ends holding the whole-array function. -/
theorem head_array (c : Dev nD) :
    (dat1 (F := Ideal) V c).arrAt 8 cfg1.N
      = headArr (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) :=
  (dat1 (F := Ideal) V c).arrAt_eq_of_cover 8 _ (fun t _ => flushed_eq V c t) covered

/-- The region's output array after all six grid points, read at node i and class cc. -/
theorem head_value (c : Dev nD) (i : Fin 12288) (cc : Fin 7) :
    ((dat1 (F := Ideal) V c).arrAt 8 cfg1.N : S12288x7.Idx → EReal) (ix2 i cc)
      = Cert.Spec.headRow
          (fun k => (V c (Pipeline.arrRef spec1 0) : S12288x32.Idx → EReal) (ix2 i k))
          (fun k => (V c (Pipeline.arrRef spec1 1) : S12288x32.Idx → EReal) (ix2 i k))
          (fun k q => (V c (Pipeline.arrRef spec1 2) : S32x16.Idx → EReal) (ix2 k q))
          (fun q => (V c (Pipeline.arrRef spec1 3) : S1x16.Idx → EReal) (ix2 (0 : Fin 1) q))
          (fun k q => (V c (Pipeline.arrRef spec1 4) : S32x16.Idx → EReal) (ix2 k q))
          (fun q => (V c (Pipeline.arrRef spec1 5) : S1x16.Idx → EReal) (ix2 (0 : Fin 1) q))
          (fun q cc => (V c (Pipeline.arrRef spec1 6) : S16x7.Idx → EReal) (ix2 q cc))
          (fun cc => (V c (Pipeline.arrRef spec1 7) : S1x7.Idx → EReal) (ix2 (0 : Fin 1) cc)) cc := by
  rw [head_array]
  rfl

end Cert.KernelIdeal.KHead

end
-- ==== Proof.RHead.lean ====
/-
  The reference's last stage read row by row: its output at node i and class cc is the head of the specification
  applied to row i of its first-layer output h, row i of its neighbourhood mean, and the weights — the same two
  affine maps added and clamped at zero, the division by the Euclidean norm plus the small constant, the last affine
  map and the softmax shifted by the row maximum. A host sum starts from the word 0, which is the number 0; the host
  maximum folds from -∞ and is then joined with -∞ once more, which changes nothing.
-/
import proofs.«423551_j3075196584646_2_alg».proof.Proof.RefRead
import proofs.«423551_j3075196584646_2_alg».proof.Proof.Spec
import Idealize.ShloMosaic.Lib.ValueIdx
import Idealize.ShloMosaic.Lib.ValueLayout
import Idealize.ShloMosaic.PureOps.Ideal.Laws
import Idealize.ShloMosaic.PureOps.Reduce
import Mathlib.Data.Finset.Fold

noncomputable section

namespace Cert.ReferenceIdeal.RHead

open Cert.ReferenceIdeal Cert.ReferenceIdeal.Gen Cert.ReferenceIdeal.Read Idealize.ShloMosaic Idealize.ShloMosaic.TcCoe
open Idealize.ShloMosaic.ValueIdx
open scoped BigOperators

/-- Joining a fold of max with its own starting value changes nothing: the fold is at least where it starts. -/
private theorem max_fold_self {ι : Type} (s : Finset ι) (b : EReal) (f : ι → EReal) :
    max b (s.fold max b f) = s.fold max b f :=
  max_eq_right ((Finset.le_fold_max b).2 (Or.inl le_rfl))

/-- A maximum over the 7 classes of a [12288, 7] array, at row i: the fold of max from the initial value over the
    row's 7 entries. -/
private theorem rowmax_read (x : S12288x7.Idx → EReal) (init : S_.Idx → EReal) (i : Fin 12288) :
    Host.reduce (max : EReal → EReal → EReal) x init reducesTo_S12288x7_S12288_d1 h_S_ (ix1 i)
      = (Finset.univ : Finset (Fin 7)).fold max (init (Shape.Idx.first h_S_)) (fun c => x (ix2 i c)) := by
  rw [Host.reduce_eq_fold_single (max : EReal → EReal → EReal) x init reducesTo_S12288x7_S12288_d1 (by decide) h_S_ (ix1 i)]
  refine congrArg (Finset.fold max _ · _) (funext fun c => ?_)
  exact congrArg x (funext fun a => Fin.ext (by match a with | ⟨0, _⟩ => rfl | ⟨1, _⟩ => rfl))

section

variable (x0 : FVec Ideal S12288x1433 .f32) (x1 : IVec S2x196608 32) (x2 : FVec Ideal S1433x32 .f32) (x3 : FVec Ideal S32 .f32)
    (x4 : FVec Ideal S32x16 .f32) (x5 : FVec Ideal S16 .f32) (x6 : FVec Ideal S32x16 .f32) (x7 : FVec Ideal S16 .f32)
    (x8 : FVec Ideal S16x7 .f32) (x9 : FVec Ideal S7 .f32)

/-- The hidden row at (i, q): ((h·Wl + bl) + agg·Wr) + br, clamped at zero. -/
private theorem hid_at (i : Fin 12288) (q : Fin 16) :
    val_main_v85 (F := Ideal) x0 x1 x2 x3 x4 x5 x6 x7 (ix2 i q)
      = Cert.Spec.hid (fun k => val_main_v48 (F := Ideal) x0 x1 x2 x3 (ix2 i k))
          (fun k => val_main_v75 (F := Ideal) x0 x1 x2 x3 (ix2 i k))
          (fun k q => x4 (ix2 k q)) (fun k q => x6 (ix2 k q)) (fun q => x5 (ix1 q)) (fun q => x7 (ix1 q)) q := by
  have el76 : ∀ k : Fin 32, lidx_main_v76 (ix2 i q) k = ix2 i k := fun k =>
    funext fun a => Fin.ext (by match a with | ⟨0, _⟩ => rfl | ⟨1, _⟩ => rfl)
  have er76 : ∀ k : Fin 32, ridx_main_v76 (ix2 i q) k = ix2 k q := fun k =>
    funext fun a => Fin.ext (by match a with | ⟨0, _⟩ => rfl | ⟨1, _⟩ => rfl)
  have el80 : ∀ k : Fin 32, lidx_main_v80 (ix2 i q) k = ix2 i k := fun k =>
    funext fun a => Fin.ext (by match a with | ⟨0, _⟩ => rfl | ⟨1, _⟩ => rfl)
  have er80 : ∀ k : Fin 32, ridx_main_v80 (ix2 i q) k = ix2 k q := fun k =>
    funext fun a => Fin.ext (by match a with | ⟨0, _⟩ => rfl | ⟨1, _⟩ => rfl)
  have e78 : idx_main_v77 (idx_main_v78 (ix2 i q)) = ix1 q :=
    funext fun a => Fin.ext (by match a with | ⟨0, _⟩ => rfl)
  have e83 : idx_main_v82 (idx_main_v83 (ix2 i q)) = ix1 q :=
    funext fun a => Fin.ext (by match a with | ⟨0, _⟩ => rfl)
  rw [val_main_v85_apply, val_main_v84_apply, val_main_v81_apply, val_main_v79_apply, val_main_v76_apply,
    val_main_v78_apply, val_main_v77_apply, e78, val_main_v80_apply, val_main_v83_apply, val_main_v82_apply, e83,
    val_main_call3_v0_apply, val_main_call3_cst_apply]
  simp only [el76, er76, el80, er80, Ideal.maximumf_def, Ideal.addf_def, Ideal.ofBits_def]
  rfl

/-- The normalised row at (i, q): the hidden row's entry divided by the row's Euclidean norm plus the small constant. -/
private theorem nrm_at (i : Fin 12288) (q : Fin 16) :
    val_main_v90 (F := Ideal) x0 x1 x2 x3 x4 x5 x6 x7 (ix2 i q)
      = Cert.Spec.nrm (fun q' => val_main_v85 (F := Ideal) x0 x1 x2 x3 x4 x5 x6 x7 (ix2 i q')) q := by
  have e1 : ∀ k : Fin 16, idx_main_call4_v1 (idx_main_call4_v2 (idx_main_v89 (ix2 i q))) k = ix2 i k := fun k =>
    funext fun a => Fin.ext (by match a with | ⟨0, _⟩ => rfl | ⟨1, _⟩ => rfl)
  rw [val_main_v90_apply, val_main_v89_apply, val_main_v88_apply, val_main_v86_apply, val_main_call4_v2_apply,
    val_main_call4_v1_apply, val_main_call4_cst_apply, val_main_v87_apply, val_main_cst_19_apply]
  simp only [e1, val_main_call4_v0_apply, Ideal.hostDivf_def, Ideal.addf_def, Ideal.mulf_def, Ideal.hostUnary_sqrt_def,
    Ideal.ofBits_def, Ideal.ofBits_zero_f32, zero_add]
  rfl

/-- The logits at (i, c): the normalised row through the last affine map. -/
private theorem logit_at (i : Fin 12288) (c : Fin 7) :
    val_main_v94 (F := Ideal) x0 x1 x2 x3 x4 x5 x6 x7 x8 x9 (ix2 i c)
      = Cert.Spec.logit (fun q => val_main_v90 (F := Ideal) x0 x1 x2 x3 x4 x5 x6 x7 (ix2 i q))
          (fun q c => x8 (ix2 q c)) (fun c => x9 (ix1 c)) c := by
  have el : ∀ k : Fin 16, lidx_main_v91 (ix2 i c) k = ix2 i k := fun k =>
    funext fun a => Fin.ext (by match a with | ⟨0, _⟩ => rfl | ⟨1, _⟩ => rfl)
  have er : ∀ k : Fin 16, ridx_main_v91 (ix2 i c) k = ix2 k c := fun k =>
    funext fun a => Fin.ext (by match a with | ⟨0, _⟩ => rfl | ⟨1, _⟩ => rfl)
  have e93 : idx_main_v92 (idx_main_v93 (ix2 i c)) = ix1 c :=
    funext fun a => Fin.ext (by match a with | ⟨0, _⟩ => rfl)
  rw [val_main_v94_apply, val_main_v91_apply, val_main_v93_apply, val_main_v92_apply, e93]
  simp only [el, er, Ideal.addf_def]
  rfl

/-- The row maximum at i: the fold of max from -∞ over the row's logits; joining it with -∞ again changes nothing. -/
private theorem rowMax_at (i : Fin 12288) :
    val_main_v97 (F := Ideal) x0 x1 x2 x3 x4 x5 x6 x7 x8 x9 (ix1 i)
      = Cert.Spec.rowMax (fun c => val_main_v94 (F := Ideal) x0 x1 x2 x3 x4 x5 x6 x7 x8 x9 (ix2 i c)) := by
  have h95 : val_main_v95 (F := Ideal) x0 x1 x2 x3 x4 x5 x6 x7 x8 x9 (ix1 i)
      = (Finset.univ : Finset (Fin 7)).fold max Cert.Spec.ninfW
          (fun c => val_main_v94 (F := Ideal) x0 x1 x2 x3 x4 x5 x6 x7 x8 x9 (ix2 i c)) :=
    rowmax_read _ _ i
  rw [val_main_v97_apply, val_main_v96_apply, val_main_cst_21_apply, h95]
  exact max_fold_self _ _ _

/-- The result at (i, cc): the softmax of row i's logits, shifted by the row maximum. -/
private theorem smax_at (i : Fin 12288) (cc : Fin 7) :
    val_main_v105 (F := Ideal) x0 x1 x2 x3 x4 x5 x6 x7 x8 x9 (ix2 i cc)
      = Cert.Spec.smax (fun c => val_main_v94 (F := Ideal) x0 x1 x2 x3 x4 x5 x6 x7 x8 x9 (ix2 i c)) cc := by
  have e99 : ∀ c' : Fin 7, idx_main_v98 (idx_main_v99 (ix2 i c')) = ix1 i := fun c' =>
    funext fun a => Fin.ext (by match a with | ⟨0, _⟩ => rfl)
  have e102 : ∀ k : Fin 7, idx_main_v102 (idx_main_v103 (idx_main_v104 (ix2 i cc))) k = ix2 i k := fun k =>
    funext fun a => Fin.ext (by match a with | ⟨0, _⟩ => rfl | ⟨1, _⟩ => rfl)
  have hexp : ∀ c' : Fin 7, val_main_v101 (F := Ideal) x0 x1 x2 x3 x4 x5 x6 x7 x8 x9 (ix2 i c')
      = Ideal.exp (val_main_v94 (F := Ideal) x0 x1 x2 x3 x4 x5 x6 x7 x8 x9 (ix2 i c')
          - Cert.Spec.rowMax (fun c => val_main_v94 (F := Ideal) x0 x1 x2 x3 x4 x5 x6 x7 x8 x9 (ix2 i c))) := by
    intro c'
    rw [val_main_v101_apply, val_main_v100_apply, val_main_v99_apply, val_main_v98_apply, e99 c', rowMax_at]
    rfl
  rw [val_main_v105_apply, val_main_v104_apply, val_main_v103_apply, val_main_v102_apply, val_main_cst_22_apply]
  simp only [e102, hexp, Ideal.hostDivf_def, Ideal.ofBits_def, Ideal.ofBits_zero_f32, zero_add]
  rfl

end

/-- The reference's result at node i and class cc, from row i of its stages `val_main_v48` (h) and `val_main_v75`
    (the neighbourhood mean) and the six weight arguments. -/
theorem ref_head (x0 : FVec Ideal S12288x1433 .f32) (x1 : IVec S2x196608 32) (x2 : FVec Ideal S1433x32 .f32) (x3 : FVec Ideal S32 .f32)
    (x4 : FVec Ideal S32x16 .f32) (x5 : FVec Ideal S16 .f32) (x6 : FVec Ideal S32x16 .f32) (x7 : FVec Ideal S16 .f32)
    (x8 : FVec Ideal S16x7 .f32) (x9 : FVec Ideal S7 .f32) (i : Fin 12288) (cc : Fin 7) :
    val_main_v105 (F := Ideal) x0 x1 x2 x3 x4 x5 x6 x7 x8 x9 (ix2 i cc)
      = Cert.Spec.headRow
          (fun k => val_main_v48 (F := Ideal) x0 x1 x2 x3 (ix2 i k))
          (fun k => val_main_v75 (F := Ideal) x0 x1 x2 x3 (ix2 i k))
          (fun k q => x4 (ix2 k q)) (fun q => x5 (ix1 q))
          (fun k q => x6 (ix2 k q)) (fun q => x7 (ix1 q))
          (fun q cc => x8 (ix2 q cc)) (fun cc => x9 (ix1 cc)) cc := by
  have hH : (fun q' => val_main_v85 (F := Ideal) x0 x1 x2 x3 x4 x5 x6 x7 (ix2 i q'))
      = Cert.Spec.hid (fun k => val_main_v48 (F := Ideal) x0 x1 x2 x3 (ix2 i k))
          (fun k => val_main_v75 (F := Ideal) x0 x1 x2 x3 (ix2 i k))
          (fun k q => x4 (ix2 k q)) (fun k q => x6 (ix2 k q)) (fun q => x5 (ix1 q)) (fun q => x7 (ix1 q)) :=
    funext fun q' => hid_at x0 x1 x2 x3 x4 x5 x6 x7 i q'
  have hN : (fun q => val_main_v90 (F := Ideal) x0 x1 x2 x3 x4 x5 x6 x7 (ix2 i q))
      = Cert.Spec.nrm (fun q' => val_main_v85 (F := Ideal) x0 x1 x2 x3 x4 x5 x6 x7 (ix2 i q')) :=
    funext fun q => nrm_at x0 x1 x2 x3 x4 x5 x6 x7 i q
  have hL : (fun c => val_main_v94 (F := Ideal) x0 x1 x2 x3 x4 x5 x6 x7 x8 x9 (ix2 i c))
      = Cert.Spec.logit (fun q => val_main_v90 (F := Ideal) x0 x1 x2 x3 x4 x5 x6 x7 (ix2 i q))
          (fun q c => x8 (ix2 q c)) (fun c => x9 (ix1 c)) :=
    funext fun c => logit_at x0 x1 x2 x3 x4 x5 x6 x7 x8 x9 i c
  rw [smax_at, hL, hN, hH]
  rfl

end Cert.ReferenceIdeal.RHead

end
-- ==== Proof.Edges.lean ====
/-
  The extended edge list as the reference reads it: the 196608 listed edges followed by one loop per node. Under the
  precondition every end point is a node number, so the step that adds 12288 to a negative index changes nothing,
  and the node weight d(j) — a finite count raised to the power -1/2, or 0 — is a real number whatever the edges.
-/
import proofs.«423551_j3075196584646_2_alg».proof.Proof.RefRead
import proofs.«423551_j3075196584646_2_alg».proof.Proof.Spec
import Idealize.ShloMosaic.Lib.ValueIdx
import Idealize.ShloMosaic.Lib.ValueLayout
import Idealize.ShloMosaic.PureOps.Ideal.Laws

noncomputable section

namespace Cert.Edges

open Cert.ReferenceIdeal Cert.ReferenceIdeal.Gen Cert.ReferenceIdeal.Read Idealize.ShloMosaic Idealize.ShloMosaic.ValueIdx

/-- Every entry of the edge list is a node number (read as a signed integer). -/
def InRange (x1 : IVec S2x196608 32) : Prop := ∀ i, 0 ≤ (x1 i).toInt ∧ (x1 i).toInt < 12288

/-! ### Words -/

/-- A number below 12288 written as a 32-bit word reads back as itself when the word is taken signed:
    it is far below 2³¹, so the sign bit is clear. -/
private theorem toInt_ofNat_small (n : Nat) (hn : n < 12288) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- "Add 12288 where the word is negative" leaves a word that is not negative as it is: the signed test
    against 0 fails, and the choice keeps the word. -/
private theorem wrap_word (w : BitVec 32) (h0 : 0 ≤ w.toInt) :
    Scalar.select (IntOp.cmpi .slt w 0#32) (IntOp.addi w 12288#32) w = w := by
  have hs : w.slt 0#32 = false := by
    simp [BitVec.slt]; exact h0
  have hb : IntOp.cmpi .slt w 0#32 = 0#1 := by
    simp only [IntOp.cmpi, hs]; rfl
  rw [hb, select_zero]

/-! ### The joined list -/

/-- A list of 196608 node numbers followed by the numbers 0, 1, …, 12287 holds node numbers only: a position
    below 196608 reads the first list, a later position `e` reads the number `e − 196608 < 12288`. -/
private theorem cat_range (hc : Shape.Concatenates [S196608, S12288] S208896 0)
    (y : S196608.Idx → BitVec 32) (z : S12288.Idx → BitVec 32)
    (hy : ∀ i, 0 ≤ (y i).toInt ∧ (y i).toInt < 12288)
    (hz : ∀ i, z i = BitVec.ofNat 32 (i 0).val) (e : Fin 208896) :
    0 ≤ (concatenate S208896 0 [⟨S196608, y⟩, ⟨S12288, z⟩] hc (ix1 e)).toInt
      ∧ (concatenate S208896 0 [⟨S196608, y⟩, ⟨S12288, z⟩] hc (ix1 e)).toInt < 12288 := by
  by_cases he : e.val < 196608
  · rw [concatenate_pair_apply_left (t := S208896) (s₁ := S196608) (s₂ := S12288) 0 y z hc (ix1 e) rfl
      (ix1 ⟨e.val, he⟩) (fun b => match b with | ⟨0, _⟩ => rfl)]
    exact hy _
  · have h2 : e.val - 196608 < 12288 := by have := e.isLt; omega
    rw [concatenate_pair_apply_right (t := S208896) (s₁ := S196608) (s₂ := S12288) 0 y z hc (ix1 e) rfl rfl
      (ix1 ⟨e.val - 196608, h2⟩)
      (fun b hb => absurd (Fin.ext (by have hb1 : b.val < 1 := b.isLt; show b.val = 0; omega)) hb)
      (by show e.val - 196608 + 196608 = e.val; omega)]
    rw [hz, toInt_ofNat_small _ h2]
    constructor <;> omega

/-- The row end point of extended edge e is a node number. -/
theorem row_range (x1 : IVec S2x196608 32) (h : InRange x1) (e : Fin 208896) :
    0 ≤ (val_main_v3 (F := Ideal) x1 (ix1 e)).toInt ∧ (val_main_v3 (F := Ideal) x1 (ix1 e)).toInt < 12288 := by
  unfold val_main_v3
  refine cat_range _ _ _ (fun i => ?_) (fun i => val_main_v0_apply i) e
  rw [val_main_v2_apply, val_main_v1_apply]
  exact h _

/-- The column end point of extended edge e is a node number. -/
theorem col_range (x1 : IVec S2x196608 32) (h : InRange x1) (e : Fin 208896) :
    0 ≤ (val_main_v6 (F := Ideal) x1 (ix1 e)).toInt ∧ (val_main_v6 (F := Ideal) x1 (ix1 e)).toInt < 12288 := by
  unfold val_main_v6
  refine cat_range _ _ _ (fun i => ?_) (fun i => val_main_v0_apply i) e
  rw [val_main_v5_apply, val_main_v4_apply]
  exact h _

/-- Adding 12288 to the negative row indices changes nothing: there are none. -/
theorem wrap_row (x1 : IVec S2x196608 32) (h : InRange x1) : val_main_v26 (F := Ideal) x1 = val_main_v3 (F := Ideal) x1 := by
  funext idx
  obtain ⟨e, rfl⟩ : ∃ e, idx = ix1 e := ⟨idx 0, eq_ix1 idx⟩
  rw [val_main_v26_apply, val_main_v23_apply, val_main_v25_apply, val_main_v22_apply, val_main_c_6_apply,
    val_main_v24_apply, val_main_c_7_apply]
  exact wrap_word _ (row_range x1 h e).1

/-- The same for the column indices, at the two places the reference wraps them. -/
theorem wrap_col (x1 : IVec S2x196608 32) (h : InRange x1) : val_main_v31 (F := Ideal) x1 = val_main_v6 (F := Ideal) x1 := by
  funext idx
  obtain ⟨e, rfl⟩ : ∃ e, idx = ix1 e := ⟨idx 0, eq_ix1 idx⟩
  rw [val_main_v31_apply, val_main_v28_apply, val_main_v30_apply, val_main_v27_apply, val_main_c_8_apply,
    val_main_v29_apply, val_main_c_9_apply]
  exact wrap_word _ (col_range x1 h e).1
theorem wrap_col' (x1 : IVec S2x196608 32) (h : InRange x1) : val_main_v12 (F := Ideal) x1 = val_main_v6 (F := Ideal) x1 := by
  funext idx
  obtain ⟨e, rfl⟩ : ∃ e, idx = ix1 e := ⟨idx 0, eq_ix1 idx⟩
  rw [val_main_v12_apply, val_main_v9_apply, val_main_v11_apply, val_main_v8_apply, val_main_c_apply,
    val_main_v10_apply, val_main_c_0_apply]
  exact wrap_word _ (col_range x1 h e).1

/-! ### The node weight -/

/-- The single-precision pattern of 1.0 denotes a real number. -/
private theorem one_real : ∃ r : ℝ, Ideal.ofBits .f32 0x3F800000#32 = (r : EReal) := by
  simp [Ideal.ofBits, Ideal.ieee]
  exact ⟨_, (EReal.coe_mul _ _).symm⟩

/-- The single-precision pattern of -0.5 denotes a real number. -/
private theorem mhalf_real : ∃ r : ℝ, Ideal.ofBits .f32 0xBF000000#32 = (r : EReal) := by
  simp [Ideal.ofBits, Ideal.ieee]
  exact ⟨_, by rw [← EReal.coe_mul, ← EReal.coe_neg]⟩

/-- A real number plus a finite sum of real numbers is a real number (among the extended reals). -/
private theorem add_sum_real {ι : Type} (a : EReal) (S : Finset ι) (f : ι → EReal)
    (ha : ∃ r : ℝ, a = (r : EReal)) (hf : ∀ u, ∃ r : ℝ, f u = (r : EReal)) :
    ∃ r : ℝ, a + ∑ u ∈ S, f u = (r : EReal) := by
  classical
  obtain ⟨p, rfl⟩ := ha
  induction S using Finset.induction_on with
  | empty => exact ⟨p, by simp⟩
  | insert b s hb ih =>
    obtain ⟨r, hr⟩ := ih
    obtain ⟨q, hq⟩ := hf b
    refine ⟨q + r, ?_⟩
    rw [Finset.sum_insert hb, hq, ← add_assoc, add_comm (p : EReal) (q : EReal), add_assoc, hr, EReal.coe_add]

/-- The degree of node j — the zero start value plus one for each extended edge that lands on j — is a real number. -/
private theorem deg_real (x1 : IVec S2x196608 32) (j : Fin 12288) :
    ∃ r : ℝ, val_main_v15 (F := Ideal) x1 (ix1 j) = (r : EReal) := by
  have h7 : ∃ r : ℝ, val_main_v7 (F := Ideal) (ix1 j) = (r : EReal) :=
    ⟨0, by rw [val_main_v7_apply, val_main_cst_apply]; exact Ideal.ofBits_zero_f32.trans EReal.coe_zero.symm⟩
  have h14 : ∀ u, ∃ r : ℝ, val_main_v14 (F := Ideal) u = (r : EReal) := fun u => by
    rw [val_main_v14_apply, val_main_cst_1_apply]; exact one_real
  exact add_sum_real _ _ _ h7 h14

/-- The node weight is a real number. -/
theorem dis_real (x1 : IVec S2x196608 32) (j : Fin 12288) : ∃ r : ℝ, val_main_v20 (F := Ideal) x1 (ix1 j) = (r : EReal) := by
  obtain ⟨d, hd⟩ := deg_real x1 j
  obtain ⟨q, hq⟩ := mhalf_real
  rw [val_main_v20_apply]
  rcases BitVec.eq_zero_or_eq_one (val_main_v17 (F := Ideal) x1 (ix1 j)) with hb | hb
  · rw [hb, select_zero, val_main_call0_v1_apply, val_main_call0_v0_apply, val_main_cst_4_apply]
    exact ⟨0, Ideal.ofBits_zero_f32.trans EReal.coe_zero.symm⟩
  · rw [hb, select_one, val_main_v19_apply, hd, val_main_v18_apply, val_main_cst_3_apply]
    exact ⟨Real.rpow d q, by rw [Ideal.hostPowf_def, Ideal.ofBits_def, hq]; rfl⟩

end Cert.Edges

end
-- ==== Proof.GcnR.lean ====
/-
  The reference's first layer before the bias, read at node i and column k. Its dense matrix holds at (i, j) the word
  0 plus one word 1 for every extended edge from i to j (an update lands at (i, j) exactly when its two in-range
  indices are i and j); the normalised matrix is (d(i) · A(i, j)) · d(j); two matrix products follow.
-/
import proofs.«423551_j3075196584646_2_alg».proof.Proof.RefRead
import proofs.«423551_j3075196584646_2_alg».proof.Proof.Spec
import proofs.«423551_j3075196584646_2_alg».proof.Proof.Edges
import Idealize.ShloMosaic.Lib.ValueIdx
import Idealize.ShloMosaic.Lib.ValueLayout
import Idealize.ShloMosaic.PureOps.Ideal.Laws

noncomputable section

namespace Cert.GcnR

open Cert.ReferenceIdeal Cert.ReferenceIdeal.Gen Cert.ReferenceIdeal.Read Idealize.ShloMosaic Idealize.ShloMosaic.ValueIdx

/-! ## An accumulating scatter of E scalars into an N × M matrix, at an index

The updates form a vector of length E, the indices an E × 2 matrix whose row e holds the (signed) row and column
numbers update e goes to; both matrix axes are inserted window axes. Update e lands at (i, j) exactly when its two
indices, read as signed integers, are i and j; an update with an index outside the matrix lands nowhere. -/

/-- The dimension numbers of that scatter. -/
abbrev pairDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- No matrix axis is a window axis: the window coordinate is 0 on both. -/
theorem pair_window {N M E : Nat} (wf) (e : Fin E) (a : Fin 2) : (pairDims N M E wf).window (ix1 e) a = 0 := by
  unfold ScatterDims.window
  rw [dif_neg]
  simp [ScatterDims.sKept, Shape.kept, List.mem_filter, List.mem_finRange]
  omega

/-- The start on the row axis is the index matrix at (e, 0), read signed. -/
theorem pair_start0 {N M E w : Nat} (wf) (idx : IVec ⟨2, ![E, 2]⟩ w) (e : Fin E) :
    (pairDims N M E wf).start (ix1 e) idx (0 : Fin 2) = (idx (ix2 e (0 : Fin 2))).toInt := by
  unfold ScatterDims.start
  rw [dif_pos (show (0 : Fin 2) ∈ (pairDims N M E wf).scatterDimsToOperandDims from List.mem_cons_self)]
  congr 2
  funext b; refine Fin.ext ?_
  match b with
  | ⟨0, _⟩ => rfl
  | ⟨1, _⟩ => rfl

/-- The start on the column axis is the index matrix at (e, 1), read signed. -/
theorem pair_start1 {N M E w : Nat} (wf) (idx : IVec ⟨2, ![E, 2]⟩ w) (e : Fin E) :
    (pairDims N M E wf).start (ix1 e) idx (1 : Fin 2) = (idx (ix2 e (1 : Fin 2))).toInt := by
  unfold ScatterDims.start
  rw [dif_pos (show (1 : Fin 2) ∈ (pairDims N M E wf).scatterDimsToOperandDims from List.mem_cons_of_mem _ List.mem_cons_self)]
  congr 2
  funext b; refine Fin.ext ?_
  match b with
  | ⟨0, _⟩ => rfl
  | ⟨1, _⟩ => rfl

theorem fin2_cases (a : Fin 2) : a = 0 ∨ a = 1 := by omega

/-- Update e lands at (i, j) exactly when its two signed indices are i and j. -/
theorem pair_resultIdx {N M E w : Nat} (wf) (idx : IVec ⟨2, ![E, 2]⟩ w) (e : Fin E) (i : Fin N) (j : Fin M) :
    (pairDims N M E wf).resultIdx? (ix1 e) idx = some (ix2 i j)
      ↔ (idx (ix2 e (0 : Fin 2))).toInt = (i.val : Int) ∧ (idx (ix2 e (1 : Fin 2))).toInt = (j.val : Int) := by
  have hi := i.isLt
  have hj := j.isLt
  unfold ScatterDims.resultIdx?
  by_cases h : ∀ a, 0 ≤ (pairDims N M E wf).start (ix1 e) idx a + (pairDims N M E wf).window (ix1 e) a
      ∧ (pairDims N M E wf).start (ix1 e) idx a + (pairDims N M E wf).window (ix1 e) a < (⟨2, ![N, M]⟩ : Shape).size a
  · rw [dif_pos h]
    have h0 := h 0
    have h1 := h 1
    rw [pair_start0, pair_window] at h0
    rw [pair_start1, pair_window] at h1
    constructor
    · intro hs
      have hf := Option.some.inj hs
      have e0 := congrArg Fin.val (congrFun hf 0)
      have e1 := congrArg Fin.val (congrFun hf 1)
      simp only [pair_start0, pair_start1, pair_window] at e0 e1
      change _ = i.val at e0
      change _ = j.val at e1
      omega
    · rintro ⟨e0, e1⟩
      congr 1
      funext a
      refine Fin.ext ?_
      rcases fin2_cases a with rfl | rfl
      · simp only [pair_start0, pair_window]
        change _ = i.val
        omega
      · simp only [pair_start1, pair_window]
        change _ = j.val
        omega
  · rw [dif_neg h]
    constructor
    · intro hs
      cases hs
    · rintro ⟨e0, e1⟩
      exfalso
      apply h
      intro a
      rcases fin2_cases a with rfl | rfl
      · rw [pair_start0, pair_window]
        change _ ∧ _ < (N : Int)
        omega
      · rw [pair_start1, pair_window]
        change _ ∧ _ < (M : Int)
        omega

/-- A rank-1 index is its coordinate. -/
def idxEquiv1 {n : Nat} : (⟨1, ![n]⟩ : Shape).Idx ≃ Fin n where
  toFun u := u 0
  invFun := ix1
  left_inv u := (eq_ix1 u).symm
  right_inv e := rfl

/-- THE SCATTER AT (i, j): the matrix's element plus the sum of the updates whose two signed indices are i and j. -/
theorem scatterAdd_pair_apply {N M E w : Nat} (wf) (x : (⟨2, ![N, M]⟩ : Shape).Idx → EReal) (idx : IVec ⟨2, ![E, 2]⟩ w)
    (upd : (⟨1, ![E]⟩ : Shape).Idx → EReal) (i : Fin N) (j : Fin M) :
    Ideal.hostScatterAdd (pairDims N M E wf) x idx upd (ix2 i j)
      = x (ix2 i j) + ∑ e ∈ Finset.univ.filter (fun e : Fin E =>
          (idx (ix2 e (0 : Fin 2))).toInt = (i.val : Int) ∧ (idx (ix2 e (1 : Fin 2))).toInt = (j.val : Int)), upd (ix1 e) := by
  unfold Ideal.hostScatterAdd
  congr 1
  refine Finset.sum_equiv idxEquiv1 (fun u => ?_) (fun u _ => ?_)
  · simp only [Finset.mem_filter, Finset.mem_univ, true_and]
    rw [eq_ix1 u]
    exact pair_resultIdx wf idx (u 0) i j
  · rw [eq_ix1 u]; rfl

/-! ## Two columns joined into an E × 2 matrix, at an index -/

section Concat
variable {α : Type}

/-- Column 0 of the joined matrix is the first column. -/
theorem concat_cols_left {E : Nat} (x₁ x₂ : (⟨2, ![E, 1]⟩ : Shape).Idx → α)
    (h : Shape.Concatenates [(⟨2, ![E, 1]⟩ : Shape), (⟨2, ![E, 1]⟩ : Shape)] (⟨2, ![E, 2]⟩ : Shape) (1 : Fin 2)) (e : Fin E) :
    concatenate (⟨2, ![E, 2]⟩ : Shape) (1 : Fin 2) [⟨(⟨2, ![E, 1]⟩ : Shape), x₁⟩, ⟨(⟨2, ![E, 1]⟩ : Shape), x₂⟩] h (ix2 e (0 : Fin 2))
      = x₁ (ix2 e (0 : Fin 1)) :=
  concatenate_pair_apply_left (1 : Fin 2) x₁ x₂ h (ix2 e (0 : Fin 2)) rfl (ix2 e (0 : Fin 1)) (fun b => by
    match b with
    | ⟨0, _⟩ => rfl
    | ⟨1, _⟩ => rfl)

/-- Column 1 of the joined matrix is the second column. -/
theorem concat_cols_right {E : Nat} (x₁ x₂ : (⟨2, ![E, 1]⟩ : Shape).Idx → α)
    (h : Shape.Concatenates [(⟨2, ![E, 1]⟩ : Shape), (⟨2, ![E, 1]⟩ : Shape)] (⟨2, ![E, 2]⟩ : Shape) (1 : Fin 2)) (e : Fin E) :
    concatenate (⟨2, ![E, 2]⟩ : Shape) (1 : Fin 2) [⟨(⟨2, ![E, 1]⟩ : Shape), x₁⟩, ⟨(⟨2, ![E, 1]⟩ : Shape), x₂⟩] h (ix2 e (1 : Fin 2))
      = x₂ (ix2 e (0 : Fin 1)) :=
  concatenate_pair_apply_right (1 : Fin 2) x₁ x₂ h (ix2 e (1 : Fin 2)) rfl rfl (ix2 e (0 : Fin 1)) (fun b hb => by
    match b with
    | ⟨0, _⟩ => rfl
    | ⟨1, _⟩ => exact absurd rfl hb) rfl

end Concat

/-- A 32-bit word whose signed value is a node number: that value is i exactly when the word names node i. -/
theorem toInt_eq_iff_nodeOf (w : BitVec 32) (h0 : 0 ≤ w.toInt) (h1 : w.toInt < 12288) (i : Fin 12288) :
    w.toInt = (i.val : Int) ↔ Cert.Spec.nodeOf w = i := by
  have hw := w.isLt
  have hi := i.isLt
  unfold Cert.Spec.nodeOf
  rw [Fin.ext_iff]
  show _ ↔ w.toNat % 12288 = i.val
  rw [BitVec.toInt_eq_toNat_cond] at h0 h1 ⊢
  split at h0 <;> rename_i hc <;> [rw [if_pos hc] at h1 ⊢; rw [if_neg hc] at h1 ⊢] <;> omega

/-! ## The reference's dense matrix and first layer -/

/-- The joined index matrix at (e, 0) is the row end point of extended edge e. -/
theorem idx_row (x1 : IVec S2x196608 32) (h : Cert.Edges.InRange x1) (e : Fin 208896) :
    val_main_v34 (F := Ideal) x1 (ix2 e (0 : Fin 2)) = val_main_v3 (F := Ideal) x1 (ix1 e) := by
  have hix : idx_main_v32 (ix2 e (0 : Fin 1)) = ix1 e := funext fun a => by
    match a with
    | ⟨0, _⟩ => rfl
  unfold val_main_v34
  rw [concat_cols_left, val_main_v32_apply, hix, Cert.Edges.wrap_row x1 h]

/-- The joined index matrix at (e, 1) is the column end point of extended edge e. -/
theorem idx_col (x1 : IVec S2x196608 32) (h : Cert.Edges.InRange x1) (e : Fin 208896) :
    val_main_v34 (F := Ideal) x1 (ix2 e (1 : Fin 2)) = val_main_v6 (F := Ideal) x1 (ix1 e) := by
  have hix : idx_main_v33 (ix2 e (0 : Fin 1)) = ix1 e := funext fun a => by
    match a with
    | ⟨0, _⟩ => rfl
  unfold val_main_v34
  rw [concat_cols_right, val_main_v33_apply, hix, Cert.Edges.wrap_col x1 h]

/-- The dense matrix at (i, j): the word 0 plus a word 1 per extended edge from i to j. -/
theorem adj_apply (x1 : IVec S2x196608 32) (h : Cert.Edges.InRange x1) (i j : Fin 12288) :
    val_main_v36 (F := Ideal) x1 (ix2 i j)
      = Cert.Spec.zeroW + ∑ e ∈ Finset.univ.filter (fun e : Fin 208896 =>
          Cert.Spec.nodeOf (val_main_v3 (F := Ideal) x1 (ix1 e)) = i ∧ Cert.Spec.nodeOf (val_main_v6 (F := Ideal) x1 (ix1 e)) = j),
          Cert.Spec.oneW := by
  have hd : scatter_S12288x12288_S208896x2_S208896_n_01_01_1
      = pairDims 12288 12288 208896 Facts₀.scatter_S12288x12288_S208896x2_S208896_n_01_01_1_wf := rfl
  unfold val_main_v36 Host.scatterAdd
  rw [Ideal.hostScatterAdd_def, hd, scatterAdd_pair_apply]
  refine congrArg₂ (· + ·) ?_ ?_
  · rw [val_main_v21_apply, val_main_cst_5_apply]
    rfl
  · refine Finset.sum_congr (Finset.filter_congr fun e _ => ?_) (fun e _ => ?_)
    · obtain ⟨r0, r1⟩ := Cert.Edges.row_range x1 h e
      obtain ⟨c0, c1⟩ := Cert.Edges.col_range x1 h e
      rw [idx_row x1 h e, idx_col x1 h e, toInt_eq_iff_nodeOf _ r0 r1, toInt_eq_iff_nodeOf _ c0 c1]
    · rw [val_main_v35_apply, val_main_cst_10_apply]
      rfl

/-- The two matrix products over the normalised matrix, at node i and column k. -/
theorem ref_pre (x0 : FVec Ideal S12288x1433 .f32) (x1 : IVec S2x196608 32) (x2 : FVec Ideal S1433x32 .f32)
    (h : Cert.Edges.InRange x1) (i : Fin 12288) (k : Fin 32) :
    val_main_v44 (F := Ideal) x0 x1 x2 (ix2 i k)
      = ∑ f : Fin 1433, (∑ j : Fin 12288,
          ((val_main_v20 (F := Ideal) x1 (ix1 i)
              * (Cert.Spec.zeroW + ∑ e ∈ Finset.univ.filter (fun e : Fin 208896 =>
                  Cert.Spec.nodeOf (val_main_v3 (F := Ideal) x1 (ix1 e)) = i ∧ Cert.Spec.nodeOf (val_main_v6 (F := Ideal) x1 (ix1 e)) = j),
                  Cert.Spec.oneW))
            * val_main_v20 (F := Ideal) x1 (ix1 j)) * x0 (ix2 j f)) * x2 (ix2 f k) := by
  rw [val_main_v44_apply]
  refine Finset.sum_congr rfl fun f _ => ?_
  have hl : lidx_main_v44 (ix2 i k) f = ix2 i f := funext fun a => by
    match a with
    | ⟨0, _⟩ => rfl
    | ⟨1, _⟩ => rfl
  have hr : ridx_main_v44 (ix2 i k) f = ix2 f k := funext fun a => by
    match a with
    | ⟨0, _⟩ => rfl
    | ⟨1, _⟩ => rfl
  rw [hl, hr, val_main_v43_apply]
  refine congrArg (· * x2 (ix2 f k)) ?_
  refine Finset.sum_congr rfl fun j _ => ?_
  have hl' : lidx_main_v43 (ix2 i f) j = ix2 i j := funext fun a => by
    match a with
    | ⟨0, _⟩ => rfl
    | ⟨1, _⟩ => rfl
  have hr' : ridx_main_v43 (ix2 i f) j = ix2 j f := funext fun a => by
    match a with
    | ⟨0, _⟩ => rfl
    | ⟨1, _⟩ => rfl
  have h1 : idx_main_v37 (idx_main_v38 (ix2 i j)) = ix1 i := funext fun a => by
    match a with
    | ⟨0, _⟩ => rfl
  have h2 : idx_main_v40 (idx_main_v41 (ix2 i j)) = ix1 j := funext fun a => by
    match a with
    | ⟨0, _⟩ => rfl
  rw [hl', hr', val_main_v42_apply, val_main_v39_apply, val_main_v41_apply, val_main_v40_apply, val_main_v38_apply,
    val_main_v37_apply, h1, h2, adj_apply x1 h i j, Ideal.mulf_def, Ideal.mulf_def]

end Cert.GcnR

end
-- ==== Proof.Algebra.lean ====
/-
  The one algebraic law that joins the two programs' first layer. Over a finite set of nodes ι, edges ε with end
  points R, C : ε → ι, and features φ: with A(i, j) the number of edges from i to j,
      Σ_f (Σ_j ((d i · A(i, j)) · d j) · x j f) · w f  =  d i · Σ_{e : R e = i} Σ_f (x (C e) f · d (C e)) · w f.
  Every quantity is a real number, so the extended reals' products distribute over these finite sums.
-/
import Mathlib.Data.EReal.Basic
import Mathlib.Data.EReal.Operations
import Mathlib.Algebra.BigOperators.Ring.Finset
import Mathlib.Algebra.BigOperators.Group.Finset.Sigma
import Mathlib.Tactic.Ring

noncomputable section

open scoped BigOperators

namespace Cert.Algebra

/-- A finite sum of real numbers, taken in the extended reals, is the real sum. -/
theorem coe_sum {α : Type*} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- Splitting a sum over the edges leaving `i` by the edge's end point: for any `g` on nodes,
    `Σ_{e : R e = i} g (C e) = Σ_j Σ_{e : R e = i ∧ C e = j} g j`. -/
theorem sum_out_edges {ι ε : Type} [Fintype ι] [Fintype ε] [DecidableEq ι]
    (R C : ε → ι) (i : ι) (g : ι → ℝ) :
    ∑ e ∈ Finset.univ.filter (fun e : ε => R e = i), g (C e)
      = ∑ j : ι, ∑ _e ∈ Finset.univ.filter (fun e : ε => R e = i ∧ C e = j), g j := by
  rw [← Finset.sum_fiberwise (Finset.univ.filter (fun e : ε => R e = i)) C (fun e => g (C e))]
  refine Finset.sum_congr rfl (fun j _ => ?_)
  rw [Finset.filter_filter]
  refine Finset.sum_congr rfl (fun e he => ?_)
  rw [(Finset.mem_filter.mp he).2.2]

/-- The law over the real numbers: both sides are `d i · Σ_j A(i, j) · Σ_f d j · x j f · w f`, where
    `A(i, j)` counts the edges from `i` to `j`. -/
theorem gcn_law_real {ι ε φ : Type} [Fintype ι] [Fintype ε] [Fintype φ] [DecidableEq ι]
    (R C : ε → ι) (d : ι → ℝ) (x : ι → φ → ℝ) (w : φ → ℝ) (i : ι) :
    ∑ f : φ, (∑ j : ι, ((d i * (0 + ∑ _e ∈ Finset.univ.filter (fun e : ε => R e = i ∧ C e = j), (1 : ℝ)))
        * d j) * x j f) * w f
      = d i * (0 + ∑ e ∈ Finset.univ.filter (fun e : ε => R e = i),
          ∑ f : φ, (x (C e) f * d (C e)) * w f) := by
  rw [sum_out_edges R C i (fun j => ∑ f : φ, (x j f * d j) * w f)]
  simp only [zero_add, Finset.sum_const, nsmul_eq_mul, mul_one]
  simp only [Finset.sum_mul, Finset.mul_sum]
  rw [Finset.sum_comm]
  refine Finset.sum_congr rfl (fun j _ => ?_)
  refine Finset.sum_congr rfl (fun f _ => ?_)
  ring

/-- The law, with the two constant words `zero` and `one` the programs spell given their values. -/
theorem gcn_law {ι ε φ : Type} [Fintype ι] [Fintype ε] [Fintype φ] [DecidableEq ι]
    (R C : ε → ι) (d : ι → ℝ) (x : ι → φ → ℝ) (w : φ → ℝ) (i : ι) (zero one : EReal) (h0 : zero = 0) (h1 : one = 1) :
    ∑ f : φ, (∑ j : ι, (((d i : EReal) * (zero + ∑ e ∈ Finset.univ.filter (fun e : ε => R e = i ∧ C e = j), one))
        * (d j : EReal)) * (x j f : EReal)) * (w f : EReal)
      = (d i : EReal) * (zero + ∑ e ∈ Finset.univ.filter (fun e : ε => R e = i),
          ∑ f : φ, ((x (C e) f : EReal) * (d (C e) : EReal)) * (w f : EReal)) := by
  subst h0 h1
  have h := congrArg (fun r : ℝ => (r : EReal)) (gcn_law_real R C d x w i)
  simp only [coe_sum, EReal.coe_mul, EReal.coe_add, EReal.coe_zero, EReal.coe_one] at h
  exact h

end Cert.Algebra

end
-- ==== Proof.Gcn.lean ====
/-
  The two programs' first layers are equal. Before the bias and the clamp (which both apply alike) the kernel has, at
  node i and column k, d(i) · (0 + Σ_{e : r(e) = i} p(c(e), k)) with p the projected features, and the reference has
  Σ_f (Σ_j ((d(i) · A(i, j)) · d(j)) · x(j, f)) · W1(f, k) with A counting the edges from i to j. The features and the
  weights are real by the precondition and d is real by construction, so the law of finite real sums joins them.
-/
import proofs.«423551_j3075196584646_2_alg».proof.Proof.GcnR
import proofs.«423551_j3075196584646_2_alg».proof.Proof.KLayer
import proofs.«423551_j3075196584646_2_alg».proof.Proof.Edges
import proofs.«423551_j3075196584646_2_alg».proof.Proof.Algebra
import proofs.«423551_j3075196584646_2_alg».proof.Proof.LibKeepdims
import proofs.«423551_j3075196584646_2_alg».proof.Proof.Spec
import Idealize.ShloMosaic.Lib.Pipeline.Value
import Idealize.ShloMosaic.Lib.ValueIdx
import Idealize.ShloMosaic.PureOps.Ideal.Laws

noncomputable section

namespace Cert.Gcn

open Cert.ReferenceIdeal Cert.ReferenceIdeal.Gen Cert.ReferenceIdeal.Read Idealize.ShloMosaic Idealize.ShloMosaic.ValueIdx
open Cert.KernelIdeal.KLayer Cert.KernelIdeal.KAgg

/-- The word 1.0 is the number 1. -/
theorem oneW_eq : Cert.Spec.oneW = 1 := by
  simp [Cert.Spec.oneW, Ideal.ofBits, Ideal.ieee, -EReal.coe_mul]; norm_num

/-- The word +0.0 is the number 0. -/
theorem zeroW_eq : Cert.Spec.zeroW = 0 := Ideal.ofBits_zero_f32

/-- Before the bias and the clamp: the kernel's weighted neighbourhood sum of the projected features is the
    reference's double matrix product over the normalised dense matrix. -/
theorem core_eq (x0 : FVec Ideal S12288x1433 .f32) (x1 : IVec S2x196608 32) (x2 : FVec Ideal S1433x32 .f32)
    (hx : ∀ i, ∃ r : ℝ, x0 i = (r : EReal)) (hw : ∀ i, ∃ r : ℝ, x2 i = (r : EReal)) (hei : Cert.Edges.InRange x1)
    (p : FVec Ideal S12288x32 .f32)
    (hp : ∀ (j : Fin 12288) (k : Fin 32), p (ix2 j k)
      = Cert.Spec.proj (fun j f => x0 (ix2 j f)) (fun j => val_main_v20 (F := Ideal) x1 (ix1 j)) (fun f k => x2 (ix2 f k)) j k) :
    mulf (broadcastInDim S12288x32 ![0, 1] Cert.KernelIdeal.Gen.bcast_S12288x1_S12288x32_0_1
        (shapeCast S12288x1 (val_main_v20 (F := Ideal) x1) Cert.KernelIdeal.Gen.shapeCasts_S12288_S12288x1))
      (aggK (F := Ideal) p (val_main_v3 (F := Ideal) x1) (wrapCol (val_main_v6 (F := Ideal) x1)))
      = val_main_v44 (F := Ideal) x0 x1 x2 := by
  have hwrap : wrapCol (val_main_v6 (F := Ideal) x1) = val_main_v6 (F := Ideal) x1 :=
    (show wrapCol (val_main_v6 (F := Ideal) x1) = val_main_v31 (F := Ideal) x1 from rfl).trans (Cert.Edges.wrap_col x1 hei)
  rw [hwrap]
  funext idx
  obtain ⟨i, k, rfl⟩ : ∃ (i : Fin 12288) (k : Fin 32), idx = ix2 i k := ⟨idx 0, idx 1, eq_ix2 idx⟩
  rw [mulf_apply, Cert.GcnR.ref_pre x0 x1 x2 hei i k,
    aggK_apply p _ _ (Cert.Edges.row_range x1 hei) (Cert.Edges.col_range x1 hei) i k]
  have hb : broadcastInDim S12288x32 ![0, 1] Cert.KernelIdeal.Gen.bcast_S12288x1_S12288x32_0_1
      (shapeCast S12288x1 (val_main_v20 (F := Ideal) x1) Cert.KernelIdeal.Gen.shapeCasts_S12288_S12288x1) (ix2 i k)
      = val_main_v20 (F := Ideal) x1 (ix1 i) := by
    refine (broadcastInDim_apply _ Cert.KernelIdeal.Gen.bcast_S12288x1_S12288x32_0_1 _ (ix2 i k) (ix2 i (0 : Fin 1)) (fun a => match a with
      | ⟨0, _⟩ => by show i.val = if (12288 : Nat) = 1 then 0 else i.val; rw [if_neg (by decide)]
      | ⟨1, _⟩ => by show 0 = if (1 : Nat) = 1 then 0 else k.val; rw [if_pos rfl])).trans ?_
    exact Idealize.ShloMosaic.Keepdims.shapeCast_a_a1_apply _ _ i 0
  rw [hb]
  simp only [hp, Cert.Spec.proj]
  choose d hd using Cert.Edges.dis_real x1
  choose xr hxr using hx
  choose wr hwr using hw
  simp only [hd, hxr, hwr]
  exact (Cert.Algebra.gcn_law (ι := Fin 12288) (ε := Fin 208896) (φ := Fin 1433)
    (fun e => Cert.Spec.nodeOf (val_main_v3 (F := Ideal) x1 (ix1 e))) (fun e => Cert.Spec.nodeOf (val_main_v6 (F := Ideal) x1 (ix1 e)))
    d (fun j f => xr (ix2 j f)) (fun f => wr (ix2 f k)) i Cert.Spec.zeroW Cert.Spec.oneW zeroW_eq oneW_eq).symm

/-- The first layer's output: the kernel's function of the projected features is the reference's stage. -/
theorem first_layer_eq (x0 : FVec Ideal S12288x1433 .f32) (x1 : IVec S2x196608 32) (x2 : FVec Ideal S1433x32 .f32)
    (x3 : FVec Ideal S32 .f32)
    (hx : ∀ i, ∃ r : ℝ, x0 i = (r : EReal)) (hw : ∀ i, ∃ r : ℝ, x2 i = (r : EReal)) (hei : Cert.Edges.InRange x1)
    (p : FVec Ideal S12288x32 .f32)
    (hp : ∀ (j : Fin 12288) (k : Fin 32), p (ix2 j k)
      = Cert.Spec.proj (fun j f => x0 (ix2 j f)) (fun j => val_main_v20 (F := Ideal) x1 (ix1 j)) (fun f k => x2 (ix2 f k)) j k) :
    hK (F := Ideal) p (val_main_v3 (F := Ideal) x1) (val_main_v6 (F := Ideal) x1)
        (shapeCast S12288x1 (val_main_v20 (F := Ideal) x1) Cert.KernelIdeal.Gen.shapeCasts_S12288_S12288x1) x3
      = val_main_v48 (F := Ideal) x0 x1 x2 x3 := by
  unfold hK
  rw [core_eq x0 x1 x2 hx hw hei p hp]
  rfl

end Cert.Gcn

end
-- ==== Proof.PreFacts.lean ====
/-
  What the precondition says, element by element: every entry of the feature matrix and of the first weight matrix
  is a real number (finite), and every entry of the edge list is a node number, 0 ≤ e < 12288.
-/
import proofs.«423551_j3075196584646_2_alg».proof.Pre_finite_inputs
import proofs.«423551_j3075196584646_2_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Cert.Pre_finite_inputs Idealize.ShloMosaic Idealize.ShloMosaic.ValueIdx

/-- The scalar shape has exactly one index. -/
instance : Subsingleton S_.Idx := ⟨fun a b => funext fun d => d.elim0⟩

/-- The f32 pattern 0x7F800000 (sign 0, exponent all ones, fraction 0) denotes +∞. -/
theorem inf_bits : Ideal.ofBits .f32 0x7F800000#32 = (⊤ : EReal) := by
  simp [Ideal.ofBits, Ideal.ieee]

/-- An extended real x with max x (-x) < +∞ is a real number: at x = -∞ and at x = +∞ the maximum is +∞. -/
theorem real_of_abs_lt_inf (x : EReal)
    (h : Ideal.cmp .olt (max x (-x)) (Ideal.ofBits .f32 0x7F800000#32) = 1#1) : ∃ r : ℝ, x = (r : EReal) := by
  rw [inf_bits] at h
  simp only [Ideal.cmp, StableHlo.Predicate.ofBool_eq_one_iff, decide_eq_true_eq] at h
  induction x using EReal.rec with
  | bot => simp at h
  | top => simp at h
  | coe r => exact ⟨r, rfl⟩

/-- The conjunction of two one-bit arrays, read at one index, is 1 exactly when both are 1 there. -/
theorem andi_at {s : Shape} (x y : IVec s 1) (i : s.Idx) : andi x y i = 1#1 ↔ x i = 1#1 ∧ y i = 1#1 :=
  IntOp.andi_eq_one

/-- From the printed precondition being all ones: the two float arrays the algebra needs are real-valued and the
    edge list's entries are in range (read as signed integers). -/
theorem pre_facts
    (a0 : FVec Ideal S12288x1433 .f32) (a1 : IVec S2x196608 32) (a2 : FVec Ideal S1433x32 .f32) (a3 : FVec Ideal S32 .f32)
    (a4 : FVec Ideal S32x16 .f32) (a5 : FVec Ideal S16 .f32) (a6 : FVec Ideal S32x16 .f32) (a7 : FVec Ideal S16 .f32)
    (a8 : FVec Ideal S16x7 .f32) (a9 : FVec Ideal S7 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a2 i = (r : EReal))
      ∧ (∀ i, 0 ≤ (a1 i).toInt ∧ (a1 i).toInt < 12288) := by
  -- the predicate at its one index: a left-nested conjunction of eleven "all" reductions
  have h0 := congrFun h ValueIdx.ix0
  dsimp only [fn, fn_part1, fn_part2, fn_part3] at h0
  simp only [andi_at] at h0
  obtain ⟨⟨⟨⟨⟨⟨⟨⟨⟨⟨hA0, hA2⟩, -⟩, -⟩, -⟩, -⟩, -⟩, -⟩, -⟩, hge⟩, hlt⟩ := h0
  refine ⟨fun i => ?_, fun i => ?_, fun i => ⟨?_, ?_⟩⟩
  -- an "all" that is 1 is 1 at every element; there |x| < +∞ makes x real
  · exact real_of_abs_lt_inf _ (Host.reduce_andi_all _ _ _ _ ix0 hA0 i)
  · exact real_of_abs_lt_inf _ (Host.reduce_andi_all _ _ _ _ ix0 hA2 i)
  -- the signed compares against the constants 0 and 12288, read as integer inequalities
  · have e : IntOp.cmpi .sge (a1 i) 0#32 = 1#1 := Host.reduce_andi_all _ _ _ _ ix0 hge i
    have e' := IntOp.cmpi_sge.1 e
    rwa [show (0#32 : BitVec 32).toInt = 0 from by decide] at e'
  · have e : IntOp.cmpi .slt (a1 i) 12288#32 = 1#1 := Host.reduce_andi_all _ _ _ _ ix0 hlt i
    have e' := IntOp.cmpi_slt.1 e
    rwa [show (12288#32 : BitVec 32).toInt = 12288 from by decide] at e'

end Cert.PreFacts

end
-- ==== Proof.KOut.lean ====
/-
  The kernel's result array is the reference's last stage at the same arguments. Reading the run backwards: the second
  region's output rows are the head of its entry contents; those are the first layer's output h, its neighbourhood
  mean and the weights; h is the kernel's function of what the first region left, the projected features; and by the
  law of finite real sums that h is the reference's h, whence the means agree (one function of h) and the heads agree
  row by row.
-/
import proofs.«423551_j3075196584646_2_alg».proof.Defs
import proofs.«423551_j3075196584646_2_alg».proof.Proof.KHost1
import proofs.«423551_j3075196584646_2_alg».proof.Proof.KHost2
import proofs.«423551_j3075196584646_2_alg».proof.Proof.KProj
import proofs.«423551_j3075196584646_2_alg».proof.Proof.KHead
import proofs.«423551_j3075196584646_2_alg».proof.Proof.RHead
import proofs.«423551_j3075196584646_2_alg».proof.Proof.Gcn
import proofs.«423551_j3075196584646_2_alg».proof.Proof.Sage
import proofs.«423551_j3075196584646_2_alg».proof.Proof.PreFacts
import proofs.«423551_j3075196584646_2_alg».proof.Proof.LibKeepdims
import Idealize.ShloMosaic.Lib.ValueLayout

set_option maxRecDepth 16384

noncomputable section

namespace Cert.KOut

open Cert.KernelIdeal Cert.KernelIdeal.Gen Idealize.ShloMosaic Idealize.ShloMosaic.TcCoe Idealize.SL.Sem
open Idealize.ShloMosaic.ValueIdx
open Cert.ReferenceIdeal.Read (val_main_v20 val_main_v48 val_main_v75 val_main_v105 val_main_v3 val_main_v6)

variable (m : (ℓ : Loc nD τ sig) → Buf (Elt Ideal) ℓ) (ρ : Dev nD → PrngReg)

/-- What the first region leaves: the projected features of the launched feature matrix, the reference's node
    weights and the launched weights. -/
theorem proj_left (c : Dev nD) (j : Fin 12288) (k : Fin 32) :
    (W4 m ρ c (Proc.devRef .tc main_v23) : S12288x32.Idx → EReal) (ix2 j k)
      = Cert.Spec.proj (fun j f => (m ((c : Thread nD τ).loc main_arg0) : S12288x1433.Idx → EReal) (ix2 j f))
          (fun j => val_main_v20 (F := Ideal) (m ((c : Thread nD τ).loc main_arg1)) (ix1 j))
          (fun f k => (m ((c : Thread nD τ).loc main_arg2) : S1433x32.Idx → EReal) (ix2 f k)) j k := by
  have h3 : W4 m ρ c (Proc.devRef .tc main_v23) = (dat0 (V3 m ρ) c).arrAt 3 cfg0.N := W4_arr m ρ c 3
  rw [h3, Cert.KernelIdeal.KProj.proj_value (V3 m ρ) c j k]
  show Cert.Spec.proj (fun j f => (W3 m ρ c (Proc.devRef .tc main_arg0) : S12288x1433.Idx → EReal) (ix2 j f))
      (fun j => (W3 m ρ c (Proc.devRef .tc main_v21) : S12288x1.Idx → EReal) (ix2 j (0 : Fin 1)))
      (fun f k => (W3 m ρ c (Proc.devRef .tc main_v22) : S1433x32.Idx → EReal) (ix2 f k)) j k = _
  rw [Cert.KernelIdeal.KHost1.entry0_x, Cert.KernelIdeal.KHost1.entry0_d, Cert.KernelIdeal.KHost1.entry0_w]
  simp only [Idealize.ShloMosaic.Keepdims.shapeCast_a_a1_apply, truncf_apply]

/-- The first layer's output at the second region's entry is the reference's. -/
theorem h_eq (hpre : Cert.Pre_KernelIdeal m) (c : Dev nD) :
    W9 m ρ c (Proc.devRef .tc main_v39)
      = val_main_v48 (F := Ideal) (m ((c : Thread nD τ).loc main_arg0)) (m ((c : Thread nD τ).loc main_arg1))
          (m ((c : Thread nD τ).loc main_arg2)) (m ((c : Thread nD τ).loc main_arg3)) := by
  obtain ⟨hx, hw, hei⟩ := Cert.PreFacts.pre_facts _ _ _ _ _ _ _ _ _ _ (hpre c)
  rw [Cert.KernelIdeal.KHost2.entry1_h, Cert.KernelIdeal.KHost1.w4_rows, Cert.KernelIdeal.KHost1.w4_cols,
    Cert.KernelIdeal.KHost1.w4_d, Cert.KernelIdeal.KHost1.w4_arg3]
  exact Cert.Gcn.first_layer_eq _ _ _ _ hx hw hei _ (proj_left m ρ c)

/-- The neighbourhood mean at the second region's entry is the reference's. -/
theorem agg_eq (hpre : Cert.Pre_KernelIdeal m) (c : Dev nD) :
    W9 m ρ c (Proc.devRef .tc main_v66)
      = val_main_v75 (F := Ideal) (m ((c : Thread nD τ).loc main_arg0)) (m ((c : Thread nD τ).loc main_arg1))
          (m ((c : Thread nD τ).loc main_arg2)) (m ((c : Thread nD τ).loc main_arg3)) := by
  rw [Cert.KernelIdeal.KHost2.entry1_agg, h_eq m ρ hpre c, Cert.KernelIdeal.KHost1.w4_arg1]
  exact (Cert.Sage.ref_sage _ _ _ _).symm

/-- The result array after the run is the reference's last stage at the launched arguments. -/
theorem kernel_out (hpre : Cert.Pre_KernelIdeal m) (c : Dev nD) :
    W10 m ρ c (Proc.devRef .tc main_v70)
      = val_main_v105 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  have h8 : W10 m ρ c (Proc.devRef .tc main_v70) = (dat1 (V9 m ρ) c).arrAt 8 cfg1.N := W10_arr m ρ c 8
  rw [h8]
  funext idx
  obtain ⟨i, cc, rfl⟩ : ∃ (i : Fin 12288) (cc : Fin 7), idx = ix2 i cc := ⟨idx 0, idx 1, eq_ix2 idx⟩
  rw [Cert.KernelIdeal.KHead.head_value (V9 m ρ) c i cc, Cert.ReferenceIdeal.RHead.ref_head]
  show Cert.Spec.headRow
      (fun k => (W9 m ρ c (Proc.devRef .tc main_v39) : S12288x32.Idx → EReal) (ix2 i k))
      (fun k => (W9 m ρ c (Proc.devRef .tc main_v66) : S12288x32.Idx → EReal) (ix2 i k))
      (fun k q => (W9 m ρ c (Proc.devRef .tc main_arg4) : S32x16.Idx → EReal) (ix2 k q))
      (fun q => (W9 m ρ c (Proc.devRef .tc main_v67) : S1x16.Idx → EReal) (ix2 (0 : Fin 1) q))
      (fun k q => (W9 m ρ c (Proc.devRef .tc main_arg6) : S32x16.Idx → EReal) (ix2 k q))
      (fun q => (W9 m ρ c (Proc.devRef .tc main_v68) : S1x16.Idx → EReal) (ix2 (0 : Fin 1) q))
      (fun q cc => (W9 m ρ c (Proc.devRef .tc main_arg8) : S16x7.Idx → EReal) (ix2 q cc))
      (fun cc => (W9 m ρ c (Proc.devRef .tc main_v69) : S1x7.Idx → EReal) (ix2 (0 : Fin 1) cc)) cc = _
  rw [h_eq m ρ hpre c, agg_eq m ρ hpre c,
    Cert.KernelIdeal.KHost2.entry1_arg4, Cert.KernelIdeal.KHost2.entry1_arg6, Cert.KernelIdeal.KHost2.entry1_arg8,
    Cert.KernelIdeal.KHost2.entry1_v67, Cert.KernelIdeal.KHost2.entry1_v68, Cert.KernelIdeal.KHost2.entry1_v69,
    Cert.KernelIdeal.KHost1.w4_arg4, Cert.KernelIdeal.KHost1.w4_arg5, Cert.KernelIdeal.KHost1.w4_arg6,
    Cert.KernelIdeal.KHost1.w4_arg7, Cert.KernelIdeal.KHost1.w4_arg8, Cert.KernelIdeal.KHost1.w4_arg9]
  simp only [shapeCast_a_1a_apply]

end Cert.KOut

end
-- ==== Proof.lean ====
/-
  The certificate: a two-layer graph network (a normalised-adjacency layer followed by a mean-aggregation layer) and
  its row-wise head, computed by a kernel program with two tiled regions and by a plain reference.

  Precondition: the float inputs are finite and every entry of the edge list is a node number, 0 ≤ e < 12288 (outside
  that range the reference itself indexes out of range).

  Frames: the two kernel programs' frames are the launch of their two regions among host stretches; the reference's
  frame is its run with the result dropped. The idealisation rewrote nothing, so `preserves` holds trivially.

  Value: the kernel program's result array is the reference's last stage at the same arguments. The kernel never builds
  the dense N×N adjacency: it projects the features first, p = (d·x)·W1 on tiles of 1024 rows, then gathers p along the
  edges and adds it into the source rows; the reference multiplies the dense normalised matrix by x and then by W1. Over
  real inputs the two agree by distributing the finite sums (Proof/Algebra.lean, Proof/Gcn.lean). The second layer's
  neighbourhood mean is one function of the first layer's output in both programs (Proof/Sage.lean), and the head is
  read row by row on both sides against one specification (Proof/Spec.lean, Proof/KHead.lean, Proof/RHead.lean).
-/
import proofs.«423551_j3075196584646_2_alg».proof.Defs
import proofs.«423551_j3075196584646_2_alg».proof.Proof.Gen.Kernel
import proofs.«423551_j3075196584646_2_alg».proof.Proof.Gen.Kernel.Skeleton
import proofs.«423551_j3075196584646_2_alg».proof.Proof.Gen.Kernel.Launch
import proofs.«423551_j3075196584646_2_alg».proof.Proof.Gen.Kernel.Points
import proofs.«423551_j3075196584646_2_alg».proof.Proof.Gen.Kernel.Frame
import proofs.«423551_j3075196584646_2_alg».proof.Proof.Gen.KernelIdeal
import proofs.«423551_j3075196584646_2_alg».proof.Proof.Gen.KernelIdeal.Skeleton
import proofs.«423551_j3075196584646_2_alg».proof.Proof.Gen.KernelIdeal.Launch
import proofs.«423551_j3075196584646_2_alg».proof.Proof.Gen.KernelIdeal.Points
import proofs.«423551_j3075196584646_2_alg».proof.Proof.Gen.KernelIdeal.Frame
import proofs.«423551_j3075196584646_2_alg».proof.Proof.Gen.ReferenceIdeal
import proofs.«423551_j3075196584646_2_alg».proof.Proof.Gen.Pre_finite_inputs
import proofs.«423551_j3075196584646_2_alg».proof.Proof.RefRun
import proofs.«423551_j3075196584646_2_alg».proof.Proof.RefRead
import proofs.«423551_j3075196584646_2_alg».proof.Proof.KRun
import proofs.«423551_j3075196584646_2_alg».proof.Proof.KOut
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealised kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealised programs end with the reference's last stage of the (agreeing) arguments in their result arrays. -/
theorem algebraic : Cert.algebraic_KernelIdeal_ReferenceIdeal := by
  intro m ρ m' ρ' hpre hagree
  refine ⟨fun c => Cert.ReferenceIdeal.Read.val_main_v105 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KOut.kernel_out m ρ hpre c), (h c).2⟩)
      (Cert.KernelIdeal.Gen.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v105_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
